-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128x1 .f32) (main_arg7 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S128x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S1600000x128 : Shape := ⟨2, ![1600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S5000x128 : Shape := ⟨2, ![5000, 128]⟩
abbrev S5000x1 : Shape := ⟨2, ![5000, 1]⟩
abbrev S1x1 : Shape := ⟨2, ![1, 1]⟩
abbrev S64x1 : Shape := ⟨2, ![64, 1]⟩
abbrev S5000x64 : Shape := ⟨2, ![5000, 64]⟩
abbrev S64x128 : Shape := ⟨2, ![64, 128]⟩

abbrev nBuf : Space → Nat
  | .hbm => 97
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S128x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S64, .i32⟩
  | .hbm, ⟨26, _⟩ => ⟨S100000x1, .i32⟩
  | .hbm, ⟨27, _⟩ => ⟨S1x64, .i32⟩
  | .hbm, ⟨28, _⟩ => ⟨S100000x64, .i32⟩
  | .hbm, ⟨29, _⟩ => ⟨S100000x64, .i32⟩
  | .hbm, ⟨30, _⟩ => ⟨S100000x64, .i1⟩
  | .hbm, ⟨31, _⟩ => ⟨S100000x64, .bf16⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S1x128x128, .f32⟩
  | .hbm, ⟨49, _⟩ => ⟨S128x128, .f32⟩
  | .hbm, ⟨50, _⟩ => ⟨S1x128x128, .f32⟩
  | .hbm, ⟨51, _⟩ => ⟨S128x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S1x128x128, .f32⟩
  | .hbm, ⟨70, _⟩ => ⟨S128x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S1x1, .f32⟩
  | .hbm, ⟨91, _⟩ => ⟨S1x128x128, .f32⟩
  | .hbm, ⟨92, _⟩ => ⟨S128x128, .f32⟩
  | .hbm, ⟨93, _⟩ => ⟨S1x128x128, .f32⟩
  | .hbm, ⟨94, _⟩ => ⟨S128x128, .f32⟩
  | .hbm, ⟨95, _⟩ => ⟨S64x1, .f32⟩
  | .hbm, ⟨96, _⟩ => ⟨S64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S5000x1, .f32⟩
  | .local _ .vmem, ⟨19, _⟩ => ⟨S5000x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S5000x1, .f32⟩
  | .local _ .vmem, ⟨30, _⟩ => ⟨S5000x1, .f32⟩
  | .local _ .vmem, ⟨31, _⟩ => ⟨S5000x64, .bf16⟩
  | .local _ .vmem, ⟨32, _⟩ => ⟨S5000x64, .bf16⟩
  | .local _ .vmem, ⟨33, _⟩ => ⟨S128x1, .f32⟩
  | .local _ .vmem, ⟨34, _⟩ => ⟨S1x1, .f32⟩
  | .local _ .vmem, ⟨35, _⟩ => ⟨S64x1, .f32⟩
  | .local _ .vmem, ⟨36, _⟩ => ⟨S64x128, .f32⟩
  | .local _ .vmem, ⟨37, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_scratch0 : Ref sig .tc := ⟨.vmem, 36, rfl⟩
abbrev cc2_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem8_0 : DmaSem sig := 34
abbrev cc2_sem9_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v48 : BitVec 1 := Scalar.cmpi .eq arg0 c19_i32
  let v49 : BitVec 32 := Scalar.extui v48
  let c0_i32_27 : BitVec 32 := 0#32
  let v50 : BitVec 1 := Scalar.cmpi .ne v49 c0_i32_27
  v50

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  shapeCasts_S1_S1x1 : S1.ShapeCasts S1x1
  slices_S3x128x128_S1x128x128_2_0_0 : S3x128x128.Slices ![2, 0, 0] S1x128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S64 : S5000x64.Reduces [0] S64
  shapeCasts_S64_S1x64 : S64.ShapeCasts S1x64
  transposes_S1x64_p1_0_S64x1 : S1x64.Transposes [1, 0] S64x1
  broadcasts_S64x1_S64x128 : S64x1.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S64x1_S64 : S64x1.ShapeCasts S64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S100000x1.size a
  hwx0_5 : ∀ i : grid0.Coords, EltTy.bits .f32 = 32 ∨ (Rect.block (s := S100000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .bf16 = 32 ∨ (Rect.block (s := S100000x64) S5000x64.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x1.size a ≤ S64x1.size a
  hwx2_9 : ∀ i : grid2.Coords, EltTy.bits .f32 = 32 ∨ (Rect.block (s := S64x1) S64x1.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v55) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v19) S5000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg6) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v69) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v74) S64x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S128x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S1x128x128, .f32⟩
  | 49 => ⟨S128x128, .f32⟩
  | 50 => ⟨S100000x128, .f32⟩
  | 51 => ⟨S100000x128, .f32⟩
  | 52 => ⟨S_, .f32⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128x128, .f32⟩
  | 83 => ⟨S128x128, .f32⟩
  | 84 => ⟨S100000x128, .f32⟩
  | 85 => ⟨S100000x128, .f32⟩
  | 86 => ⟨S_, .f32⟩
  | 87 => ⟨S100000x128, .f32⟩
  | 88 => ⟨S100000x128, .i1⟩
  | 89 => ⟨S_, .f32⟩
  | 90 => ⟨S100000x128, .f32⟩
  | 91 => ⟨S100000x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S100000x128, .f32⟩
  | 108 => ⟨S1x128x128, .f32⟩
  | 109 => ⟨S128x128, .f32⟩
  | 110 => ⟨S100000x128, .f32⟩
  | 111 => ⟨S1x128, .f32⟩
  | 112 => ⟨S128, .f32⟩
  | 113 => ⟨S1x128, .f32⟩
  | 114 => ⟨S100000x128, .f32⟩
  | 115 => ⟨S100000x128, .f32⟩
  | 116 => ⟨S1x128x128, .f32⟩
  | 117 => ⟨S128x128, .f32⟩
  | 118 => ⟨S100000x128, .f32⟩
  | 119 => ⟨S100000x128, .f32⟩
  | 120 => ⟨S_, .f32⟩
  | 121 => ⟨S100000x128, .f32⟩
  | 122 => ⟨S100000x128, .i1⟩
  | 123 => ⟨S_, .f32⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S64x128, .f32⟩
  | 1 => ⟨S100000x1, .i32⟩
  | 2 => ⟨S64x128, .f32⟩
  | 3 => ⟨S_, .f32⟩
  | 4 => ⟨S100000, .f32⟩
  | 5 => ⟨S_, .f32⟩
  | 6 => ⟨S64, .f32⟩
  | 7 => ⟨S100000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x128, .f32⟩
  | 14 => ⟨S64x128, .f32⟩
  | 15 => ⟨S64x1, .f32⟩
  | 16 => ⟨S1x1, .f32⟩
  | 17 => ⟨S64x1, .f32⟩
  | 18 => ⟨S64x1, .f32⟩
  | 19 => ⟨S64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_12 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_cst_16 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_17 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_18 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_20 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Bits.Reg0.lean ====
import proofs.«412677_j67808943669808_2_alg».proof.Proof.Gen.Kernel.Launch
import proofs.«412677_j67808943669808_2_alg».proof.Proof.Gen.Kernel.Skeleton
import proofs.«412677_j67808943669808_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 0 of @main: the first layer's row-tile transform (custom call 0, pipeline 0), at the entry contents `V` -/

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the previous point's block is this point's. The window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is not
    fetched its block index has not moved, so the previous point's block is this point's. The window is uncut and
    never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the window is not
    fetched its block index has not moved, so the previous point's block is this point's. The window is uncut and
    never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where the window is not
    fetched its block index has not moved, so the previous point's block is this point's. The window is uncut and
    never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole of their buffer -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

/-! ## What the body leaves in the output window's buffer -/

/-- Window 6's staging buffer after the body, from the six input blocks: its one store as a piece. The payload is
    leaky_relu((x0 * x5) @ x2 + x3 + x1 @ x4), the products on bf16-rounded operands, x5 broadcast along the lanes
    and x3 along the rows. -/
def out0_6 (x0 x1 : Vec F S5000x128 .f32) (x2 : Vec F S128x128 .f32) (x3 : Vec F S1x128 .f32) (x4 : Vec F S128x128 .f32) (x5 : Vec F S5000x1 .f32) : Vec F S5000x128 .f32 :=
  View.canon [⟨r0_0, k0_pay1 (View.ld x0 r0_0) (View.ld x5 r0_1) (View.ld x1 r0_0) (View.ld x2 r0_2) (View.ld x4 r0_2) (View.ld x3 r0_3)⟩]

/-- The one store takes the whole buffer (checked by evaluation), so it covers it. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the six inputs' at read contents `x0 … x5` and the output's at anything,
    runs to the continuation holding the inputs' as they were and the output's at `out0_6` of the inputs'. The printed
    function is its skeleton: six loads of the inputs, one load of the output buffer whose value is never used, and the
    one store; the grid coordinate is not read. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.Bits.Reg1.lean ====
import proofs.«412677_j67808943669808_2_alg».proof.Proof.Gen.Kernel.Launch
import proofs.«412677_j67808943669808_2_alg».proof.Proof.Gen.Kernel.Skeleton
import proofs.«412677_j67808943669808_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 1 of @main: the second layer's row-tile transform (custom call 1, pipeline 1), at the entry contents `V` -/

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's. The window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the previous point's block is this point's. The window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the previous point's block is this point's. The window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved, so the previous point's block is this point's. The window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole of their buffer -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

/-! ## What the body leaves in the output window's buffer -/

/-- Window 6's staging buffer after the body, from the six input blocks: its one store as a piece. The payload is
    leaky_relu((x0 * x5) @ x2 + x3 + x1 @ x4), the products on bf16-rounded operands, x5 broadcast along the lanes
    and x3 along the rows. -/
def out1_6 (x0 x1 : Vec F S5000x128 .f32) (x2 : Vec F S128x128 .f32) (x3 : Vec F S1x128 .f32) (x4 : Vec F S128x128 .f32) (x5 : Vec F S5000x1 .f32) : Vec F S5000x128 .f32 :=
  View.canon [⟨r1_0, k1_pay1 (View.ld x0 r1_0) (View.ld x5 r1_1) (View.ld x1 r1_0) (View.ld x2 r1_2) (View.ld x4 r1_2) (View.ld x3 r1_3)⟩]

/-- The one store takes the whole buffer (checked by evaluation), so it covers it. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the six inputs' at read contents `x0 … x5` and the output's at anything,
    runs to the continuation holding the inputs' as they were and the output's at `out1_6` of the inputs'. The printed
    function is its skeleton: six loads of the inputs, one load of the output buffer whose value is never used, and the
    one store; the grid coordinate is not read. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced at each literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what the core owes, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.Bits.Reg2Kit.lean ====
import proofs.«412677_j67808943669808_2_alg».proof.Proof.Gen.Kernel.Launch
import proofs.«412677_j67808943669808_2_alg».proof.Proof.Gen.Kernel.Skeleton
import proofs.«412677_j67808943669808_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
-- the TensorCore's buffer contents when the region is entered: the parameter every region's half is stated at
variable (V : (c : Dev nD) → (b : Ref sig .tc) → Buf (Elt F) ((c : Thread nD τ).loc b))

/-! ## The windows' blocks of the third region -/

/-- Window `w`'s block at point `t`, read off its array at the contents the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any
    proof data whose array is the entry contents and whose body leaves the block in place: unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any
    proof data whose array is the entry contents and whose body leaves the block in place: unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (its block index never moves: it is fetched at the first point only), for any
    proof data whose array is the entry contents and whose body leaves the block in place: unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (its block index never moves: it is fetched at the first point only), for any
    proof data whose array is the entry contents and whose body leaves the block in place: unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (its block index never moves: it is fetched at the first point only), for any
    proof data whose array is the entry contents and whose body leaves the block in place: unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any
    proof data whose array is the entry contents and whose body leaves the block in place: unfetched, the block
    index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any
    proof data whose array is the entry contents and whose body leaves the block in place: unfetched, the block
    index has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (its block index never moves: it is fetched at the first point only), for any
    proof data whose array is the entry contents and whose body leaves the block in place: unfetched, the block
    index has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (its block index never moves: it is fetched at the first point only), for any
    proof data whose array is the entry contents and whose body leaves the block in place: unfetched, the block
    index has not moved; the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second conditional (the division, the projection and the store of the output). -/
abbrev cond2_1 (i : grid2.Coords) : Prop := k2_cond2 i = 1#1
/-- It holds at the last point only — decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Window 6 is never idle (an input). -/
theorem liveAt2_6 : ∀ t : Fin cfg2.N, cfg2.idle 6 (grid2.coords t) = false := by decide +kernel
/-- Window 7 is never idle (an input). -/
theorem liveAt2_7 : ∀ t : Fin cfg2.N, cfg2.idle 7 (grid2.coords t) = false := by decide +kernel
/-- Window 8 is never idle (an input). -/
theorem liveAt2_8 : ∀ t : Fin cfg2.N, cfg2.idle 8 (grid2.coords t) = false := by decide +kernel

/-- At the first point (reset, no output) the output window is idle: nothing is stored into it. -/
theorem idleAt2_9_A : ∀ t : Fin cfg2.N, cond2_0 (grid2.coords t) → ¬cond2_1 (grid2.coords t) → cfg2.idle 9 (grid2.coords t) = true := by decide +kernel
/-- There the pipeline does not write the output's block back. -/
theorem noFlush2_9_A : ∀ t : Fin cfg2.N, cond2_0 (grid2.coords t) → ¬cond2_1 (grid2.coords t) → (cfg2.win 9).flush t = false := by decide +kernel
/-- At the middle points (no reset, no output) the output window is idle. -/
theorem idleAt2_9_B : ∀ t : Fin cfg2.N, ¬cond2_0 (grid2.coords t) → ¬cond2_1 (grid2.coords t) → cfg2.idle 9 (grid2.coords t) = true := by decide +kernel
/-- There the pipeline does not write the output's block back. -/
theorem noFlush2_9_B : ∀ t : Fin cfg2.N, ¬cond2_0 (grid2.coords t) → ¬cond2_1 (grid2.coords t) → (cfg2.win 9).flush t = false := by decide +kernel
/-- At the last point (no reset, the output stored) the output window is live. -/
theorem liveAt2_9_C : ∀ t : Fin cfg2.N, ¬cond2_0 (grid2.coords t) → cond2_1 (grid2.coords t) → cfg2.idle 9 (grid2.coords t) = false := by decide +kernel

/-! ## The kernel body on any staging memrefs -/

/-- The staging buffer of the output window, through which its contents are stated. -/
abbrev VO2_9 : View sig .tc .vmem S64x1 .f32 := (Memref.whole cc2_stg9_0 : Memref sig .tc .vmem S64x1 .f32).view
/-- Window 0's current staging memref at point `t`, as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
/-- Window 1's current staging memref at point `t`, as the pipeline passes it, and its wholeness. -/
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
/-- Window 2's current staging memref at point `t`, as the pipeline passes it, and its wholeness. -/
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
/-- Window 3's current staging memref at point `t`, as the pipeline passes it, and its wholeness. -/
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
/-- Window 4's current staging memref at point `t`, as the pipeline passes it, and its wholeness. -/
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
/-- Window 5's current staging memref at point `t`, as the pipeline passes it, and its wholeness. -/
abbrev ms2_5 (t : Fin cfg2.N) : Memref sig .tc .vmem S5000x1 .f32 := win2_5.stage (cfg2.slots t 5)
abbrev hs2_5 (t : Fin cfg2.N) : (ms2_5 t).IsWhole := hstage2_5 ((cfg2.slots t 5).cast nbuf2_5)
/-- Window 6's current staging memref at point `t`, as the pipeline passes it, and its wholeness. -/
abbrev ms2_6 (t : Fin cfg2.N) : Memref sig .tc .vmem S5000x64 .bf16 := win2_6.stage (cfg2.slots t 6)
abbrev hs2_6 (t : Fin cfg2.N) : (ms2_6 t).IsWhole := hstage2_6 ((cfg2.slots t 6).cast nbuf2_6)
/-- Window 7's current staging memref at point `t`, as the pipeline passes it, and its wholeness. -/
abbrev ms2_7 (t : Fin cfg2.N) : Memref sig .tc .vmem S128x1 .f32 := win2_7.stage (cfg2.slots t 7)
abbrev hs2_7 (t : Fin cfg2.N) : (ms2_7 t).IsWhole := hstage2_7 ((cfg2.slots t 7).cast nbuf2_7)
/-- Window 8's current staging memref at point `t`, as the pipeline passes it, and its wholeness. -/
abbrev ms2_8 (t : Fin cfg2.N) : Memref sig .tc .vmem S1x1 .f32 := win2_8.stage (cfg2.slots t 8)
abbrev hs2_8 (t : Fin cfg2.N) : (ms2_8 t).IsWhole := hstage2_8 ((cfg2.slots t 8).cast nbuf2_8)
/-- Window 9's current staging memref at point `t`, as the pipeline passes it, and its wholeness. -/
abbrev ms2_9 (t : Fin cfg2.N) : Memref sig .tc .vmem S64x1 .f32 := win2_9.stage (cfg2.slots t 9)
abbrev hs2_9 (t : Fin cfg2.N) : (ms2_9 t).IsWhole := hstage2_9 ((cfg2.slots t 9).cast nbuf2_9)
/-- The scratch operands: whole scoped buffers of the kernel's own, passed beside the windows. -/
abbrev scM2_0 : Memref sig .tc .vmem S64x128 .f32 := Memref.whole cc2_scratch0
abbrev scM2_1 : Memref sig .tc .vmem S1x64 .f32 := Memref.whole cc2_scratch1
/-- The two accumulators the kernel carries between points, as views: what they hold is stated through them. -/
abbrev VS2_0 : View sig .tc .vmem S64x128 .f32 := scM2_0.view
abbrev VS2_1 : View sig .tc .vmem S1x64 .f32 := scM2_1.view

/-- The invariant the body obligation hands the run and takes back, with the two scratch operands as memrefs owned
    at some contents and every other scoped buffer of the core carried unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA
  rw [Pipeline.scopedRest_split_of_list spec2 c [cc2_scratch0, cc2_scratch1] (by decide) (by decide)]
  simp only [scM2_0, scM2_1, owns_whole]; try rfl

end Cert.Kernel.Frm

end
-- ==== Proof.Bits.Reg2Runs.lean ====
import proofs.«412677_j67808943669808_2_alg».proof.Proof.Gen.Kernel.Launch
import proofs.«412677_j67808943669808_2_alg».proof.Proof.Gen.Kernel.Skeleton
import proofs.«412677_j67808943669808_2_alg».proof.Proof.Gen.Kernel.Points
import proofs.«412677_j67808943669808_2_alg».proof.Proof.Bits.Reg2Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The body's three runs: case A (first point: both sums reset, then updated), case B (middle points: both sums
    updated over what the point before left), case C (last point: both sums updated, then the output block stored). -/

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) :
    Σ' (L9 : List (View.Piece (Elt F) S64x1 .f32)) (LS0 : List (View.Piece (Elt F) S64x128 .f32)), { LS1 : List (View.Piece (Elt F) S1x64 .f32) //
      ∀ (xi9 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__sage_last_kernel i arg1 harg1 arg2 harg2 arg3 harg3 arg4 harg4 arg5 harg5 arg6 harg6 arg7 harg7 arg8 harg8 arg9 harg9 arg10 harg10 arg11 harg11 arg12 harg12) K } := by
  refine ⟨[], ?_, ?_, fun xi9 E K => ?run⟩
  case run =>
    simp only [cc2__sage_last_kernel_eq_skeleton]; unfold cc2__sage_last_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (xs0 : Vec F S64x128 .f32) (xs1 : Vec F S1x64 .f32) :
    Σ' (L9 : List (View.Piece (Elt F) S64x1 .f32)) (LS0 : List (View.Piece (Elt F) S64x128 .f32)), { LS1 : List (View.Piece (Elt F) S1x64 .f32) //
      ∀ (xi9 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__sage_last_kernel i arg1 harg1 arg2 harg2 arg3 harg3 arg4 harg4 arg5 harg5 arg6 harg6 arg7 harg7 arg8 harg8 arg9 harg9 arg10 harg10 arg11 harg11 arg12 harg12) K } := by
  refine ⟨[], ?_, ?_, fun xi9 E K => ?run⟩
  case run =>
    simp only [cc2__sage_last_kernel_eq_skeleton]; unfold cc2__sage_last_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (xs0 : Vec F S64x128 .f32) (xs1 : Vec F S1x64 .f32) :
    Σ' (L9 : List (View.Piece (Elt F) S64x1 .f32)) (LS0 : List (View.Piece (Elt F) S64x128 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__sage_last_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__sage_last_kernel_eq_skeleton]; unfold cc2__sage_last_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexists _; iexact HS0
    iexists _; iexact HS1

end Cert.Kernel.Frm

end
-- ==== Proof.Bits.AccStep.lean ====
/-
  The last pallas_call keeps two running sums in scratch memory across its twenty grid points: a 64 × 128 table
  (one row per graph: the sum of the activated rows of the nodes of that graph seen so far) and a 1 × 64 row (the
  number of nodes of each graph seen so far). This module names, over the body's payload terms, what one grid
  point does to the pair (`accStep`), what the pair is before the first point (`accInit`: zeros), and what the last
  point makes of it (`accFinish`: the table divided row by row by the counts clamped below by one, projected by the
  output weights, plus the output bias). Generic in the float family.
-/
import proofs.«412677_j67808943669808_2_alg».proof.Proof.Gen.Kernel.Skeleton

noncomputable section

namespace Cert.Kernel.Frm

open Idealize.ShloMosaic Idealize.SL.Sem Cert.Kernel Cert.Kernel.Gen

variable {F : FTy → Type} [FloatOps F]

/-- The two running sums before the first grid point: the zero table and the zero row (the stores under `i == 0`). -/
def accInit : Vec F S64x128 .f32 × Vec F S1x64 .f32 := (k2_pay4 (F := F), k2_pay5 (F := F))

/-- One grid point's update of the two running sums `s` from the point's blocks: `x0` the aggregated block, `x1` the
    feature block, `x2`, `x3`, `x4` the layer's weights and bias, `x5` the reciprocal degrees, `x6` the one-hot block:
    the table gains the one-hot block's transpose times the activated rows, the row gains the one-hot block's column sums. -/
def accStep (x0 : Vec F S5000x128 .f32) (x1 : Vec F S5000x128 .f32) (x2 : Vec F S128x128 .f32) (x3 : Vec F S1x128 .f32)
    (x4 : Vec F S128x128 .f32) (x5 : Vec F S5000x1 .f32) (x6 : Vec F S5000x64 .bf16)
    (s : Vec F S64x128 .f32 × Vec F S1x64 .f32) : Vec F S64x128 .f32 × Vec F S1x64 .f32 :=
  (k2_pay1 (k2_pay7 x0 x5 x1 x2 x4 x3 x6) s.1, k2_pay2 (k2_pay6 x6) s.2)

/-- What the last grid point stores into the 64 × 1 output block from the finished sums `s`, the output weights `x7`
    and the output bias `x8`. -/
def accFinish (s : Vec F S64x128 .f32 × Vec F S1x64 .f32) (x7 : Vec F S128x1 .f32) (x8 : Vec F S1x1 .f32) : Vec F S64x1 .f32 :=
  k2_pay3 s.2 s.1 x7 x8

end Cert.Kernel.Frm

end
-- ==== Proof.Bits.Reg2.lean ====
/-
  The frame half of the third pallas_call (pipeline 2): twenty grid points over which the body carries two running sums
  in scratch memory, the 64 × 128 table and the 1 × 64 row of `AccStep`. Three control cases: at the first point the
  body zeroes both sums and then updates them, at the middle points it updates them, at the last point it updates them
  and stores the 64 × 1 output block. The proof data names what the two sums hold after each point directly as the
  iterated update `accAt2`, and the output block at the last point as `accFinish` of it. Each case's run leaves lists
  of whole-buffer stores; what those lists read back as (`sval2_κ_j`, `oval2_C_9`) is the payload of the last store,
  its loads of the sums reading back the store before. Generic in the float family and in the entry contents `V`.
-/
import proofs.«412677_j67808943669808_2_alg».proof.Proof.Bits.Reg2Kit
import proofs.«412677_j67808943669808_2_alg».proof.Proof.Bits.Reg2Runs
import proofs.«412677_j67808943669808_2_alg».proof.Proof.Bits.AccStep
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case's stores leave -/

/-- Case A's stores into the 64 × 128 table tile it, so they cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (y : S64x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S64x128.size (by sl_kernel_rfl) y

/-- Case A's stores into the 1 × 64 row tile it, so they cover it. -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 S1x64.size (by sl_kernel_rfl) y

/-- Case B's store into the 64 × 128 table takes the whole of it, so it covers it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S64x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 S64x128.size (by sl_kernel_rfl) y

/-- Case B's store into the 1 × 64 row takes the whole of it, so it covers it. -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 S1x64.size (by sl_kernel_rfl) y

/-- Case C's store into the 64 × 128 table takes the whole of it, so it covers it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S64x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 S64x128.size (by sl_kernel_rfl) y

/-- Case C's store into the 1 × 64 row takes the whole of it, so it covers it. -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 S1x64.size (by sl_kernel_rfl) y

/-- Case C's one store into the 64 × 1 output block takes the whole of it, so it covers it. -/
theorem cover2_C_9 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S64x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).1 S64x1.size (by sl_kernel_rfl) y

/-- The zero offsets of every whole-buffer access, however spelt. -/
theorem hz2 : (![0, 0] : Fin 2 → Nat) = fun _ => 0 := funext fun a => by fin_cases a <;> rfl

/-- Case A (the first point) leaves in the table the update over the zero table: the reset store, read back by the
    update's load, then the update's store over it. -/
theorem sval2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) :
    View.canon (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 = (accStep x0 x1 x2 x3 x4 x5 x6 (accInit (F := F))).1 := by
  show _ = k2_pay1 (k2_pay7 x0 x5 x1 x2 x4 x3 x6) (k2_pay4 (F := F))
  unfold kernelRun2_A
  dsimp only
  sl_unfold_words
  rw [View.canon_cons_unit_zero (S := S64x128) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case A leaves in the row the update over the zero row. -/
theorem sval2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) :
    View.canon (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 = (accStep x0 x1 x2 x3 x4 x5 x6 (accInit (F := F))).2 := by
  show _ = k2_pay2 (k2_pay6 x6) (k2_pay5 (F := F))
  unfold kernelRun2_A
  dsimp only
  sl_unfold_words
  rw [View.canon_cons_unit_zero (S := S1x64) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case B leaves in the table the update over what it held. -/
theorem sval2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 = (accStep x0 x1 x2 x3 x4 x5 x6 s).1 := by
  show _ = k2_pay1 (k2_pay7 x0 x5 x1 x2 x4 x3 x6) s.1
  unfold kernelRun2_B
  dsimp only
  sl_unfold_words
  rw [View.canon_cons_unit_zero (S := S64x128) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case B leaves in the row the update over what it held. -/
theorem sval2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 = (accStep x0 x1 x2 x3 x4 x5 x6 s).2 := by
  show _ = k2_pay2 (k2_pay6 x6) s.2
  unfold kernelRun2_B
  dsimp only
  sl_unfold_words
  rw [View.canon_cons_unit_zero (S := S1x64) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case C leaves in the table the update over what it held. -/
theorem sval2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 = (accStep x0 x1 x2 x3 x4 x5 x6 s).1 := by
  show _ = k2_pay1 (k2_pay7 x0 x5 x1 x2 x4 x3 x6) s.1
  unfold kernelRun2_C
  dsimp only
  sl_unfold_words
  rw [View.canon_cons_unit_zero (S := S64x128) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case C leaves in the row the update over what it held. -/
theorem sval2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 = (accStep x0 x1 x2 x3 x4 x5 x6 s).2 := by
  show _ = k2_pay2 (k2_pay6 x6) s.2
  unfold kernelRun2_C
  dsimp only
  sl_unfold_words
  rw [View.canon_cons_unit_zero (S := S1x64) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case C (the last point) leaves in the output block the finished sums divided, projected and shifted: its loads of
    the two sums read back what the updates just stored. -/
theorem oval2_C_9 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).1 = accFinish (accStep x0 x1 x2 x3 x4 x5 x6 s) x7 x8 := by
  show _ = k2_pay3 (k2_pay2 (k2_pay6 x6) s.2) (k2_pay1 (k2_pay7 x0 x5 x1 x2 x4 x3 x6) s.1) x7 x8
  unfold kernelRun2_C
  dsimp only
  sl_unfold_words
  rw [View.canon_cons_unit_zero (S := S64x1) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

-- the TensorCore's buffer contents when the region is entered: the parameter every region's half is stated at
variable (V : (c : Dev nD) → (b : Ref sig .tc) → Buf (Elt F) ((c : Thread nD τ).loc b))

/-! # Region 2 of @main: the last layer fused with the pooling (custom call 2, pipeline 2), at the entry contents `V` -/

/-- The two running sums after the body at position `n`: the update of the point's seven input blocks applied to what
    the point before left (to the zero pair at the first point, where the body resets them first). -/
def accAt2 (c : Dev nD) : (n : ℕ) → n < cfg2.N → Vec F S64x128 .f32 × Vec F S1x64 .f32
  | 0, hn => accStep (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) accInit
  | n + 1, hn => accStep (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (accAt2 c n (Nat.lt_of_succ_lt hn))

/-- At the first point the sums are the update of the zero pair. -/
theorem accAt2_first (c : Dev nD) (t : Fin cfg2.N) (hz : t.val = 0) :
    accAt2 V c t.val t.isLt = accStep (iblk2 V c 0 t) (iblk2 V c 1 t) (iblk2 V c 2 t) (iblk2 V c 3 t) (iblk2 V c 4 t) (iblk2 V c 5 t) (iblk2 V c 6 t) accInit := by
  obtain ⟨n, hn⟩ := t
  cases n with
  | zero => rfl
  | succ n => exact absurd hz (Nat.succ_ne_zero n)

/-- At any later point they are the update of what the point before left. -/
theorem accAt2_next (c : Dev nD) (t : Fin cfg2.N) (hz : t.val ≠ 0) :
    accAt2 V c t.val t.isLt = accStep (iblk2 V c 0 t) (iblk2 V c 1 t) (iblk2 V c 2 t) (iblk2 V c 3 t) (iblk2 V c 4 t) (iblk2 V c 5 t) (iblk2 V c 6 t) (accAt2 V c (t.val - 1) (Nat.lt_of_le_of_lt (Nat.sub_le _ _) t.isLt)) := by
  obtain ⟨n, hn⟩ := t
  cases n with
  | zero => exact absurd rfl hz
  | succ n => rfl

/-! ## The invariant: the two sums carried between points -/

/-- The region invariant before position `n`: before the first point what the launch hands over (both scratch buffers at
    anything); afterwards the two scratch buffers at the sums the point before left, every other scoped buffer of the
    core unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((accAt2 V c n hn).1) ∗ owns (c : Thread nD τ) scM2_1 fullShare ((accAt2 V c n hn).2))
          ∗ Pipeline.scopedRestBut (Ix := Unit) (Name := ℕ) (U := UR sig nD τ) (Lvl := ℕ) (Val := Elt F) spec2 c [cc2_scratch0, cc2_scratch1])
          ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the two sums at that point's values. -/
theorem PhiS2_succ (c : Dev nD) (n : ℕ) (hn : n < cfg2.N) :
    PhiS2 V c (n + 1) hn = iprop(iprop(iprop(owns (c : Thread nD τ) scM2_0 fullShare ((accAt2 V c n hn).1) ∗ owns (c : Thread nD τ) scM2_1 fullShare ((accAt2 V c n hn).2))
          ∗ Pipeline.scopedRestBut (Ix := Unit) (Name := ℕ) (U := UR sig nD τ) (Lvl := ℕ) (Val := Elt F) spec2 c [cc2_scratch0, cc2_scratch1])
          ∗ (∃ r, prngReg c r)) := rfl

/-- Before a point that is not the first: the two sums at what the point before left. -/
theorem PhiS2_pos (c : Dev nD) (n : ℕ) (h : n ≤ cfg2.N) (hz : n ≠ 0) :
    PhiS2 V c n h = iprop(iprop(iprop(owns (c : Thread nD τ) scM2_0 fullShare ((accAt2 V c (n - 1) (by omega)).1) ∗ owns (c : Thread nD τ) scM2_1 fullShare ((accAt2 V c (n - 1) (by omega)).2))
          ∗ Pipeline.scopedRestBut (Ix := Unit) (Name := ℕ) (U := UR sig nD τ) (Lvl := ℕ) (Val := Elt F) spec2 c [cc2_scratch0, cc2_scratch1])
          ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at the finished sums of that point (read at the last point only:
    elsewhere the window is idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => accFinish (accAt2 V c t.val t.isLt) (iblk2 V c 7 t) (iblk2 V c 8 t)
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced at each literal window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = accFinish (accAt2 V c t.val t.isLt) (iblk2 V c 7 t) (iblk2 V c 8 t) := by dsimp only [dat2]

/-- At the last point the output block is the finished sums divided, projected and shifted. -/
theorem after2_9_last (c : Dev nD) (t : Fin cfg2.N) (ht : t.val = 19) :
    (dat2 V c).after 9 t = accFinish (accAt2 V c t.val t.isLt) (iblk2 V c 7 t) (iblk2 V c 8 t) := after2_9 V c t

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`: the invariant, what the core owes, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point: the inputs' memrefs hold their blocks; the closed forms of the two conditions say which case
    the point is in; the invariant hands the body the two scratch buffers at what the point before left (at anything at
    the first point) and takes them back at this point's sums, which is what the case's stores read back as; the output's
    buffer comes back untouched where the window is idle and at the finished sums at the last point; the core owes
    nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  by_cases h0 : t.val % 20 = 0
  · by_cases h1 : t.val % 20 = 19
    · exfalso; omega
    · have hz : t.val = 0 := by omega
      have hc0' : cond2_0 (grid2.coords t) := (hcond2_0 t).mpr h0
      have hc1' : ¬cond2_1 (grid2.coords t) := fun h => h1 ((hcond2_1 t).mp h)
      rw [Dat.leavesExact_idle (dat2 V c) 9 t (idleAt2_9_A t hc0' hc1') (noFlush2_9_A t hc0' hc1')]
      rw [accAt2_first V c t hz]
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro
              exact (View.read_writes_eq_canon _ _ _ (scover2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))).trans (sval2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))
            · unfold owns; iexists _; isplitr
              swap; · iexact HS1
              ipureintro
              exact (View.read_writes_eq_canon _ _ _ (scover2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))).trans (sval2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    have hc0' : ¬cond2_0 (grid2.coords t) := fun h => h0 ((hcond2_0 t).mp h)
    by_cases h1 : t.val % 20 = 19
    · have hc1' : cond2_1 (grid2.coords t) := (hcond2_1 t).mpr h1
      rw [show (dat2 V c).leavesExact 9 t = owns (c : Thread nD τ) (ms2_9 t) fullShare ((dat2 V c).after 9 t) from by
        unfold Dat.leavesExact; rw [liveAt2_9_C t hc0' hc1'], after2_9]
      rw [accAt2_next V c t hz]
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)).1 (accAt2 V c (t.val - 1) (Nat.lt_of_le_of_lt (Nat.sub_le _ _) t.isLt)).2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro
              exact (View.read_writes_eq_canon _ _ _ (scover2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
            · unfold owns; iexists _; isplitr
              swap; · iexact HS1
              ipureintro
              exact (View.read_writes_eq_canon _ _ _ (scover2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro
      exact (View.read_writes_eq_canon _ _ _ (cover2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (oval2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
    · have hc1' : ¬cond2_1 (grid2.coords t) := fun h => h1 ((hcond2_1 t).mp h)
      rw [Dat.leavesExact_idle (dat2 V c) 9 t (idleAt2_9_B t hc0' hc1') (noFlush2_9_B t hc0' hc1')]
      rw [accAt2_next V c t hz]
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)).1 (accAt2 V c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro
              exact (View.read_writes_eq_canon _ _ _ (scover2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
            · unfold owns; iexists _; isplitr
              swap; · iexact HS1
              ipureintro
              exact (View.read_writes_eq_canon _ _ _ (scover2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: what the two sums hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.Kernel.Frm

end
-- ==== Proof.Bits.Run.lean ====
import proofs.«412677_j67808943669808_2_alg».proof.Proof.Gen.Kernel.Launch
import proofs.«412677_j67808943669808_2_alg».proof.Proof.Gen.Kernel.Skeleton
import proofs.«412677_j67808943669808_2_alg».proof.Proof.Gen.Kernel.Points
import proofs.«412677_j67808943669808_2_alg».proof.Proof.Gen.Kernel.Regions
import proofs.«412677_j67808943669808_2_alg».proof.Proof.Bits.Reg0
import proofs.«412677_j67808943669808_2_alg».proof.Proof.Bits.Reg1
import proofs.«412677_j67808943669808_2_alg».proof.Proof.Bits.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! # The buffer contents the three regions leave, stage by stage -/

/-- At region 0's exit: its arrays at what the pipeline leaves, every other buffer as entered. -/
def X2 (c : Dev nD) : Valuation τ sig (Elt F) :=
  Pipeline.withArrays spec0 c (V1 m c) fun w => (dat0 (fun c b => V1 m c b) c).arrAt w cfg0.N
def outs2 : Outs (F := F) := fun _ r c => X2 m c r
/-- At region 1's exit. -/
def X4 (c : Dev nD) : Valuation τ sig (Elt F) :=
  Pipeline.withArrays spec1 c (V3 m (outs2 m) c) fun w => (dat1 (fun c b => V3 m (outs2 m) c b) c).arrAt w cfg1.N
def outs4 : Outs (F := F) := fun J r c => if J = 2 then X2 m c r else X4 m c r
/-- At region 2's exit. -/
def X6 (c : Dev nD) : Valuation τ sig (Elt F) :=
  Pipeline.withArrays spec2 c (V5 m (outs4 m) c) fun w => (dat2 (fun c b => V5 m (outs4 m) c b) c).arrAt w cfg2.N
/-- What the regions leave: after item 1 region 0's exit contents, after item 3 region 1's, after item 5 region 2's. -/
def outs : Outs (F := F) := fun J r c => if J = 2 then X2 m c r else if J = 4 then X4 m c r else X6 m c r

theorem V3_outs (c : Dev nD) : V3 m (outs m) c = V3 m (outs2 m) c := rfl
theorem V5_outs (c : Dev nD) : V5 m (outs m) c = V5 m (outs4 m) c := rfl

theorem outs_2 (c : Dev nD) : outs m 2 main_v37 c = (dat0 (fun c b => V1 m c b) c).arrAt 6 cfg0.N := by
  show X2 m c (Proc.devRef .tc (Pipeline.arrRef spec0 6)) = _
  unfold X2; exact Pipeline.withArrays_arr spec0 launch0.win.arr_inj c _ _ 6
theorem outs_4 (c : Dev nD) : outs m 4 main_v55 c = (dat1 (fun c b => V3 m (outs m) c b) c).arrAt 6 cfg1.N := by
  show X4 m c (Proc.devRef .tc (Pipeline.arrRef spec1 6)) = _
  unfold X4; exact Pipeline.withArrays_arr spec1 launch1.win.arr_inj c _ _ 6
theorem outs_6 (c : Dev nD) : outs m 6 main_v74 c = (dat2 (fun c b => V5 m (outs m) c b) c).arrAt 9 cfg2.N := by
  show X6 m c (Proc.devRef .tc (Pipeline.arrRef spec2 9)) = _
  unfold X6; exact Pipeline.withArrays_arr spec2 launch2.win.arr_inj c _ _ 9

/-! # The proof data family and the thread state -/

def pdats : (p : Fin 3) → (c : Dev nD) → Dat τ (Elt F) Unit ℕ (UR sig nD τ) ℕ (Pipeline.pin (pcfgs (F := F)) adm p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)

/-! ## Region 0 -/

/-- Every window of region 0 but the last is an input window, and its array is not the output's. -/
theorem win0_in : ∀ w : Fin cfg0.W, w ≠ 6 → (cfg0.win w).isOut = false := by decide
theorem win0_ne : ∀ w : Fin cfg0.W, w ≠ 6 → Pipeline.arrRef spec0 w ∉ ([main_v37] : List (Ref sig .tc)) := by decide

/-- An input window's array is at exit what it was at entry, and the contents after the region still read that there. -/
theorem hF0_in (c : Dev nD) (w : Fin cfg0.W) (hin : (cfg0.win w).isOut = false)
    (hne : Pipeline.arrRef spec0 w ∉ ([main_v37] : List (Ref sig .tc))) :
    (dat0 (fun c b => V1 m c b) c).arrAt w cfg0.N = V2 m (outs m) c (Pipeline.arrRef spec0 w) :=
  ((dat0 (fun c b => V1 m c b) c).arrAt_in w hin _).trans
    ((A_eq0 (fun c b => V1 m c b) c w).trans (V2_of m (outs m) c (Pipeline.arrRef spec0 w) hne).symm)

/-- The output window's array is at exit its write-backs folded: what the contents after the region hold there. -/
theorem hF0_out (c : Dev nD) :
    (dat0 (fun c b => V1 m c b) c).arrAt 6 cfg0.N = V2 m (outs m) c (Pipeline.arrRef spec0 6) := by
  have h : V2 m (outs m) c (Proc.devRef .tc main_v37) = outs m 2 main_v37 c := Function.update_self _ _ _
  exact (outs_2 m c).symm.trans h.symm

/-- At region 0's exit each of its arrays holds what the contents after the region read there. -/
theorem hF0 (c : Dev nD) (w : Fin cfg0.W) :
    (dat0 (fun c b => V1 m c b) c).arrAt w cfg0.N = V2 m (outs m) c (Pipeline.arrRef spec0 w) := by
  by_cases h : w = 6
  · subst h; exact hF0_out m c
  · exact hF0_in m c w (win0_in w h) (win0_ne w h)

/-- Off the region's arrays the contents after the region are those before it. -/
theorem hrest0 (c : Dev nD) (b : Ref sig .tc) (hb : b ∉ Finset.univ.image (Pipeline.arrRef spec0)) :
    V2 m (outs m) c b = V1 m c b :=
  V2_of m (outs m) c b fun h => hb (by
    rw [List.mem_singleton.mp h]; exact Finset.mem_image.mpr ⟨6, Finset.mem_univ _, rfl⟩)

set_option backward.isDefEq.respectTransparency.types false in
/-- Region 0 over the thread state: entered from every unscoped buffer at the contents before it, left at the contents
    after it; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Every window of region 1 but the last is an input window, and its array is not the output's. -/
theorem win1_in : ∀ w : Fin cfg1.W, w ≠ 6 → (cfg1.win w).isOut = false := by decide
theorem win1_ne : ∀ w : Fin cfg1.W, w ≠ 6 → Pipeline.arrRef spec1 w ∉ ([main_v55] : List (Ref sig .tc)) := by decide

/-- An input window's array is at exit what it was at entry, and the contents after the region still read that there. -/
theorem hF1_in (c : Dev nD) (w : Fin cfg1.W) (hin : (cfg1.win w).isOut = false)
    (hne : Pipeline.arrRef spec1 w ∉ ([main_v55] : List (Ref sig .tc))) :
    (dat1 (fun c b => V3 m (outs m) c b) c).arrAt w cfg1.N = V4 m (outs m) c (Pipeline.arrRef spec1 w) :=
  ((dat1 (fun c b => V3 m (outs m) c b) c).arrAt_in w hin _).trans
    ((A_eq1 (fun c b => V3 m (outs m) c b) c w).trans (V4_of m (outs m) c (Pipeline.arrRef spec1 w) hne).symm)

/-- The output window's array is at exit its write-backs folded: what the contents after the region hold there. -/
theorem hF1_out (c : Dev nD) :
    (dat1 (fun c b => V3 m (outs m) c b) c).arrAt 6 cfg1.N = V4 m (outs m) c (Pipeline.arrRef spec1 6) := by
  have h : V4 m (outs m) c (Proc.devRef .tc main_v55) = outs m 4 main_v55 c := Function.update_self _ _ _
  exact (outs_4 m c).symm.trans h.symm

/-- At region 1's exit each of its arrays holds what the contents after the region read there. -/
theorem hF1 (c : Dev nD) (w : Fin cfg1.W) :
    (dat1 (fun c b => V3 m (outs m) c b) c).arrAt w cfg1.N = V4 m (outs m) c (Pipeline.arrRef spec1 w) := by
  by_cases h : w = 6
  · subst h; exact hF1_out m c
  · exact hF1_in m c w (win1_in w h) (win1_ne w h)

/-- Off the region's arrays the contents after the region are those before it. -/
theorem hrest1 (c : Dev nD) (b : Ref sig .tc) (hb : b ∉ Finset.univ.image (Pipeline.arrRef spec1)) :
    V4 m (outs m) c b = V3 m (outs m) c b :=
  V4_of m (outs m) c b fun h => hb (by
    rw [List.mem_singleton.mp h]; exact Finset.mem_image.mpr ⟨6, Finset.mem_univ _, rfl⟩)

set_option backward.isDefEq.respectTransparency.types false in
/-- Region 1 over the thread state: entered from every unscoped buffer at the contents before it, left at the contents
    after it; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Every window of region 2 but the last is an input window, and its array is not the output's. -/
theorem win2_in : ∀ w : Fin cfg2.W, w ≠ 9 → (cfg2.win w).isOut = false := by decide
theorem win2_ne : ∀ w : Fin cfg2.W, w ≠ 9 → Pipeline.arrRef spec2 w ∉ ([main_v74] : List (Ref sig .tc)) := by decide

/-- An input window's array is at exit what it was at entry, and the contents after the region still read that there. -/
theorem hF2_in (c : Dev nD) (w : Fin cfg2.W) (hin : (cfg2.win w).isOut = false)
    (hne : Pipeline.arrRef spec2 w ∉ ([main_v74] : List (Ref sig .tc))) :
    (dat2 (fun c b => V5 m (outs m) c b) c).arrAt w cfg2.N = V6 m (outs m) c (Pipeline.arrRef spec2 w) :=
  ((dat2 (fun c b => V5 m (outs m) c b) c).arrAt_in w hin _).trans
    ((A_eq2 (fun c b => V5 m (outs m) c b) c w).trans (V6_of m (outs m) c (Pipeline.arrRef spec2 w) hne).symm)

/-- The output window's array is at exit its write-backs folded: what the contents after the region hold there. -/
theorem hF2_out (c : Dev nD) :
    (dat2 (fun c b => V5 m (outs m) c b) c).arrAt 9 cfg2.N = V6 m (outs m) c (Pipeline.arrRef spec2 9) := by
  have h : V6 m (outs m) c (Proc.devRef .tc main_v74) = outs m 6 main_v74 c := Function.update_self _ _ _
  exact (outs_6 m c).symm.trans h.symm

/-- At region 2's exit each of its arrays holds what the contents after the region read there. -/
theorem hF2 (c : Dev nD) (w : Fin cfg2.W) :
    (dat2 (fun c b => V5 m (outs m) c b) c).arrAt w cfg2.N = V6 m (outs m) c (Pipeline.arrRef spec2 w) := by
  by_cases h : w = 9
  · subst h; exact hF2_out m c
  · exact hF2_in m c w (win2_in w h) (win2_ne w h)

/-- Off the region's arrays the contents after the region are those before it. -/
theorem hrest2 (c : Dev nD) (b : Ref sig .tc) (hb : b ∉ Finset.univ.image (Pipeline.arrRef spec2)) :
    V6 m (outs m) c b = V5 m (outs m) c b :=
  V6_of m (outs m) c b fun h => hb (by
    rw [List.mem_singleton.mp h]; exact Finset.mem_image.mpr ⟨9, Finset.mem_univ _, rfl⟩)

set_option backward.isDefEq.respectTransparency.types false in
/-- Region 2 over the thread state: entered from every unscoped buffer at the contents before it, left at the contents
    after it; its arrays split out of the unscoped buffers and put back at the exit contents; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (fun c b => V5 m (outs m) c b) c)
    unfold Pipeline.ΦA
    iintro ⟨Hp, -, Hr⟩
    isplitl [Hr]; · iexact Hr
    iexact Hp
  hout c := by
    rw [Pipeline.ownSems0_none]
    refine (hout2 (fun c b => V5 m (outs m) c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V5 m (outs m) c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The run -/

/-- Beside the buffers the rest ends owing nothing. -/
theorem R_owes (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- @main from memory `m` with zero counters: every weakly fair execution terminates, and every final memory holds each
    unscoped buffer of every core at the last contents of the fold through the host stretches and the three regions. -/
theorem run_all : θ_run defs (onTc (τ := τ) (main (F := F))) ⟨m, fun _ => 0, ρ⟩
    (fun r => ∀ c : Dev nD, ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by
      rewrite [main_chain c, Pipeline.Seg.run_eq_chain,
        show (segs m (outs m) 𝒱₀ L lv (fun _ => R) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V7 m (outs m) c b)
    (hfin := fun c s' => by
      iintro ⟨Hh, HSI⟩
      unfold StableHlo.held
      imodintro
      iapply (pointsTo_read_all (Pipeline.ucRefs τ sig) (fun b => ((c : Thread nD τ).1, b)) (V7 m (outs m) c) s')
      isplitl [Hh] <;> iassumption)
    (hQ := fun _ h => h)

end Cert.Kernel.Frm
end
-- ==== Proof.Bits.RunVals.lean ====
/-
  The run of @main restated at the result and the arguments: every weakly fair execution ends with the result buffer at
  what the last host stretch makes of the third pallas_call's output, and every argument array as launched.
-/
import proofs.«412677_j67808943669808_2_alg».proof.Proof.Bits.Run

set_option maxRecDepth 16384

noncomputable section

namespace Cert.Kernel.Frm

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg)

/-- An unscoped TensorCore reference is among those whose contents the run's end names. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and at the eight arguments. -/
theorem run_vals : θ_run defs (onTc (τ := τ) (main (F := F))) ⟨m, fun _ => 0, ρ⟩ (fun r => ∀ c : Dev nD,
      r.2.mem ((c.tc : Thread nD τ).loc main_v75) = V7 m (outs m) c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_ucRefs main_v75 (by decide)),
      (h c _ (mem_ucRefs main_arg0 (by decide))).trans (V7_main_arg0 m (outs m) c),
      (h c _ (mem_ucRefs main_arg1 (by decide))).trans (V7_main_arg1 m (outs m) c),
      (h c _ (mem_ucRefs main_arg2 (by decide))).trans (V7_main_arg2 m (outs m) c),
      (h c _ (mem_ucRefs main_arg3 (by decide))).trans (V7_main_arg3 m (outs m) c),
      (h c _ (mem_ucRefs main_arg4 (by decide))).trans (V7_main_arg4 m (outs m) c),
      (h c _ (mem_ucRefs main_arg5 (by decide))).trans (V7_main_arg5 m (outs m) c),
      (h c _ (mem_ucRefs main_arg6 (by decide))).trans (V7_main_arg6 m (outs m) c),
      (h c _ (mem_ucRefs main_arg7 (by decide))).trans (V7_main_arg7 m (outs m) c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_vals m ρ)

end Cert.Kernel.Frm

end
-- ==== Proof.Spec.lean ====
/-
  The mathematics both programs compute, over the extended reals, stated once over literal index types.

  One graph-convolution layer maps a node-feature array `x` (100000 × 128) and the neighbour sums `agg` (same shape)
  to `leaky (((agg ⊙ inv) · Wl) + b + x · Wr)`: every row of `agg` is scaled by that node's reciprocal degree
  `inv` (a column), both products contract the 128 features, `b` is a row added to every row, and `leaky z` is
  `z` where `0 ≤ z` and `c · z` elsewhere, `c` the single-precision number nearest one tenth.

  The pooling takes the activated rows `act` of the last layer and the 0/1 table `oh` (row `r`, column `g`: is node
  `r` in graph `g`), sums the rows of each graph, divides by the number of its nodes clamped below by one, projects
  the 128 features by the column `wo` and adds the bias `bo`.
-/
import Idealize.ShloMosaic.PureOps.Ideal
import Idealize.ShloMosaic.Lib.ValueIdx

noncomputable section

namespace Cert.Spec

open Idealize.ShloMosaic Idealize.ShloMosaic.ValueIdx

/-- A matrix of extended reals with `n0` rows and `n1` columns, as the programs' arrays are read at `Ideal`. -/
abbrev Mat (n0 n1 : Nat) : Type := (⟨2, ![n0, n1]⟩ : Shape).Idx → EReal

/-- The activation: `z` where `0 ≤ z`, the tenth-like constant times `z` elsewhere. -/
def leaky (z : EReal) : EReal :=
  Scalar.select (FloatOps.cmpf (F := Ideal) (φ := .f32) .oge z (FloatOps.ofBits (F := Ideal) .f32 0x00000000#32)) z
    (FloatOps.mulf (F := Ideal) (φ := .f32) (FloatOps.ofBits (F := Ideal) .f32 0x3DCCCCCD#32) z)

/-- Before the activation: row `r` of `(agg ⊙ inv) · wl + b + x · wr` at feature `d`. -/
def preAct {R : Nat} (agg x : Mat R 128) (inv : Mat R 1) (wl wr : Mat 128 128) (b : Mat 1 128) (r : Fin R) (d : Fin 128) : EReal :=
  (∑ k : Fin 128, (agg (ix2 r k) * inv (ix2 r 0)) * wl (ix2 k d)) + b (ix2 0 d) + ∑ k : Fin 128, x (ix2 r k) * wr (ix2 k d)

/-- One layer's output at row `r`, feature `d`. -/
def rowOut {R : Nat} (agg x : Mat R 128) (inv : Mat R 1) (wl wr : Mat 128 128) (b : Mat 1 128) (r : Fin R) (d : Fin 128) : EReal :=
  leaky (preAct agg x inv wl wr b r d)

/-- One layer's output array. -/
def layerArr {R : Nat} (agg x : Mat R 128) (inv : Mat R 1) (wl wr : Mat 128 128) (b : Mat 1 128) : Mat R 128 :=
  fun i => rowOut agg x inv wl wr b (i 0) (i 1)

/-- The sum of the activated rows of graph `g` at feature `k`: every row weighted by the 0/1 table. -/
def poolSum {R : Nat} (act : Mat R 128) (oh : Mat R 64) (g : Fin 64) (k : Fin 128) : EReal :=
  ∑ r : Fin R, oh (ix2 r g) * act (ix2 r k)

/-- The number of nodes of graph `g`. -/
def poolCnt {R : Nat} (oh : Mat R 64) (g : Fin 64) : EReal := ∑ r : Fin R, oh (ix2 r g)

/-- The pooled, projected and shifted result: one number per graph. -/
def poolOut {R : Nat} (act : Mat R 128) (oh : Mat R 64) (wo : Mat 128 1) (bo : Mat 1 1) : Mat 64 1 :=
  fun i => (∑ k : Fin 128, Ideal.div (poolSum act oh (i 0) k) (max (poolCnt oh (i 0)) (FloatOps.ofBits (F := Ideal) .f32 0x3F800000#32)) * wo (ix2 k 0)) + bo (ix2 0 0)

/-- The 0/1 table of the batch vector `b`: entry (r, g) is one exactly when node `r`'s 32-bit batch word is the word `g`. -/
def onehot {R : Nat} (b : (⟨1, ![R]⟩ : Shape).Idx → BitVec 32) : Mat R 64 :=
  fun i => FloatOps.uitofp (F := Ideal) .bf16 (IntOp.cmpi .eq (b (ix1 (i 0))) (BitVec.ofNat 32 (i 1).val))

end Cert.Spec

end
-- ==== Proof.RefLayer.lean ====
/-
  The reference program's three graph-convolution layers, each read as the one expression of the specification.

  A layer's output array is a select between its pre-activation and the tenth-like multiple of it, on the comparison of
  the pre-activation with zero; the pre-activation is (neighbour sums scaled by the reciprocal degree) times the left
  weights, plus the bias row, plus the layer's input times the right weights. Every stage is read at an index (r, d)
  from the stages before it, the two contractions as sums over the 128 features, and the composed index maps of the
  broadcasts and contractions are the plain coordinate pairs (r, k), (r, 0), (k, d), (0, d).
-/
import proofs.«412677_j67808943669808_2_alg».proof.Proof.Gen.ReferenceIdeal.Read
import proofs.«412677_j67808943669808_2_alg».proof.Proof.Spec

noncomputable section

namespace Cert.ReferenceIdeal.RefValue

open Cert.ReferenceIdeal Cert.ReferenceIdeal.Read Cert.Spec Idealize.ShloMosaic Idealize.ShloMosaic.ValueIdx

variable (x0 : (⟨S100000x128, .f32⟩ : BufTy).Contents (Elt Ideal)) (x1 : (⟨S2x1600000, .i32⟩ : BufTy).Contents (Elt Ideal))
  (x3 : (⟨S3x128x128, .f32⟩ : BufTy).Contents (Elt Ideal)) (x4 : (⟨S3x128, .f32⟩ : BufTy).Contents (Elt Ideal))
  (x5 : (⟨S3x128x128, .f32⟩ : BufTy).Contents (Elt Ideal))

/-! ## One layer at one index

  The select on the comparison with zero of `(s1 + bb) + s2`, between it and the tenth-like multiple of it, is the
  specification's layer at (r, d) once the three summands are its two contractions and its bias entry. -/

theorem layer_at {agg x : Mat 100000 128} {inv : Mat 100000 1} {wl wr : Mat 128 128} {b : Mat 1 128}
    (r : Fin 100000) (d : Fin 128) (s1 bb s2 : EReal)
    (h1 : s1 = ∑ k : Fin 128, (agg (ix2 r k) * inv (ix2 r 0)) * wl (ix2 k d))
    (hb : bb = b (ix2 0 d))
    (h2 : s2 = ∑ k : Fin 128, x (ix2 r k) * wr (ix2 k d)) :
    Scalar.select
        (FloatOps.cmpf (F := Ideal) (φ := .f32) .oge (FloatOps.addf (F := Ideal) (φ := .f32) (FloatOps.addf (F := Ideal) (φ := .f32) s1 bb) s2)
          (FloatOps.ofBits (F := Ideal) .f32 0x00000000#32))
        (FloatOps.addf (F := Ideal) (φ := .f32) (FloatOps.addf (F := Ideal) (φ := .f32) s1 bb) s2)
        (FloatOps.mulf (F := Ideal) (φ := .f32) (FloatOps.ofBits (F := Ideal) .f32 0x3DCCCCCD#32)
          (FloatOps.addf (F := Ideal) (φ := .f32) (FloatOps.addf (F := Ideal) (φ := .f32) s1 bb) s2))
      = layerArr agg x inv wl wr b (ix2 r d) := by
  subst h1 hb h2
  rfl

/-! ## The composed index maps are coordinate pairs -/

/-- Layer 1: the left contraction reads its left operand at (r, k). -/
theorem lidx27 (r : Fin 100000) (d k : Fin 128) : lidx_main_v27 (ix2 r d) k = ix2 r k :=
  funext fun a => Fin.ext (by match a with | ⟨0, _⟩ => rfl | ⟨1, _⟩ => rfl)
/-- Layer 1: the left contraction reads its right operand at (k, d). -/
theorem ridx27 (r : Fin 100000) (d k : Fin 128) : ridx_main_v27 (ix2 r d) k = ix2 k d :=
  funext fun a => Fin.ext (by match a with | ⟨0, _⟩ => rfl | ⟨1, _⟩ => rfl)
/-- Layer 1: the right contraction reads its left operand at (r, k). -/
theorem lidx35 (r : Fin 100000) (d k : Fin 128) : lidx_main_v35 (ix2 r d) k = ix2 r k :=
  funext fun a => Fin.ext (by match a with | ⟨0, _⟩ => rfl | ⟨1, _⟩ => rfl)
/-- Layer 1: the right contraction reads its right operand at (k, d). -/
theorem ridx35 (r : Fin 100000) (d k : Fin 128) : ridx_main_v35 (ix2 r d) k = ix2 k d :=
  funext fun a => Fin.ext (by match a with | ⟨0, _⟩ => rfl | ⟨1, _⟩ => rfl)
/-- Layer 1: the reciprocal-degree column broadcast along the features is read at (r, 0). -/
theorem idx23 (r : Fin 100000) (k : Fin 128) : idx_main_v23 (ix2 r k) = ix2 r 0 :=
  funext fun a => Fin.ext (by match a with | ⟨0, _⟩ => rfl | ⟨1, _⟩ => rfl)
/-- Layer 1: the bias row broadcast along the rows is read at (0, d). -/
theorem idx31 (r : Fin 100000) (d : Fin 128) : idx_main_v31 (ix2 r d) = ix2 0 d :=
  funext fun a => Fin.ext (by match a with | ⟨0, _⟩ => rfl | ⟨1, _⟩ => rfl)

/-- Layer 2: the left contraction reads its left operand at (r, k). -/
theorem lidx56 (r : Fin 100000) (d k : Fin 128) : lidx_main_v56 (ix2 r d) k = ix2 r k :=
  funext fun a => Fin.ext (by match a with | ⟨0, _⟩ => rfl | ⟨1, _⟩ => rfl)
/-- Layer 2: the left contraction reads its right operand at (k, d). -/
theorem ridx56 (r : Fin 100000) (d k : Fin 128) : ridx_main_v56 (ix2 r d) k = ix2 k d :=
  funext fun a => Fin.ext (by match a with | ⟨0, _⟩ => rfl | ⟨1, _⟩ => rfl)
/-- Layer 2: the right contraction reads its left operand at (r, k). -/
theorem lidx64 (r : Fin 100000) (d k : Fin 128) : lidx_main_v64 (ix2 r d) k = ix2 r k :=
  funext fun a => Fin.ext (by match a with | ⟨0, _⟩ => rfl | ⟨1, _⟩ => rfl)
/-- Layer 2: the right contraction reads its right operand at (k, d). -/
theorem ridx64 (r : Fin 100000) (d k : Fin 128) : ridx_main_v64 (ix2 r d) k = ix2 k d :=
  funext fun a => Fin.ext (by match a with | ⟨0, _⟩ => rfl | ⟨1, _⟩ => rfl)
/-- Layer 2: the reciprocal-degree column broadcast along the features is read at (r, 0). -/
theorem idx52 (r : Fin 100000) (k : Fin 128) : idx_main_v52 (ix2 r k) = ix2 r 0 :=
  funext fun a => Fin.ext (by match a with | ⟨0, _⟩ => rfl | ⟨1, _⟩ => rfl)
/-- Layer 2: the bias row broadcast along the rows is read at (0, d). -/
theorem idx60 (r : Fin 100000) (d : Fin 128) : idx_main_v60 (ix2 r d) = ix2 0 d :=
  funext fun a => Fin.ext (by match a with | ⟨0, _⟩ => rfl | ⟨1, _⟩ => rfl)

/-- Layer 3: the left contraction reads its left operand at (r, k). -/
theorem lidx85 (r : Fin 100000) (d k : Fin 128) : lidx_main_v85 (ix2 r d) k = ix2 r k :=
  funext fun a => Fin.ext (by match a with | ⟨0, _⟩ => rfl | ⟨1, _⟩ => rfl)
/-- Layer 3: the left contraction reads its right operand at (k, d). -/
theorem ridx85 (r : Fin 100000) (d k : Fin 128) : ridx_main_v85 (ix2 r d) k = ix2 k d :=
  funext fun a => Fin.ext (by match a with | ⟨0, _⟩ => rfl | ⟨1, _⟩ => rfl)
/-- Layer 3: the right contraction reads its left operand at (r, k). -/
theorem lidx93 (r : Fin 100000) (d k : Fin 128) : lidx_main_v93 (ix2 r d) k = ix2 r k :=
  funext fun a => Fin.ext (by match a with | ⟨0, _⟩ => rfl | ⟨1, _⟩ => rfl)
/-- Layer 3: the right contraction reads its right operand at (k, d). -/
theorem ridx93 (r : Fin 100000) (d k : Fin 128) : ridx_main_v93 (ix2 r d) k = ix2 k d :=
  funext fun a => Fin.ext (by match a with | ⟨0, _⟩ => rfl | ⟨1, _⟩ => rfl)
/-- Layer 3: the reciprocal-degree column broadcast along the features is read at (r, 0). -/
theorem idx81 (r : Fin 100000) (k : Fin 128) : idx_main_v81 (ix2 r k) = ix2 r 0 :=
  funext fun a => Fin.ext (by match a with | ⟨0, _⟩ => rfl | ⟨1, _⟩ => rfl)
/-- Layer 3: the bias row broadcast along the rows is read at (0, d). -/
theorem idx89 (r : Fin 100000) (d : Fin 128) : idx_main_v89 (ix2 r d) = ix2 0 d :=
  funext fun a => Fin.ext (by match a with | ⟨0, _⟩ => rfl | ⟨1, _⟩ => rfl)

/-! ## The layers -/

/-- The first layer: its input is the node-feature argument. -/
theorem layer1 : (val_main_v41 (F := Ideal) x0 x1 x3 x4 x5 : Mat 100000 128)
    = layerArr (val_main_v22 (F := Ideal) x0 x1) x0 (val_main_v12 (F := Ideal) x1) (val_main_v26 (F := Ideal) x3) (val_main_v34 (F := Ideal) x5) (val_main_v30 (F := Ideal) x4) := by
  funext i
  obtain ⟨r, d, rfl⟩ : ∃ (r : Fin 100000) (d : Fin 128), i = ix2 r d := ⟨i 0, i 1, eq_ix2 i⟩
  rw [val_main_v41_apply, val_main_v38_apply, val_main_v40_apply, val_main_v37_apply, val_main_cst_5_apply,
    val_main_v39_apply, val_main_cst_6_apply, val_main_v36_apply, val_main_v32_apply, val_main_v27_apply,
    val_main_v31_apply, val_main_v35_apply]
  refine layer_at r d _ _ _ ?_ ?_ ?_
  · refine Finset.sum_congr rfl fun k _ => ?_
    rw [lidx27, ridx27, val_main_v24_apply, val_main_v23_apply, idx23]
    rfl
  · rw [idx31]
  · refine Finset.sum_congr rfl fun k _ => ?_
    rw [lidx35, ridx35]

/-- The second layer: its input is the first layer's output. -/
theorem layer2 : (val_main_v70 (F := Ideal) x0 x1 x3 x4 x5 : Mat 100000 128)
    = layerArr (val_main_v51 (F := Ideal) x0 x1 x3 x4 x5) (val_main_v41 (F := Ideal) x0 x1 x3 x4 x5) (val_main_v12 (F := Ideal) x1) (val_main_v55 (F := Ideal) x3) (val_main_v63 (F := Ideal) x5) (val_main_v59 (F := Ideal) x4) := by
  funext i
  obtain ⟨r, d, rfl⟩ : ∃ (r : Fin 100000) (d : Fin 128), i = ix2 r d := ⟨i 0, i 1, eq_ix2 i⟩
  rw [val_main_v70_apply, val_main_v67_apply, val_main_v69_apply, val_main_v66_apply, val_main_cst_10_apply,
    val_main_v68_apply, val_main_cst_11_apply, val_main_v65_apply, val_main_v61_apply, val_main_v56_apply,
    val_main_v60_apply, val_main_v64_apply]
  refine layer_at r d _ _ _ ?_ ?_ ?_
  · refine Finset.sum_congr rfl fun k _ => ?_
    rw [lidx56, ridx56, val_main_v53_apply, val_main_v52_apply, idx52]
    rfl
  · rw [idx60]
  · refine Finset.sum_congr rfl fun k _ => ?_
    rw [lidx64, ridx64]

/-- The third layer: its input is the second layer's output. -/
theorem layer3 : (val_main_v99 (F := Ideal) x0 x1 x3 x4 x5 : Mat 100000 128)
    = layerArr (val_main_v80 (F := Ideal) x0 x1 x3 x4 x5) (val_main_v70 (F := Ideal) x0 x1 x3 x4 x5) (val_main_v12 (F := Ideal) x1) (val_main_v84 (F := Ideal) x3) (val_main_v92 (F := Ideal) x5) (val_main_v88 (F := Ideal) x4) := by
  funext i
  obtain ⟨r, d, rfl⟩ : ∃ (r : Fin 100000) (d : Fin 128), i = ix2 r d := ⟨i 0, i 1, eq_ix2 i⟩
  rw [val_main_v99_apply, val_main_v96_apply, val_main_v98_apply, val_main_v95_apply, val_main_cst_15_apply,
    val_main_v97_apply, val_main_cst_16_apply, val_main_v94_apply, val_main_v90_apply, val_main_v85_apply,
    val_main_v89_apply, val_main_v93_apply]
  refine layer_at r d _ _ _ ?_ ?_ ?_
  · refine Finset.sum_congr rfl fun k _ => ?_
    rw [lidx85, ridx85, val_main_v82_apply, val_main_v81_apply, idx81]
    rfl
  · rw [idx89]
  · refine Finset.sum_congr rfl fun k _ => ?_
    rw [lidx93, ridx93]

end Cert.ReferenceIdeal.RefValue

end
-- ==== Proof.RefPool.lean ====
/-
  The reference program's closing steps, read as the pooling of Spec: the activated rows of the last layer are summed
  per graph by a scatter-add along the batch vector, the nodes of each graph are counted by a second scatter-add of ones,
  the sums are divided by the counts clamped below by one, projected by the column Wo and shifted by bo.

  A scatter-add places update row r at the row named by r's batch word read as a signed integer, and drops it when that
  integer is outside [0, 64). So the element (g, k) of the first scatter is the sum over the nodes r whose word is g of
  the feature k of row r, which is the sum over all nodes of the 0/1 table's entry (r, g) times that feature; the
  element g of the second is the sum of the table's column g.
-/
import proofs.«412677_j67808943669808_2_alg».proof.Proof.Gen.ReferenceIdeal.Read
import proofs.«412677_j67808943669808_2_alg».proof.Proof.Spec
import Idealize.ShloMosaic.Lib.StableHlo.Predicate
import Idealize.ShloMosaic.Lib.IdealHost

noncomputable section

namespace Cert.ReferenceIdeal.RefValue

open Cert.ReferenceIdeal Cert.ReferenceIdeal.Gen Cert.Spec Idealize.ShloMosaic Idealize.ShloMosaic.ValueIdx

/-- The dimension numbers of the feature scatter: rows of a [100000 × 128] array added into a [64 × 128] array. -/
abbrev d102 : ScatterDims S64x128 S100000x1 S100000x128 := scatter_S64x128_S100000x1_S100000x128_1_0_0_1

/-- The dimension numbers of the counting scatter: a [100000] vector added into a [64] vector. -/
abbrev d106 : ScatterDims S64 S100000x1 S100000 := scatter_S64_S100000x1_S100000_n_0_0_1

/-! ## Where an update lands -/

theorem start102_0 (j : S100000x128.Idx) (idx : IVec S100000x1 32) :
    d102.start j idx 0 = (idx (ix2 (j 0) 0)).toInt := by
  unfold ScatterDims.start
  rw [dif_pos (show (0 : Fin S64x128.rank) ∈ d102.scatterDimsToOperandDims by decide)]
  congr 2
  funext b
  match b with
  | ⟨0, _⟩ => rfl
  | ⟨1, _⟩ => rfl

theorem start102_1 (j : S100000x128.Idx) (idx : IVec S100000x1 32) :
    d102.start j idx 1 = 0 := by
  unfold ScatterDims.start
  rw [dif_neg (show ¬ (1 : Fin S64x128.rank) ∈ d102.scatterDimsToOperandDims by decide)]

theorem window102_0 (j : S100000x128.Idx) : d102.window j 0 = 0 := by
  unfold ScatterDims.window
  rw [dif_neg (show ¬ (0 : Fin S64x128.rank) ∈ d102.sKept by decide)]

theorem window102_1 (j : S100000x128.Idx) : d102.window j 1 = (j 1).val := by
  unfold ScatterDims.window
  rw [dif_pos (show (1 : Fin S64x128.rank) ∈ d102.sKept by decide)]
  rfl

theorem start106_0 (j : S100000.Idx) (idx : IVec S100000x1 32) :
    d106.start j idx 0 = (idx (ix2 (j 0) 0)).toInt := by
  unfold ScatterDims.start
  rw [dif_pos (show (0 : Fin S64.rank) ∈ d106.scatterDimsToOperandDims by decide)]
  congr 2
  funext b
  match b with
  | ⟨0, _⟩ => rfl
  | ⟨1, _⟩ => rfl

theorem window106_0 (j : S100000.Idx) : d106.window j 0 = 0 := by
  unfold ScatterDims.window
  rw [dif_neg (show ¬ (0 : Fin S64.rank) ∈ d106.sKept by decide)]

/-- An update element (row r, feature k') of the feature scatter lands on (g, k) exactly when row r's index word,
    read signed, is g and k' is k; a word outside [0, 64) lands nowhere. -/
theorem land102 (j : S100000x128.Idx) (idx : IVec S100000x1 32) (g : Fin 64) (k : Fin 128) :
    d102.resultIdx? j idx = some (ix2 g k) ↔ ((idx (ix2 (j 0) 0)).toInt = (g.val : Int) ∧ (j 1).val = k.val) := by
  have s0 := start102_0 j idx
  have s1 := start102_1 j idx
  have w0 := window102_0 j
  have w1 := window102_1 j
  have hg := g.isLt
  have hk := k.isLt
  have hj1 : (j 1).val < 128 := (j 1).isLt
  have z0 : S64x128.size 0 = 64 := rfl
  have z1 : S64x128.size 1 = 128 := rfl
  unfold ScatterDims.resultIdx?
  split
  · rename_i h
    have h0 := h 0
    have h1 := h 1
    constructor
    · intro e
      have e' := Option.some.inj e
      have e0 : (d102.start j idx 0 + d102.window j 0).toNat = g.val := congrArg Fin.val (congrFun e' 0)
      have e1 : (d102.start j idx 1 + d102.window j 1).toNat = k.val := congrArg Fin.val (congrFun e' 1)
      rw [s0, w0] at e0 h0
      rw [s1, w1] at e1 h1
      exact ⟨by omega, by omega⟩
    · rintro ⟨hA, hK⟩
      congr 1
      funext a
      match a with
      | ⟨0, _⟩ =>
        apply Fin.ext
        show (d102.start j idx 0 + d102.window j 0).toNat = g.val
        rw [s0, w0, hA]; omega
      | ⟨1, _⟩ =>
        apply Fin.ext
        show (d102.start j idx 1 + d102.window j 1).toNat = k.val
        rw [s1, w1]; omega
  · rename_i h
    constructor
    · intro e; exact absurd e (by simp)
    · rintro ⟨hA, hK⟩
      exfalso; apply h
      intro a
      match a with
      | ⟨0, _⟩ =>
        show 0 ≤ d102.start j idx 0 + d102.window j 0 ∧ d102.start j idx 0 + d102.window j 0 < ((S64x128.size 0 : Nat) : Int)
        rw [s0, w0, hA, z0]; omega
      | ⟨1, _⟩ =>
        show 0 ≤ d102.start j idx 1 + d102.window j 1 ∧ d102.start j idx 1 + d102.window j 1 < ((S64x128.size 1 : Nat) : Int)
        rw [s1, w1, z1]; omega

/-- An update element r of the counting scatter lands on g exactly when its index word, read signed, is g. -/
theorem land106 (j : S100000.Idx) (idx : IVec S100000x1 32) (g : Fin 64) :
    d106.resultIdx? j idx = some (ix1 g) ↔ (idx (ix2 (j 0) 0)).toInt = (g.val : Int) := by
  have s0 := start106_0 j idx
  have w0 := window106_0 j
  have hg := g.isLt
  have z0 : S64.size 0 = 64 := rfl
  unfold ScatterDims.resultIdx?
  split
  · rename_i h
    have h0 := h 0
    constructor
    · intro e
      have e' := Option.some.inj e
      have e0 : (d106.start j idx 0 + d106.window j 0).toNat = g.val := congrArg Fin.val (congrFun e' 0)
      rw [s0, w0] at e0 h0
      omega
    · intro hA
      congr 1
      funext a
      match a with
      | ⟨0, _⟩ =>
        apply Fin.ext
        show (d106.start j idx 0 + d106.window j 0).toNat = g.val
        rw [s0, w0, hA]; omega
  · rename_i h
    constructor
    · intro e; exact absurd e (by simp)
    · intro hA
      exfalso; apply h
      intro a
      match a with
      | ⟨0, _⟩ =>
        show 0 ≤ d106.start j idx 0 + d106.window j 0 ∧ d106.start j idx 0 + d106.window j 0 < ((S64.size 0 : Nat) : Int)
        rw [s0, w0, hA, z0]; omega

/-! ## The 0/1 table -/

/-- A 32-bit word read signed is g (below 64) exactly when it is the word g. -/
theorem toInt_eq_iff (a : BitVec 32) (g : Fin 64) : a.toInt = (g.val : Int) ↔ a = BitVec.ofNat 32 g.val := by
  have hg := g.isLt
  have h := StableHlo.Predicate.toInt_ofNat_small g.val (by omega)
  constructor
  · intro e; exact BitVec.toInt_inj.mp (e.trans h.symm)
  · intro e; rw [e]; exact h

/-- The table's entry (r, g) is one when node r's word, read signed, is g, and zero otherwise. -/
theorem onehot_apply {R : Nat} (b : (⟨1, ![R]⟩ : Shape).Idx → BitVec 32) (r : Fin R) (g : Fin 64) :
    onehot b (ix2 r g) = if (b (ix1 r)).toInt = (g.val : Int) then (1 : EReal) else 0 := by
  show (((IntOp.cmpi .eq (b (ix1 r)) (BitVec.ofNat 32 g.val)).toNat : ℝ) : EReal) = _
  by_cases h : (b (ix1 r)).toInt = (g.val : Int)
  · rw [if_pos h, StableHlo.Predicate.cmpi_eq_iff.mpr ((toInt_eq_iff _ g).mp h)]
    simp
  · rw [if_neg h, eq_zero_of_ne_one (fun e => h ((toInt_eq_iff _ g).mpr (StableHlo.Predicate.cmpi_eq_iff.mp e)))]
    simp

/-! ## The two scatters as sums over the nodes -/

/-- A rank-1 index set is its coordinate range. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The feature scatter into a zero array, with index words the batch words: at (g, k), the sum over the nodes of the
    0/1 table's entry times the node's feature k. -/
theorem scatterAdd102 (z : S64x128.Idx → EReal) (hz : ∀ i, z i = 0) (idx : IVec S100000x1 32)
    (x2 : S100000.Idx → BitVec 32) (hidx : ∀ r : Fin 100000, idx (ix2 r 0) = x2 (ix1 r))
    (act : S100000x128.Idx → EReal) (g : Fin 64) (k : Fin 128) :
    Ideal.hostScatterAdd d102 z idx act (ix2 g k) = poolSum act (onehot x2) g k := by
  unfold Ideal.hostScatterAdd poolSum
  rw [hz, zero_add, Finset.sum_filter, sum_idx2]
  refine Finset.sum_congr rfl fun r _ => ?_
  rw [onehot_apply]
  by_cases hA : (x2 (ix1 r)).toInt = (g.val : Int)
  · rw [if_pos hA, one_mul, Finset.sum_eq_single k]
    · rw [if_pos ((land102 (ix2 r k) idx g k).mpr ⟨by rw [hidx]; exact hA, rfl⟩)]
    · intro k' _ hk'
      rw [if_neg]
      intro e
      exact hk' (Fin.ext ((land102 (ix2 r k') idx g k).mp e).2)
    · intro h; exact absurd (Finset.mem_univ k) h
  · rw [if_neg hA, zero_mul]
    refine Finset.sum_eq_zero fun k' _ => ?_
    rw [if_neg]
    intro e
    apply hA
    have h := ((land102 (ix2 r k') idx g k).mp e).1
    rw [hidx] at h
    exact h

/-- The counting scatter into a zero vector, every update one: at g, the sum over the nodes of the 0/1 table's entry. -/
theorem scatterAdd106 (z : S64.Idx → EReal) (hz : ∀ i, z i = 0) (idx : IVec S100000x1 32)
    (x2 : S100000.Idx → BitVec 32) (hidx : ∀ r : Fin 100000, idx (ix2 r 0) = x2 (ix1 r))
    (u : S100000.Idx → EReal) (hu : ∀ i, u i = 1) (g : Fin 64) :
    Ideal.hostScatterAdd d106 z idx u (ix1 g) = poolCnt (onehot (R := 100000) x2) g := by
  unfold Ideal.hostScatterAdd poolCnt
  rw [hz, zero_add, Finset.sum_filter, sum_idx1]
  refine Finset.sum_congr rfl fun r _ => ?_
  rw [onehot_apply, hu]
  by_cases hA : (x2 (ix1 r)).toInt = (g.val : Int)
  · rw [if_pos hA, if_pos ((land106 (ix1 r) idx g).mpr (by rw [hidx]; exact hA))]
  · rw [if_neg hA, if_neg]
    intro e
    apply hA
    have h := (land106 (ix1 r) idx g).mp e
    rw [hidx] at h
    exact h

/-! ## The two scatters of the program -/

/-- The batch vector as a [100000 × 1] column reads, at (r, 0), the vector at r. -/
theorem bcast_batch (x2 : (⟨S100000, .i32⟩ : BufTy).Contents (Elt Ideal)) (r : Fin 100000) :
    broadcastInDim S100000x1 ![0] bcast_S100000_S100000x1_0 x2 (ix2 r 0) = x2 (ix1 r) :=
  broadcastInDim_apply _ bcast_S100000_S100000x1_0 x2 (ix2 r 0) (ix1 r) (fun a => match a with
    | ⟨0, _⟩ => by show r.val = if (100000 : Nat) = 1 then 0 else r.val; rw [if_neg (by decide)])

/-- The sum of the rows of each graph: the feature scatter of any [100000 × 128] array by the batch vector into zeros. -/
theorem scatter_sum (act : (⟨S100000x128, .f32⟩ : BufTy).Contents (Elt Ideal)) (x2 : (⟨S100000, .i32⟩ : BufTy).Contents (Elt Ideal))
    (g : Fin 64) (k : Fin 128) :
    Host.scatterAdd (F := Ideal) (φ := .f32) scatter_S64x128_S100000x1_S100000x128_1_0_0_1
      (broadcastInDim S64x128 ![] bcast_S_S64x128 (constant (F := Ideal) S_ .f32 0x00000000#32 : (⟨S_, .f32⟩ : BufTy).Contents (Elt Ideal)) : (⟨S64x128, .f32⟩ : BufTy).Contents (Elt Ideal))
      (broadcastInDim S100000x1 ![0] bcast_S100000_S100000x1_0 x2 : (⟨S100000x1, .i32⟩ : BufTy).Contents (Elt Ideal))
      act (ix2 g k) = poolSum act (onehot x2) g k := by
  show Ideal.hostScatterAdd d102 _ _ _ _ = _
  exact scatterAdd102 _ (fun i => by rw [broadcastInDim_scalar_apply]; exact Ideal.ofBits_zero_f32) _ x2 (bcast_batch x2) act g k

/-- The number of nodes of each graph: the counting scatter of ones by the batch vector into zeros. -/
theorem scatter_cnt (x2 : (⟨S100000, .i32⟩ : BufTy).Contents (Elt Ideal)) (g : Fin 64) :
    Host.scatterAdd (F := Ideal) (φ := .f32) scatter_S64_S100000x1_S100000_n_0_0_1
      (broadcastInDim S64 ![] bcast_S_S64 (constant (F := Ideal) S_ .f32 0x00000000#32 : (⟨S_, .f32⟩ : BufTy).Contents (Elt Ideal)) : (⟨S64, .f32⟩ : BufTy).Contents (Elt Ideal))
      (broadcastInDim S100000x1 ![0] bcast_S100000_S100000x1_0 x2 : (⟨S100000x1, .i32⟩ : BufTy).Contents (Elt Ideal))
      (broadcastInDim S100000 ![] bcast_S_S100000 (constant (F := Ideal) S_ .f32 0x3F800000#32 : (⟨S_, .f32⟩ : BufTy).Contents (Elt Ideal)) : (⟨S100000, .f32⟩ : BufTy).Contents (Elt Ideal))
      (ix1 g) = poolCnt (onehot (R := 100000) x2) g := by
  show Ideal.hostScatterAdd d106 _ _ _ _ = _
  exact scatterAdd106 _ (fun i => by rw [broadcastInDim_scalar_apply]; exact Ideal.ofBits_zero_f32) _ x2 (bcast_batch x2) _
    (fun i => by rw [broadcastInDim_scalar_apply]; exact Ideal.ofBits_one_f32) g

/-! ## The pooled output -/

open Cert.ReferenceIdeal.Read

/-- The contraction reads the quotient at (g, k) … -/
theorem lidx_eq (i : S64x1.Idx) (k : Fin 128) : lidx_main_v112 i k = ix2 (i 0) k :=
  funext fun a => match a with
    | ⟨0, _⟩ => rfl
    | ⟨1, _⟩ => rfl

/-- … and the projection column at (k, 0). -/
theorem ridx_eq (i : S64x1.Idx) (k : Fin 128) : ridx_main_v112 i k = ix2 k 0 :=
  funext fun a => match a with
    | ⟨0, _⟩ => rfl
    | ⟨1, _⟩ => Fin.ext (by have h : (i 1).val < 1 := (i 1).isLt; show (i 1).val = 0; omega)

/-- The program's value before its last reshape is the pooled, projected and shifted result of the last layer's output. -/
theorem pool (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S128x1, .f32⟩ : BufTy).Contents (Elt Ideal)) (x7 : (⟨S1, .f32⟩ : BufTy).Contents (Elt Ideal)) :
    (val_main_v115 (F := Ideal) x0 x1 x2 x3 x4 x5 x6 x7 : Mat 64 1)
      = poolOut (val_main_v99 (F := Ideal) x0 x1 x3 x4 x5) (onehot x2) x6 (val_main_v113 (F := Ideal) x7) := by
  funext i
  rw [val_main_v115_apply, val_main_v112_apply, val_main_v114_apply, Ideal.addf_def]
  unfold poolOut
  refine congrArg₂ (fun a b : EReal => a + b) (Finset.sum_congr rfl fun k _ => ?_) ?_
  ·
    rw [val_main_v111_apply, Ideal.hostDivf_def, val_main_v110_apply, val_main_v109_apply, val_main_v108_apply, Ideal.maximumf_def,
      val_main_v107_apply, val_main_cst_20_apply]
    have e102 : val_main_v102 (F := Ideal) x0 x1 x2 x3 x4 x5 (lidx_main_v112 i k)
        = poolSum (val_main_v99 (F := Ideal) x0 x1 x3 x4 x5) (onehot x2) (i 0) k := by
      rw [lidx_eq]
      exact scatter_sum (val_main_v99 (F := Ideal) x0 x1 x3 x4 x5) x2 (i 0) k
    have e106 : val_main_v106 (F := Ideal) x2 (idx_main_v109 (idx_main_v110 (lidx_main_v112 i k)))
        = poolCnt (onehot (R := 100000) x2) (i 0) := by
      have e : idx_main_v109 (idx_main_v110 (lidx_main_v112 i k)) = ix1 (i 0) :=
        funext fun a => match a with
          | ⟨0, _⟩ => rfl
      rw [e]
      exact scatter_cnt x2 (i 0)
    rw [e102, e106, ridx_eq]
  · exact congrArg (val_main_v113 (F := Ideal) x7) (funext fun a => match a with
      | ⟨0, _⟩ => rfl
      | ⟨1, _⟩ => rfl)

/-- The program's result is that value with its unit axis dropped. -/
theorem result (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S3x128x128, .f32⟩ : BufTy).Contents (Elt Ideal)) (x4 : (⟨S3x128, .f32⟩ : BufTy).Contents (Elt Ideal)) (x5 : (⟨S3x128x128, .f32⟩ : BufTy).Contents (Elt Ideal)) (x6 : (⟨S128x1, .f32⟩ : BufTy).Contents (Elt Ideal)) (x7 : (⟨S1, .f32⟩ : BufTy).Contents (Elt Ideal)) :
    val_main_v116 (F := Ideal) x0 x1 x2 x3 x4 x5 x6 x7
      = shapeCast S64 (val_main_v115 (F := Ideal) x0 x1 x2 x3 x4 x5 x6 x7) shapeCasts_S64x1_S64 := rfl

end Cert.ReferenceIdeal.RefValue

end
-- ==== Proof.HostK.lean ====
/-
  The host side of the kernel's program read as values: what each stretch of host operations leaves in the
  buffers the three kernel calls are entered with, as named functions of the program's arguments and of the
  previous call's output array.
-/
import proofs.«412677_j67808943669808_2_alg».proof.Proof.Gen.KernelIdeal.Regions
import Idealize.ShloMosaic.Lib.StableHlo.Run
import Idealize.ShloMosaic.PureOps.Ideal

set_option maxRecDepth 4096
-- the first host stretch is a chain of forty-four operations
set_option maxHeartbeats 4000000

noncomputable section

namespace Cert.KernelIdeal.Val

open Idealize.ShloMosaic Idealize.ShloMosaic.TcCoe Idealize.ShloMosaic.StableHlo Cert.KernelIdeal Cert.KernelIdeal.Gen

/-! ## The host stretches' functions -/

/-- The edges' source row: row 0 of the edge table, as a vector. -/
def hSrc (e : IVec S2x1600000 32) : IVec S1600000 32 :=
  shapeCast S1600000 (extractStridedSlice S1x1600000 ![0, 0] e slices_S2x1600000_S1x1600000_0_0) shapeCasts_S1x1600000_S1600000

/-- The edges' destination row: row 1 of the edge table, as a vector. -/
def hDst (e : IVec S2x1600000 32) : IVec S1600000 32 :=
  shapeCast S1600000 (extractStridedSlice S1x1600000 ![1, 0] e slices_S2x1600000_S1x1600000_1_0) shapeCasts_S1x1600000_S1600000

/-- The neighbour sums of a node array `x` from the two edge rows: every edge adds the row of `x` at its source
    (a negative source counted from the end) into the row at its destination, starting from zeros. -/
def hAggOf (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbour sums of `x` over the edge table `e`. -/
def hAgg (x : FVec Ideal S100000x128 .f32) (e : IVec S2x1600000 32) : FVec Ideal S100000x128 .f32 :=
  hAggOf x (hSrc e) (hDst e)

/-- The reciprocal in-degrees from the destination row: ones added per edge at its destination, clamped below by one,
    inverted, as a column. -/
def hInvOf (dst : IVec S1600000 32) : FVec Ideal S100000x1 .f32 :=
  shapeCast S100000x1
    (Host.divf (broadcastInDim S100000 ![] bcast_S_S100000 (constant (F := Ideal) S_ .f32 0x3F800000#32))
      (maximumf
        (Host.scatterAdd scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))
    shapeCasts_S100000_S100000x1

/-- The reciprocal in-degrees of the edge table `e`. -/
def hInv (e : IVec S2x1600000 32) : FVec Ideal S100000x1 .f32 := hInvOf (hDst e)

/-- The 0/1 membership table of the nodes' graph numbers `b`: row `r`, column `g` is one where `b r = g`. -/
def hOh (b : IVec S100000 32) : FVec Ideal S100000x64 .bf16 :=
  uitofp .bf16
    (cmpi .eq
      (broadcastInDim S100000x64 ![0, 1] bcast_S100000x1_S100000x64_0_1 (broadcastInDim S100000x1 ![0] bcast_S100000_S100000x1_0 b))
      (broadcastInDim S100000x64 ![0, 1] bcast_S1x64_S100000x64_0_1 (broadcastInDim S1x64 ![1] bcast_S64_S1x64_1 (iotaInDim S64 32 0))))

/-- Layer 0's left weights: slice 0 of the stacked left weights. -/
def hWl0 (a3 : FVec Ideal S3x128x128 .f32) : FVec Ideal S128x128 .f32 :=
  shapeCast S128x128 (extractStridedSlice S1x128x128 ![0, 0, 0] a3 slices_S3x128x128_S1x128x128_0_0_0) shapeCasts_S1x128x128_S128x128
/-- Layer 1's left weights. -/
def hWl1 (a3 : FVec Ideal S3x128x128 .f32) : FVec Ideal S128x128 .f32 :=
  shapeCast S128x128 (extractStridedSlice S1x128x128 ![1, 0, 0] a3 slices_S3x128x128_S1x128x128_1_0_0) shapeCasts_S1x128x128_S128x128
/-- Layer 2's left weights. -/
def hWl2 (a3 : FVec Ideal S3x128x128 .f32) : FVec Ideal S128x128 .f32 :=
  shapeCast S128x128 (extractStridedSlice S1x128x128 ![2, 0, 0] a3 slices_S3x128x128_S1x128x128_2_0_0) shapeCasts_S1x128x128_S128x128
/-- Layer 0's right weights: slice 0 of the stacked right weights. -/
def hWr0 (a5 : FVec Ideal S3x128x128 .f32) : FVec Ideal S128x128 .f32 :=
  shapeCast S128x128 (extractStridedSlice S1x128x128 ![0, 0, 0] a5 slices_S3x128x128_S1x128x128_0_0_0) shapeCasts_S1x128x128_S128x128
/-- Layer 1's right weights. -/
def hWr1 (a5 : FVec Ideal S3x128x128 .f32) : FVec Ideal S128x128 .f32 :=
  shapeCast S128x128 (extractStridedSlice S1x128x128 ![1, 0, 0] a5 slices_S3x128x128_S1x128x128_1_0_0) shapeCasts_S1x128x128_S128x128
/-- Layer 2's right weights. -/
def hWr2 (a5 : FVec Ideal S3x128x128 .f32) : FVec Ideal S128x128 .f32 :=
  shapeCast S128x128 (extractStridedSlice S1x128x128 ![2, 0, 0] a5 slices_S3x128x128_S1x128x128_2_0_0) shapeCasts_S1x128x128_S128x128
/-- Layer 0's bias row: row 0 of the stacked biases, as a one-row matrix. -/
def hBl0 (a4 : FVec Ideal S3x128 .f32) : FVec Ideal S1x128 .f32 :=
  shapeCast S1x128 (shapeCast S128 (extractStridedSlice S1x128 ![0, 0] a4 slices_S3x128_S1x128_0_0) shapeCasts_S1x128_S128) shapeCasts_S128_S1x128
/-- Layer 1's bias row. -/
def hBl1 (a4 : FVec Ideal S3x128 .f32) : FVec Ideal S1x128 .f32 :=
  shapeCast S1x128 (shapeCast S128 (extractStridedSlice S1x128 ![1, 0] a4 slices_S3x128_S1x128_1_0) shapeCasts_S1x128_S128) shapeCasts_S128_S1x128
/-- Layer 2's bias row. -/
def hBl2 (a4 : FVec Ideal S3x128 .f32) : FVec Ideal S1x128 .f32 :=
  shapeCast S1x128 (shapeCast S128 (extractStridedSlice S1x128 ![2, 0] a4 slices_S3x128_S1x128_2_0) shapeCasts_S1x128_S128) shapeCasts_S128_S1x128
/-- The output bias as a one-by-one matrix. -/
def hBo (a7 : FVec Ideal S1 .f32) : FVec Ideal S1x1 .f32 := shapeCast S1x1 a7 shapeCasts_S1_S1x1

/-! ## What the buffers hold when each kernel call is entered

Each stretch's results are first stated over any entry contents `W` (what the stretch computes from the buffers it
reads), then at the contents the program reaches it with. -/

variable (m : (ℓ : Loc nD τ sig) → Buf (Elt Ideal) ℓ) (outs : Gen.Outs (F := Ideal)) (c : Dev nD)

/-! ### Before the first call -/

theorem V1_v1 : (V1 m c main_v1 : IVec S1600000 32) = hSrc (m ((c : Thread nD τ).loc main_arg1)) := by
  show StableHlo.after hostOps0 (V0 m c) (Proc.devRef .tc main_v1) = _
  after_results_simp
  rfl

theorem V1_v3 : (V1 m c main_v3 : IVec S1600000 32) = hDst (m ((c : Thread nD τ).loc main_arg1)) := by
  show StableHlo.after hostOps0 (V0 m c) (Proc.devRef .tc main_v3) = _
  after_results_simp
  rfl

theorem V1_arg0 : (V1 m c main_arg0 : FVec Ideal S100000x128 .f32) = (m ((c : Thread nD τ).loc main_arg0)) :=
  V1_of m c main_arg0 (by decide)

theorem V1_v12 : (V1 m c main_v12 : FVec Ideal S100000x1 .f32) = hInv (m ((c : Thread nD τ).loc main_arg1)) := by
  show StableHlo.after hostOps0 (V0 m c) (Proc.devRef .tc main_v12) = _
  after_results_simp
  rfl

theorem V1_v19 : (V1 m c main_v19 : FVec Ideal S100000x64 .bf16) = hOh (m ((c : Thread nD τ).loc main_arg2)) := by
  show StableHlo.after hostOps0 (V0 m c) (Proc.devRef .tc main_v19) = _
  after_results_simp
  rfl

theorem V1_v29 : (V1 m c main_v29 : FVec Ideal S100000x128 .f32) = hAgg (m ((c : Thread nD τ).loc main_arg0)) (m ((c : Thread nD τ).loc main_arg1)) := by
  show StableHlo.after hostOps0 (V0 m c) (Proc.devRef .tc main_v29) = _
  after_results_simp
  rfl

theorem V1_v34 : (V1 m c main_v34 : FVec Ideal S128x128 .f32) = hWl0 (m ((c : Thread nD τ).loc main_arg3)) := by
  show StableHlo.after hostOps0 (V0 m c) (Proc.devRef .tc main_v34) = _
  after_results_simp
  rfl

theorem V1_v36 : (V1 m c main_v36 : FVec Ideal S128x128 .f32) = hWr0 (m ((c : Thread nD τ).loc main_arg5)) := by
  show StableHlo.after hostOps0 (V0 m c) (Proc.devRef .tc main_v36) = _
  after_results_simp
  rfl

theorem V1_v32 : (V1 m c main_v32 : FVec Ideal S1x128 .f32) = hBl0 (m ((c : Thread nD τ).loc main_arg4)) := by
  show StableHlo.after hostOps0 (V0 m c) (Proc.devRef .tc main_v32) = _
  after_results_simp
  rfl

/-! ### Before the second call -/

theorem V2_v1 : (V2 m outs c main_v1 : IVec S1600000 32) = hSrc (m ((c : Thread nD τ).loc main_arg1)) :=
  (V2_of m outs c main_v1 (by decide)).trans (V1_v1 m c)
theorem V2_v3 : (V2 m outs c main_v3 : IVec S1600000 32) = hDst (m ((c : Thread nD τ).loc main_arg1)) :=
  (V2_of m outs c main_v3 (by decide)).trans (V1_v3 m c)
theorem V2_v37 : (V2 m outs c main_v37 : FVec Ideal S100000x128 .f32) = outs 2 main_v37 c := by
  show Function.update (V1 m c) (Proc.devRef .tc main_v37) (outs 2 main_v37 c) (Proc.devRef .tc main_v37) = _
  exact Function.update_self _ _ _
theorem V2_arg3 : (V2 m outs c main_arg3 : FVec Ideal S3x128x128 .f32) = (m ((c : Thread nD τ).loc main_arg3)) :=
  (V2_of m outs c main_arg3 (by decide)).trans (V1_of m c main_arg3 (by decide))
theorem V2_arg4 : (V2 m outs c main_arg4 : FVec Ideal S3x128 .f32) = (m ((c : Thread nD τ).loc main_arg4)) :=
  (V2_of m outs c main_arg4 (by decide)).trans (V1_of m c main_arg4 (by decide))
theorem V2_arg5 : (V2 m outs c main_arg5 : FVec Ideal S3x128x128 .f32) = (m ((c : Thread nD τ).loc main_arg5)) :=
  (V2_of m outs c main_arg5 (by decide)).trans (V1_of m c main_arg5 (by decide))

/-- The second stretch's neighbour sums over any entry contents. -/
theorem agg1_of (W : Valuation τ sig (Elt Ideal)) :
    (StableHlo.after hostOps1 W (Proc.devRef .tc main_v47) : FVec Ideal S100000x128 .f32)
      = hAggOf (W (Proc.devRef .tc main_v37)) (W (Proc.devRef .tc main_v1)) (W (Proc.devRef .tc main_v3)) := by
  after_results_simp
  rfl
theorem wl1_of (W : Valuation τ sig (Elt Ideal)) :
    (StableHlo.after hostOps1 W (Proc.devRef .tc main_v52) : FVec Ideal S128x128 .f32) = hWl1 (W (Proc.devRef .tc main_arg3)) := by
  after_results_simp
  rfl
theorem wr1_of (W : Valuation τ sig (Elt Ideal)) :
    (StableHlo.after hostOps1 W (Proc.devRef .tc main_v54) : FVec Ideal S128x128 .f32) = hWr1 (W (Proc.devRef .tc main_arg5)) := by
  after_results_simp
  rfl
theorem bl1_of (W : Valuation τ sig (Elt Ideal)) :
    (StableHlo.after hostOps1 W (Proc.devRef .tc main_v50) : FVec Ideal S1x128 .f32) = hBl1 (W (Proc.devRef .tc main_arg4)) := by
  after_results_simp
  rfl

theorem V3_v47 : (V3 m outs c main_v47 : FVec Ideal S100000x128 .f32) = hAgg (outs 2 main_v37 c) (m ((c : Thread nD τ).loc main_arg1)) :=
  (agg1_of (V2 m outs c)).trans
    (congr (congr (congrArg hAggOf (V2_v37 m outs c)) (V2_v1 m outs c)) (V2_v3 m outs c))

theorem V3_v37 : (V3 m outs c main_v37 : FVec Ideal S100000x128 .f32) = outs 2 main_v37 c :=
  (V3_of m outs c main_v37 (by decide)).trans (V2_v37 m outs c)

theorem V3_v12 : (V3 m outs c main_v12 : FVec Ideal S100000x1 .f32) = hInv (m ((c : Thread nD τ).loc main_arg1)) :=
  (V3_of m outs c main_v12 (by decide)).trans ((V2_of m outs c main_v12 (by decide)).trans (V1_v12 m c))

theorem V3_v52 : (V3 m outs c main_v52 : FVec Ideal S128x128 .f32) = hWl1 (m ((c : Thread nD τ).loc main_arg3)) :=
  (wl1_of (V2 m outs c)).trans (congrArg hWl1 (V2_arg3 m outs c))
theorem V3_v54 : (V3 m outs c main_v54 : FVec Ideal S128x128 .f32) = hWr1 (m ((c : Thread nD τ).loc main_arg5)) :=
  (wr1_of (V2 m outs c)).trans (congrArg hWr1 (V2_arg5 m outs c))
theorem V3_v50 : (V3 m outs c main_v50 : FVec Ideal S1x128 .f32) = hBl1 (m ((c : Thread nD τ).loc main_arg4)) :=
  (bl1_of (V2 m outs c)).trans (congrArg hBl1 (V2_arg4 m outs c))

/-! ### Before the third call -/

theorem V4_v1 : (V4 m outs c main_v1 : IVec S1600000 32) = hSrc (m ((c : Thread nD τ).loc main_arg1)) :=
  (V4_of m outs c main_v1 (by decide)).trans ((V3_of m outs c main_v1 (by decide)).trans (V2_v1 m outs c))
theorem V4_v3 : (V4 m outs c main_v3 : IVec S1600000 32) = hDst (m ((c : Thread nD τ).loc main_arg1)) :=
  (V4_of m outs c main_v3 (by decide)).trans ((V3_of m outs c main_v3 (by decide)).trans (V2_v3 m outs c))
theorem V4_v55 : (V4 m outs c main_v55 : FVec Ideal S100000x128 .f32) = outs 4 main_v55 c := by
  show Function.update (V3 m outs c) (Proc.devRef .tc main_v55) (outs 4 main_v55 c) (Proc.devRef .tc main_v55) = _
  exact Function.update_self _ _ _
theorem V4_arg3 : (V4 m outs c main_arg3 : FVec Ideal S3x128x128 .f32) = (m ((c : Thread nD τ).loc main_arg3)) :=
  (V4_of m outs c main_arg3 (by decide)).trans ((V3_of m outs c main_arg3 (by decide)).trans (V2_arg3 m outs c))
theorem V4_arg4 : (V4 m outs c main_arg4 : FVec Ideal S3x128 .f32) = (m ((c : Thread nD τ).loc main_arg4)) :=
  (V4_of m outs c main_arg4 (by decide)).trans ((V3_of m outs c main_arg4 (by decide)).trans (V2_arg4 m outs c))
theorem V4_arg5 : (V4 m outs c main_arg5 : FVec Ideal S3x128x128 .f32) = (m ((c : Thread nD τ).loc main_arg5)) :=
  (V4_of m outs c main_arg5 (by decide)).trans ((V3_of m outs c main_arg5 (by decide)).trans (V2_arg5 m outs c))
theorem V4_arg7 : (V4 m outs c main_arg7 : FVec Ideal S1 .f32) = (m ((c : Thread nD τ).loc main_arg7)) :=
  (V4_of m outs c main_arg7 (by decide)).trans ((V3_of m outs c main_arg7 (by decide)).trans
    ((V2_of m outs c main_arg7 (by decide)).trans (V1_of m c main_arg7 (by decide))))

/-- The third stretch's neighbour sums over any entry contents. -/
theorem agg2_of (W : Valuation τ sig (Elt Ideal)) :
    (StableHlo.after hostOps2 W (Proc.devRef .tc main_v65) : FVec Ideal S100000x128 .f32)
      = hAggOf (W (Proc.devRef .tc main_v55)) (W (Proc.devRef .tc main_v1)) (W (Proc.devRef .tc main_v3)) := by
  after_results_simp
  rfl
theorem wl2_of (W : Valuation τ sig (Elt Ideal)) :
    (StableHlo.after hostOps2 W (Proc.devRef .tc main_v71) : FVec Ideal S128x128 .f32) = hWl2 (W (Proc.devRef .tc main_arg3)) := by
  after_results_simp
  rfl
theorem wr2_of (W : Valuation τ sig (Elt Ideal)) :
    (StableHlo.after hostOps2 W (Proc.devRef .tc main_v73) : FVec Ideal S128x128 .f32) = hWr2 (W (Proc.devRef .tc main_arg5)) := by
  after_results_simp
  rfl
theorem bl2_of (W : Valuation τ sig (Elt Ideal)) :
    (StableHlo.after hostOps2 W (Proc.devRef .tc main_v68) : FVec Ideal S1x128 .f32) = hBl2 (W (Proc.devRef .tc main_arg4)) := by
  after_results_simp
  rfl
theorem bo_of (W : Valuation τ sig (Elt Ideal)) :
    (StableHlo.after hostOps2 W (Proc.devRef .tc main_v69) : FVec Ideal S1x1 .f32) = hBo (W (Proc.devRef .tc main_arg7)) := by
  after_results_simp
  rfl

theorem V5_v65 : (V5 m outs c main_v65 : FVec Ideal S100000x128 .f32) = hAgg (outs 4 main_v55 c) (m ((c : Thread nD τ).loc main_arg1)) :=
  (agg2_of (V4 m outs c)).trans
    (congr (congr (congrArg hAggOf (V4_v55 m outs c)) (V4_v1 m outs c)) (V4_v3 m outs c))

theorem V5_v55 : (V5 m outs c main_v55 : FVec Ideal S100000x128 .f32) = outs 4 main_v55 c :=
  (V5_of m outs c main_v55 (by decide)).trans (V4_v55 m outs c)

theorem V5_v12 : (V5 m outs c main_v12 : FVec Ideal S100000x1 .f32) = hInv (m ((c : Thread nD τ).loc main_arg1)) :=
  (V5_of m outs c main_v12 (by decide)).trans ((V4_of m outs c main_v12 (by decide)).trans (V3_v12 m outs c))

theorem V5_v71 : (V5 m outs c main_v71 : FVec Ideal S128x128 .f32) = hWl2 (m ((c : Thread nD τ).loc main_arg3)) :=
  (wl2_of (V4 m outs c)).trans (congrArg hWl2 (V4_arg3 m outs c))
theorem V5_v73 : (V5 m outs c main_v73 : FVec Ideal S128x128 .f32) = hWr2 (m ((c : Thread nD τ).loc main_arg5)) :=
  (wr2_of (V4 m outs c)).trans (congrArg hWr2 (V4_arg5 m outs c))
theorem V5_v68 : (V5 m outs c main_v68 : FVec Ideal S1x128 .f32) = hBl2 (m ((c : Thread nD τ).loc main_arg4)) :=
  (bl2_of (V4 m outs c)).trans (congrArg hBl2 (V4_arg4 m outs c))

theorem V5_v19 : (V5 m outs c main_v19 : FVec Ideal S100000x64 .bf16) = hOh (m ((c : Thread nD τ).loc main_arg2)) :=
  (V5_of m outs c main_v19 (by decide)).trans ((V4_of m outs c main_v19 (by decide)).trans
    ((V3_of m outs c main_v19 (by decide)).trans ((V2_of m outs c main_v19 (by decide)).trans (V1_v19 m c))))

theorem V5_arg6 : (V5 m outs c main_arg6 : FVec Ideal S128x1 .f32) = (m ((c : Thread nD τ).loc main_arg6)) :=
  (V5_of m outs c main_arg6 (by decide)).trans ((V4_of m outs c main_arg6 (by decide)).trans
    ((V3_of m outs c main_arg6 (by decide)).trans ((V2_of m outs c main_arg6 (by decide)).trans (V1_of m c main_arg6 (by decide)))))

theorem V5_v69 : (V5 m outs c main_v69 : FVec Ideal S1x1 .f32) = hBo (m ((c : Thread nD τ).loc main_arg7)) :=
  (bo_of (V4 m outs c)).trans (congrArg hBo (V4_arg7 m outs c))

/-! ### After the third call -/

theorem V6_v74 : (V6 m outs c main_v74 : FVec Ideal S64x1 .f32) = outs 6 main_v74 c := by
  show Function.update (V5 m outs c) (Proc.devRef .tc main_v74) (outs 6 main_v74 c) (Proc.devRef .tc main_v74) = _
  exact Function.update_self _ _ _

/-- The closing reshape over any entry contents. -/
theorem out_of (W : Valuation τ sig (Elt Ideal)) :
    (StableHlo.after hostOps3 W (Proc.devRef .tc main_v75) : FVec Ideal S64 .f32)
      = shapeCast S64 (W (Proc.devRef .tc main_v74) : FVec Ideal S64x1 .f32) shapeCasts_S64x1_S64 := by
  after_results_simp
  rfl

theorem V7_v75 : (V7 m outs c main_v75 : FVec Ideal S64 .f32) = shapeCast S64 (outs 6 main_v74 c : FVec Ideal S64x1 .f32) shapeCasts_S64x1_S64 :=
  (out_of (V6 m outs c)).trans (congrArg (fun v : FVec Ideal S64x1 .f32 => shapeCast S64 v shapeCasts_S64x1_S64) (V6_v74 m outs c))

end Cert.KernelIdeal.Val
-- ==== Proof.Bridge.lean ====
/-
  The host-side arrays of the two programs, array by array.

  Before each kernel call the kernel's program prepares, by ordinary array operations, the arrays the call reads: the
  neighbour sums of the current node features, the reciprocal in-degrees as a column, one layer's two weight matrices
  and its bias row, and, before the last call, the 0/1 membership table of the nodes' graph numbers and the output
  bias as a one-by-one matrix. The reference program computes the same arrays as stages of its single function.

  The neighbour sums and the weight matrices are produced by the same operations with the same parameters on both
  sides, so the two terms are equal by unfolding the definitions. The column of reciprocal degrees, the bias rows and
  the output bias differ only in how a unit axis is introduced: the reference broadcasts into it, the kernel's program
  reshapes; read at an index both are the inner vector at the one non-unit coordinate. The membership table is read at
  an index (r, g): the batch vector broadcast along the columns gives the node's graph number, the iota broadcast
  along the rows gives the word g, and the comparison converted to a float is the table's entry.
-/
import proofs.«412677_j67808943669808_2_alg».proof.Proof.Gen.ReferenceIdeal.Read
import proofs.«412677_j67808943669808_2_alg».proof.Proof.HostK
import proofs.«412677_j67808943669808_2_alg».proof.Proof.Spec
import Idealize.ShloMosaic.Lib.Pipeline.Value
import Idealize.ShloMosaic.Lib.ValueIdx

noncomputable section

namespace Cert.Bridge

open Idealize.ShloMosaic Idealize.ShloMosaic.TcCoe Idealize.ShloMosaic.StableHlo Idealize.ShloMosaic.ValueIdx
open Cert.ReferenceIdeal.Read Cert.KernelIdeal.Val Cert.Spec

/-! ## The neighbour sums -/

/-- Layer 0: the reference's scatter-add of the gathered feature rows is the kernel side's neighbour sum of the features. -/
theorem agg1 (x0 : FVec Ideal Cert.KernelIdeal.S100000x128 .f32) (x1 : IVec Cert.KernelIdeal.S2x1600000 32) :
    val_main_v22 (F := Ideal) x0 x1 = hAgg x0 x1 := rfl

/-- Layer 1: the same neighbour sum, of layer 0's output. -/
theorem agg2 (x0 : FVec Ideal Cert.KernelIdeal.S100000x128 .f32) (x1 : IVec Cert.KernelIdeal.S2x1600000 32)
    (x3 : FVec Ideal Cert.KernelIdeal.S3x128x128 .f32) (x4 : FVec Ideal Cert.KernelIdeal.S3x128 .f32) (x5 : FVec Ideal Cert.KernelIdeal.S3x128x128 .f32) :
    val_main_v51 (F := Ideal) x0 x1 x3 x4 x5 = hAgg (val_main_v41 (F := Ideal) x0 x1 x3 x4 x5) x1 := rfl

/-- Layer 2: the same neighbour sum, of layer 1's output. -/
theorem agg3 (x0 : FVec Ideal Cert.KernelIdeal.S100000x128 .f32) (x1 : IVec Cert.KernelIdeal.S2x1600000 32)
    (x3 : FVec Ideal Cert.KernelIdeal.S3x128x128 .f32) (x4 : FVec Ideal Cert.KernelIdeal.S3x128 .f32) (x5 : FVec Ideal Cert.KernelIdeal.S3x128x128 .f32) :
    val_main_v80 (F := Ideal) x0 x1 x3 x4 x5 = hAgg (val_main_v70 (F := Ideal) x0 x1 x3 x4 x5) x1 := rfl

/-! ## The weights: the same slice and the same reshape on both sides -/

theorem wl0 (x3 : FVec Ideal Cert.KernelIdeal.S3x128x128 .f32) : val_main_v26 (F := Ideal) x3 = hWl0 x3 := rfl
theorem wl1 (x3 : FVec Ideal Cert.KernelIdeal.S3x128x128 .f32) : val_main_v55 (F := Ideal) x3 = hWl1 x3 := rfl
theorem wl2 (x3 : FVec Ideal Cert.KernelIdeal.S3x128x128 .f32) : val_main_v84 (F := Ideal) x3 = hWl2 x3 := rfl
theorem wr0 (x5 : FVec Ideal Cert.KernelIdeal.S3x128x128 .f32) : val_main_v34 (F := Ideal) x5 = hWr0 x5 := rfl
theorem wr1 (x5 : FVec Ideal Cert.KernelIdeal.S3x128x128 .f32) : val_main_v63 (F := Ideal) x5 = hWr1 x5 := rfl
theorem wr2 (x5 : FVec Ideal Cert.KernelIdeal.S3x128x128 .f32) : val_main_v92 (F := Ideal) x5 = hWr2 x5 := rfl

/-! ## The reciprocal degrees: a broadcast into a unit axis against a reshape -/

/-- At (r, 0) both columns are the vector of reciprocal degrees at r. -/
theorem inv_eq (x1 : IVec Cert.KernelIdeal.S2x1600000 32) : val_main_v12 (F := Ideal) x1 = hInv x1 := by
  funext i
  have h0 : (i 0).val < 100000 := (i 0).isLt
  have h1 : (i 1).val < 1 := (i 1).isLt
  let k : Cert.KernelIdeal.S100000.Idx := fun a => match a with | ⟨0, _⟩ => ⟨(i 0).val, h0⟩
  have hL : val_main_v12 (F := Ideal) x1 i = val_main_v11 (F := Ideal) x1 k := by
    unfold val_main_v12
    exact broadcastInDim_apply _ _ _ i k (fun a => match a with
      | ⟨0, _⟩ => by show (i 0).val = if (100000 : Nat) = 1 then 0 else (i 0).val; rw [if_neg (by decide)])
  have hR : hInv x1 i = val_main_v11 (F := Ideal) x1 k := by
    unfold hInv hInvOf
    refine (shapeCast_apply _ _ i k ?_).trans rfl
    rewrite [Shape.rowMajor_val_one, Shape.rowMajor_val_two]
    show (i 0).val = (i 0).val * 1 + (i 1).val
    omega
  rw [hL, hR]

/-! ## The bias rows: a broadcast into a leading unit axis against a reshape -/

/-- At (0, d) both rows are layer 0's bias vector at d. -/
theorem bl0 (x4 : FVec Ideal Cert.KernelIdeal.S3x128 .f32) : val_main_v30 (F := Ideal) x4 = hBl0 x4 := by
  funext i
  have h0 : (i 0).val < 1 := (i 0).isLt
  have h1 : (i 1).val < 128 := (i 1).isLt
  let k : Cert.KernelIdeal.S128.Idx := fun a => match a with | ⟨0, _⟩ => ⟨(i 1).val, h1⟩
  have hL : val_main_v30 (F := Ideal) x4 i = val_main_v29 (F := Ideal) x4 k := by
    unfold val_main_v30
    exact broadcastInDim_apply _ _ _ i k (fun a => match a with
      | ⟨0, _⟩ => by show (i 1).val = if (128 : Nat) = 1 then 0 else (i 1).val; rw [if_neg (by decide)])
  have hR : hBl0 x4 i = val_main_v29 (F := Ideal) x4 k := by
    unfold hBl0
    refine (shapeCast_apply _ _ i k ?_).trans rfl
    rewrite [Shape.rowMajor_val_one, Shape.rowMajor_val_two]
    show (i 1).val = (i 0).val * 128 + (i 1).val
    omega
  rw [hL, hR]

/-- At (0, d) both rows are layer 1's bias vector at d. -/
theorem bl1 (x4 : FVec Ideal Cert.KernelIdeal.S3x128 .f32) : val_main_v59 (F := Ideal) x4 = hBl1 x4 := by
  funext i
  have h0 : (i 0).val < 1 := (i 0).isLt
  have h1 : (i 1).val < 128 := (i 1).isLt
  let k : Cert.KernelIdeal.S128.Idx := fun a => match a with | ⟨0, _⟩ => ⟨(i 1).val, h1⟩
  have hL : val_main_v59 (F := Ideal) x4 i = val_main_v58 (F := Ideal) x4 k := by
    unfold val_main_v59
    exact broadcastInDim_apply _ _ _ i k (fun a => match a with
      | ⟨0, _⟩ => by show (i 1).val = if (128 : Nat) = 1 then 0 else (i 1).val; rw [if_neg (by decide)])
  have hR : hBl1 x4 i = val_main_v58 (F := Ideal) x4 k := by
    unfold hBl1
    refine (shapeCast_apply _ _ i k ?_).trans rfl
    rewrite [Shape.rowMajor_val_one, Shape.rowMajor_val_two]
    show (i 1).val = (i 0).val * 128 + (i 1).val
    omega
  rw [hL, hR]

/-- At (0, d) both rows are layer 2's bias vector at d. -/
theorem bl2 (x4 : FVec Ideal Cert.KernelIdeal.S3x128 .f32) : val_main_v88 (F := Ideal) x4 = hBl2 x4 := by
  funext i
  have h0 : (i 0).val < 1 := (i 0).isLt
  have h1 : (i 1).val < 128 := (i 1).isLt
  let k : Cert.KernelIdeal.S128.Idx := fun a => match a with | ⟨0, _⟩ => ⟨(i 1).val, h1⟩
  have hL : val_main_v88 (F := Ideal) x4 i = val_main_v87 (F := Ideal) x4 k := by
    unfold val_main_v88
    exact broadcastInDim_apply _ _ _ i k (fun a => match a with
      | ⟨0, _⟩ => by show (i 1).val = if (128 : Nat) = 1 then 0 else (i 1).val; rw [if_neg (by decide)])
  have hR : hBl2 x4 i = val_main_v87 (F := Ideal) x4 k := by
    unfold hBl2
    refine (shapeCast_apply _ _ i k ?_).trans rfl
    rewrite [Shape.rowMajor_val_one, Shape.rowMajor_val_two]
    show (i 1).val = (i 0).val * 128 + (i 1).val
    omega
  rw [hL, hR]

/-! ## The output bias: one number as a one-by-one matrix either way -/

/-- At (0, 0) both matrices are the output bias. -/
theorem bo_eq (x7 : FVec Ideal Cert.KernelIdeal.S1 .f32) : val_main_v113 (F := Ideal) x7 = hBo x7 := by
  funext i
  have h0 : (i 0).val < 1 := (i 0).isLt
  have h1 : (i 1).val < 1 := (i 1).isLt
  let k : Cert.KernelIdeal.S1.Idx := fun a => match a with | ⟨0, _⟩ => ⟨0, Nat.one_pos⟩
  have hL : val_main_v113 (F := Ideal) x7 i = x7 k := by
    unfold val_main_v113
    exact broadcastInDim_apply _ _ _ i k (fun a => match a with
      | ⟨0, _⟩ => by show 0 = if (1 : Nat) = 1 then 0 else (i 1).val; rw [if_pos rfl])
  have hR : hBo x7 i = x7 k := by
    unfold hBo
    refine shapeCast_apply _ _ i k ?_
    rewrite [Shape.rowMajor_val_one, Shape.rowMajor_val_two]
    show 0 = (i 0).val * 1 + (i 1).val
    omega
  rw [hL, hR]

/-! ## The membership table -/

/-- The kernel side's table at (r, g) is one exactly when node r's batch word is the word g. -/
theorem oh_eq (b : IVec Cert.KernelIdeal.S100000 32) : (hOh b : Mat 100000 64) = onehot b := by
  funext i
  have h0 : (i 0).val < 100000 := (i 0).isLt
  have h1 : (i 1).val < 64 := (i 1).isLt
  let k1 : Cert.KernelIdeal.S100000x1.Idx := fun a => match a with
    | ⟨0, _⟩ => ⟨(i 0).val, h0⟩
    | ⟨1, _⟩ => ⟨0, Nat.one_pos⟩
  let k2 : Cert.KernelIdeal.S1x64.Idx := fun a => match a with
    | ⟨0, _⟩ => ⟨0, Nat.one_pos⟩
    | ⟨1, _⟩ => ⟨(i 1).val, h1⟩
  let k3 : Cert.KernelIdeal.S64.Idx := fun a => match a with | ⟨0, _⟩ => ⟨(i 1).val, h1⟩
  have hA : broadcastInDim Cert.KernelIdeal.S100000x64 ![0, 1] Cert.KernelIdeal.Facts₀.bcast_S100000x1_S100000x64_0_1
      (broadcastInDim Cert.KernelIdeal.S100000x1 ![0] Cert.KernelIdeal.Facts₀.bcast_S100000_S100000x1_0 b) i = b (ix1 (i 0)) := by
    refine (broadcastInDim_apply _ _ _ i k1 (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])).trans ?_
    exact broadcastInDim_apply _ _ b k1 (ix1 (i 0)) (fun a => match a with
      | ⟨0, _⟩ => by show (i 0).val = if (100000 : Nat) = 1 then 0 else (i 0).val; rw [if_neg (by decide)])
  have hB : broadcastInDim Cert.KernelIdeal.S100000x64 ![0, 1] Cert.KernelIdeal.Facts₀.bcast_S1x64_S100000x64_0_1
      (broadcastInDim Cert.KernelIdeal.S1x64 ![1] Cert.KernelIdeal.Facts₀.bcast_S64_S1x64_1 (iotaInDim Cert.KernelIdeal.S64 32 0)) i
        = BitVec.ofNat 32 (i 1).val := by
    refine (broadcastInDim_apply _ _ _ i k2 (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])).trans ?_
    refine (broadcastInDim_apply _ _ _ k2 k3 (fun a => match a with
      | ⟨0, _⟩ => by show (i 1).val = if (64 : Nat) = 1 then 0 else (i 1).val; rw [if_neg (by decide)])).trans ?_
    rfl
  show FloatOps.uitofp (F := Ideal) .bf16 (IntOp.cmpi .eq
      (broadcastInDim Cert.KernelIdeal.S100000x64 ![0, 1] Cert.KernelIdeal.Facts₀.bcast_S100000x1_S100000x64_0_1
        (broadcastInDim Cert.KernelIdeal.S100000x1 ![0] Cert.KernelIdeal.Facts₀.bcast_S100000_S100000x1_0 b) i)
      (broadcastInDim Cert.KernelIdeal.S100000x64 ![0, 1] Cert.KernelIdeal.Facts₀.bcast_S1x64_S100000x64_0_1
        (broadcastInDim Cert.KernelIdeal.S1x64 ![1] Cert.KernelIdeal.Facts₀.bcast_S64_S1x64_1 (iotaInDim Cert.KernelIdeal.S64 32 0)) i))
    = FloatOps.uitofp (F := Ideal) .bf16 (IntOp.cmpi .eq (b (ix1 (i 0))) (BitVec.ofNat 32 (i 1).val))
  rw [hA, hB]

end Cert.Bridge

end
-- ==== Proof.Reg0.lean ====
import proofs.«412677_j67808943669808_2_alg».proof.Proof.Gen.KernelIdeal.Launch
import proofs.«412677_j67808943669808_2_alg».proof.Proof.Gen.KernelIdeal.Skeleton
import proofs.«412677_j67808943669808_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 0 of @main: the first layer's row-tile transform (custom call 0, pipeline 0), at the entry contents `V` -/

/-! ## The windows' blocks -/

/-- Window `w`'s block at grid point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the window is not
    fetched its block index has not moved, so the previous point's block is this point's. The window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): where the window is not
    fetched its block index has not moved, so the previous point's block is this point's. The window is uncut and
    never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): where the window is not
    fetched its block index has not moved, so the previous point's block is this point's. The window is uncut and
    never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): where the window is not
    fetched its block index has not moved, so the previous point's block is this point's. The window is uncut and
    never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole of their buffer -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0

/-! ## What the body leaves in the output window's buffer -/

/-- Window 6's staging buffer after the body, from the six input blocks: its one store as a piece. The payload is
    leaky_relu((x0 * x5) @ x2 + x3 + x1 @ x4), the products on bf16-rounded operands, x5 broadcast along the lanes
    and x3 along the rows. -/
def out0_6 (x0 x1 : Vec F S5000x128 .f32) (x2 : Vec F S128x128 .f32) (x3 : Vec F S1x128 .f32) (x4 : Vec F S128x128 .f32) (x5 : Vec F S5000x1 .f32) : Vec F S5000x128 .f32 :=
  View.canon [⟨r0_0, k0_pay1 (View.ld x0 r0_0) (View.ld x5 r0_1) (View.ld x1 r0_0) (View.ld x2 r0_2) (View.ld x4 r0_2) (View.ld x3 r0_3)⟩]

/-- The one store takes the whole buffer (checked by evaluation), so it covers it. -/
theorem cover0_6 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the six inputs' at read contents `x0 … x5` and the output's at anything,
    runs to the continuation holding the inputs' as they were and the output's at `out0_6` of the inputs'. The printed
    function is its skeleton: six loads of the inputs, one load of the output buffer whose value is never used, and the
    one store; the grid coordinate is not read. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them (`V`); after the body at point `t`
    each input's buffer at its block and the output's at `out0_6` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, what the core owes, and each window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.Reg1.lean ====
import proofs.«412677_j67808943669808_2_alg».proof.Proof.Gen.KernelIdeal.Launch
import proofs.«412677_j67808943669808_2_alg».proof.Proof.Gen.KernelIdeal.Skeleton
import proofs.«412677_j67808943669808_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the structural check recurses once per coordinate of the long axis
set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter every region's half is stated at
variable (V : (c : Dev nD) → (b : Ref sig .tc) → Buf (Elt F) ((c : Thread nD τ).loc b))

/-! # Region 1 of @main: the second layer's row-tile transform (custom call 1, pipeline 1), at the entry contents `V` -/

/-! ## The windows' blocks -/

/-- Window `w`'s block at grid point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's. The window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the previous point's block is this point's. The window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the previous point's block is this point's. The window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the previous point's block is this point's. The window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the previous point's block is this point's. The window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s (`hA`) and whose body leaves the block in place (`hafter`): where the window is not
    fetched its block index has not moved, so the previous point's block is this point's. The window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take the whole of their buffer -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128x128 := Rect.unit (s := S128x128) ![0, 0] S128x128.size inb_S128x128_S128x128_0_0
abbrev r1_3 : Rect S1x128 := Rect.unit (s := S1x128) ![0, 0] S1x128.size inb_S1x128_S1x128_0_0

/-! ## What the body leaves in the output window's buffer -/

/-- Window 6's staging buffer after the body, from the six input blocks: its one store as a piece. The payload is
    leaky_relu((x0 * x5) @ x2 + x3 + x1 @ x4), the products on bf16-rounded operands, x5 broadcast along the lanes
    and x3 along the rows. -/
def out1_6 (x0 x1 : Vec F S5000x128 .f32) (x2 : Vec F S128x128 .f32) (x3 : Vec F S1x128 .f32) (x4 : Vec F S128x128 .f32) (x5 : Vec F S5000x1 .f32) : Vec F S5000x128 .f32 :=
  View.canon [⟨r1_0, k1_pay1 (View.ld x0 r1_0) (View.ld x5 r1_1) (View.ld x1 r1_0) (View.ld x2 r1_2) (View.ld x4 r1_2) (View.ld x3 r1_3)⟩]

/-- The one store takes the whole buffer (checked by evaluation), so it covers it. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the six inputs' at read contents `x0 … x5` and the output's at anything,
    runs to the continuation holding the inputs' as they were and the output's at `out1_6` of the inputs'. The printed
    function is its skeleton: six loads of the inputs, one load of the output buffer whose value is never used, and the
    one store; the grid coordinate is not read. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x128 .f32) (harg7 : arg7.IsWhole)
    (x0 x1 : Vec F S5000x128 .f32) (x2 : Vec F S128x128 .f32) (x3 : Vec F S1x128 .f32) (x4 : Vec F S128x128 .f32) (x5 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced at each literal window). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`: the invariant, what the core owes, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.Reg2Kit.lean ====
import proofs.«412677_j67808943669808_2_alg».proof.Proof.Gen.KernelIdeal.Launch
import proofs.«412677_j67808943669808_2_alg».proof.Proof.Gen.KernelIdeal.Skeleton
import proofs.«412677_j67808943669808_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
-- the TensorCore's buffer contents when the region is entered: the parameter every region's half is stated at
variable (V : (c : Dev nD) → (b : Ref sig .tc) → Buf (Elt F) ((c : Thread nD τ).loc b))

/-! ## The windows' blocks of the third region -/

/-- Window `w`'s block at point `t`, read off its array at the contents the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any
    proof data whose array is the entry contents and whose body leaves the block in place: unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any
    proof data whose array is the entry contents and whose body leaves the block in place: unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (its block index never moves: it is fetched at the first point only), for any
    proof data whose array is the entry contents and whose body leaves the block in place: unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (its block index never moves: it is fetched at the first point only), for any
    proof data whose array is the entry contents and whose body leaves the block in place: unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (its block index never moves: it is fetched at the first point only), for any
    proof data whose array is the entry contents and whose body leaves the block in place: unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any
    proof data whose array is the entry contents and whose body leaves the block in place: unfetched, the block
    index has not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any
    proof data whose array is the entry contents and whose body leaves the block in place: unfetched, the block
    index has not moved; the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not (its block index never moves: it is fetched at the first point only), for any
    proof data whose array is the entry contents and whose body leaves the block in place: unfetched, the block
    index has not moved; the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not (its block index never moves: it is fetched at the first point only), for any
    proof data whose array is the entry contents and whose body leaves the block in place: unfetched, the block
    index has not moved; the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the accumulators), from the grid coordinate. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the body's second conditional (the division, the projection and the store of the output). -/
abbrev cond2_1 (i : grid2.Coords) : Prop := k2_cond2 i = 1#1
/-- It holds at the last point only — decided over the grid. -/
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Window 6 is never idle (an input). -/
theorem liveAt2_6 : ∀ t : Fin cfg2.N, cfg2.idle 6 (grid2.coords t) = false := by decide +kernel
/-- Window 7 is never idle (an input). -/
theorem liveAt2_7 : ∀ t : Fin cfg2.N, cfg2.idle 7 (grid2.coords t) = false := by decide +kernel
/-- Window 8 is never idle (an input). -/
theorem liveAt2_8 : ∀ t : Fin cfg2.N, cfg2.idle 8 (grid2.coords t) = false := by decide +kernel

/-- At the first point (reset, no output) the output window is idle: nothing is stored into it. -/
theorem idleAt2_9_A : ∀ t : Fin cfg2.N, cond2_0 (grid2.coords t) → ¬cond2_1 (grid2.coords t) → cfg2.idle 9 (grid2.coords t) = true := by decide +kernel
/-- There the pipeline does not write the output's block back. -/
theorem noFlush2_9_A : ∀ t : Fin cfg2.N, cond2_0 (grid2.coords t) → ¬cond2_1 (grid2.coords t) → (cfg2.win 9).flush t = false := by decide +kernel
/-- At the middle points (no reset, no output) the output window is idle. -/
theorem idleAt2_9_B : ∀ t : Fin cfg2.N, ¬cond2_0 (grid2.coords t) → ¬cond2_1 (grid2.coords t) → cfg2.idle 9 (grid2.coords t) = true := by decide +kernel
/-- There the pipeline does not write the output's block back. -/
theorem noFlush2_9_B : ∀ t : Fin cfg2.N, ¬cond2_0 (grid2.coords t) → ¬cond2_1 (grid2.coords t) → (cfg2.win 9).flush t = false := by decide +kernel
/-- At the last point (no reset, the output stored) the output window is live. -/
theorem liveAt2_9_C : ∀ t : Fin cfg2.N, ¬cond2_0 (grid2.coords t) → cond2_1 (grid2.coords t) → cfg2.idle 9 (grid2.coords t) = false := by decide +kernel

/-! ## The kernel body on any staging memrefs -/

/-- The staging buffer of the output window, through which its contents are stated. -/
abbrev VO2_9 : View sig .tc .vmem S64x1 .f32 := (Memref.whole cc2_stg9_0 : Memref sig .tc .vmem S64x1 .f32).view
/-- Window 0's current staging memref at point `t`, as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
/-- Window 1's current staging memref at point `t`, as the pipeline passes it, and its wholeness. -/
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
/-- Window 2's current staging memref at point `t`, as the pipeline passes it, and its wholeness. -/
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
/-- Window 3's current staging memref at point `t`, as the pipeline passes it, and its wholeness. -/
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
/-- Window 4's current staging memref at point `t`, as the pipeline passes it, and its wholeness. -/
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
/-- Window 5's current staging memref at point `t`, as the pipeline passes it, and its wholeness. -/
abbrev ms2_5 (t : Fin cfg2.N) : Memref sig .tc .vmem S5000x1 .f32 := win2_5.stage (cfg2.slots t 5)
abbrev hs2_5 (t : Fin cfg2.N) : (ms2_5 t).IsWhole := hstage2_5 ((cfg2.slots t 5).cast nbuf2_5)
/-- Window 6's current staging memref at point `t`, as the pipeline passes it, and its wholeness. -/
abbrev ms2_6 (t : Fin cfg2.N) : Memref sig .tc .vmem S5000x64 .bf16 := win2_6.stage (cfg2.slots t 6)
abbrev hs2_6 (t : Fin cfg2.N) : (ms2_6 t).IsWhole := hstage2_6 ((cfg2.slots t 6).cast nbuf2_6)
/-- Window 7's current staging memref at point `t`, as the pipeline passes it, and its wholeness. -/
abbrev ms2_7 (t : Fin cfg2.N) : Memref sig .tc .vmem S128x1 .f32 := win2_7.stage (cfg2.slots t 7)
abbrev hs2_7 (t : Fin cfg2.N) : (ms2_7 t).IsWhole := hstage2_7 ((cfg2.slots t 7).cast nbuf2_7)
/-- Window 8's current staging memref at point `t`, as the pipeline passes it, and its wholeness. -/
abbrev ms2_8 (t : Fin cfg2.N) : Memref sig .tc .vmem S1x1 .f32 := win2_8.stage (cfg2.slots t 8)
abbrev hs2_8 (t : Fin cfg2.N) : (ms2_8 t).IsWhole := hstage2_8 ((cfg2.slots t 8).cast nbuf2_8)
/-- Window 9's current staging memref at point `t`, as the pipeline passes it, and its wholeness. -/
abbrev ms2_9 (t : Fin cfg2.N) : Memref sig .tc .vmem S64x1 .f32 := win2_9.stage (cfg2.slots t 9)
abbrev hs2_9 (t : Fin cfg2.N) : (ms2_9 t).IsWhole := hstage2_9 ((cfg2.slots t 9).cast nbuf2_9)
/-- The scratch operands: whole scoped buffers of the kernel's own, passed beside the windows. -/
abbrev scM2_0 : Memref sig .tc .vmem S64x128 .f32 := Memref.whole cc2_scratch0
abbrev scM2_1 : Memref sig .tc .vmem S1x64 .f32 := Memref.whole cc2_scratch1
/-- The two accumulators the kernel carries between points, as views: what they hold is stated through them. -/
abbrev VS2_0 : View sig .tc .vmem S64x128 .f32 := scM2_0.view
abbrev VS2_1 : View sig .tc .vmem S1x64 .f32 := scM2_1.view

/-- The invariant the body obligation hands the run and takes back, with the two scratch operands as memrefs owned
    at some contents and every other scoped buffer of the core carried unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA
  rw [Pipeline.scopedRest_split_of_list spec2 c [cc2_scratch0, cc2_scratch1] (by decide) (by decide)]
  simp only [scM2_0, scM2_1, owns_whole]; try rfl

end Cert.KernelIdeal.Frm

end
-- ==== Proof.Reg2Runs.lean ====
import proofs.«412677_j67808943669808_2_alg».proof.Proof.Gen.KernelIdeal.Launch
import proofs.«412677_j67808943669808_2_alg».proof.Proof.Gen.KernelIdeal.Skeleton
import proofs.«412677_j67808943669808_2_alg».proof.Proof.Gen.KernelIdeal.Points
import proofs.«412677_j67808943669808_2_alg».proof.Proof.Reg2Kit
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The body's three runs: case A (first point: both sums reset, then updated), case B (middle points: both sums
    updated over what the point before left), case C (last point: both sums updated, then the output block stored). -/

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) :
    Σ' (L9 : List (View.Piece (Elt F) S64x1 .f32)) (LS0 : List (View.Piece (Elt F) S64x128 .f32)), { LS1 : List (View.Piece (Elt F) S1x64 .f32) //
      ∀ (xi9 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__sage_last_kernel i arg1 harg1 arg2 harg2 arg3 harg3 arg4 harg4 arg5 harg5 arg6 harg6 arg7 harg7 arg8 harg8 arg9 harg9 arg10 harg10 arg11 harg11 arg12 harg12) K } := by
  refine ⟨[], ?_, ?_, fun xi9 E K => ?run⟩
  case run =>
    simp only [cc2__sage_last_kernel_eq_skeleton]; unfold cc2__sage_last_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (xs0 : Vec F S64x128 .f32) (xs1 : Vec F S1x64 .f32) :
    Σ' (L9 : List (View.Piece (Elt F) S64x1 .f32)) (LS0 : List (View.Piece (Elt F) S64x128 .f32)), { LS1 : List (View.Piece (Elt F) S1x64 .f32) //
      ∀ (xi9 : Vec F S64x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__sage_last_kernel i arg1 harg1 arg2 harg2 arg3 harg3 arg4 harg4 arg5 harg5 arg6 harg6 arg7 harg7 arg8 harg8 arg9 harg9 arg10 harg10 arg11 harg11 arg12 harg12) K } := by
  refine ⟨[], ?_, ?_, fun xi9 E K => ?run⟩
  case run =>
    simp only [cc2__sage_last_kernel_eq_skeleton]; unfold cc2__sage_last_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (xs0 : Vec F S64x128 .f32) (xs1 : Vec F S1x64 .f32) :
    Σ' (L9 : List (View.Piece (Elt F) S64x1 .f32)) (LS0 : List (View.Piece (Elt F) S64x128 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__sage_last_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__sage_last_kernel_eq_skeleton]; unfold cc2__sage_last_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [HS0]; · iexists _; iexact HS0
    iexists _; iexact HS1

end Cert.KernelIdeal.Frm

end
-- ==== Proof.AccStep.lean ====
/-
  The last pallas_call keeps two running sums in scratch memory across its twenty grid points: a 64 × 128 table
  (one row per graph: the sum of the activated rows of the nodes of that graph seen so far) and a 1 × 64 row (the
  number of nodes of each graph seen so far). This module names, over the body's payload terms, what one grid
  point does to the pair (`accStep`), what the pair is before the first point (`accInit`: zeros), and what the last
  point makes of it (`accFinish`: the table divided row by row by the counts clamped below by one, projected by the
  output weights, plus the output bias). Generic in the float family.
-/
import proofs.«412677_j67808943669808_2_alg».proof.Proof.Gen.KernelIdeal.Skeleton

noncomputable section

namespace Cert.KernelIdeal.Frm

open Idealize.ShloMosaic Idealize.SL.Sem Cert.KernelIdeal Cert.KernelIdeal.Gen

variable {F : FTy → Type} [FloatOps F]

/-- The two running sums before the first grid point: the zero table and the zero row (the stores under `i == 0`). -/
def accInit : Vec F S64x128 .f32 × Vec F S1x64 .f32 := (k2_pay4 (F := F), k2_pay5 (F := F))

/-- One grid point's update of the two running sums `s` from the point's blocks: `x0` the aggregated block, `x1` the
    feature block, `x2`, `x3`, `x4` the layer's weights and bias, `x5` the reciprocal degrees, `x6` the one-hot block:
    the table gains the one-hot block's transpose times the activated rows, the row gains the one-hot block's column sums. -/
def accStep (x0 : Vec F S5000x128 .f32) (x1 : Vec F S5000x128 .f32) (x2 : Vec F S128x128 .f32) (x3 : Vec F S1x128 .f32)
    (x4 : Vec F S128x128 .f32) (x5 : Vec F S5000x1 .f32) (x6 : Vec F S5000x64 .bf16)
    (s : Vec F S64x128 .f32 × Vec F S1x64 .f32) : Vec F S64x128 .f32 × Vec F S1x64 .f32 :=
  (k2_pay1 (k2_pay7 x0 x5 x1 x2 x4 x3 x6) s.1, k2_pay2 (k2_pay6 x6) s.2)

/-- What the last grid point stores into the 64 × 1 output block from the finished sums `s`, the output weights `x7`
    and the output bias `x8`. -/
def accFinish (s : Vec F S64x128 .f32 × Vec F S1x64 .f32) (x7 : Vec F S128x1 .f32) (x8 : Vec F S1x1 .f32) : Vec F S64x1 .f32 :=
  k2_pay3 s.2 s.1 x7 x8

end Cert.KernelIdeal.Frm

end
-- ==== Proof.Reg2.lean ====
/-
  The frame half of the third pallas_call (pipeline 2): twenty grid points over which the body carries two running sums
  in scratch memory, the 64 × 128 table and the 1 × 64 row of `AccStep`. Three control cases: at the first point the
  body zeroes both sums and then updates them, at the middle points it updates them, at the last point it updates them
  and stores the 64 × 1 output block. The proof data names what the two sums hold after each point directly as the
  iterated update `accAt2`, and the output block at the last point as `accFinish` of it. Each case's run leaves lists
  of whole-buffer stores; what those lists read back as (`sval2_κ_j`, `oval2_C_9`) is the payload of the last store,
  its loads of the sums reading back the store before. Generic in the float family and in the entry contents `V`.
-/
import proofs.«412677_j67808943669808_2_alg».proof.Proof.Reg2Kit
import proofs.«412677_j67808943669808_2_alg».proof.Proof.Reg2Runs
import proofs.«412677_j67808943669808_2_alg».proof.Proof.AccStep
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case's stores leave -/

/-- Case A's stores into the 64 × 128 table tile it, so they cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (y : S64x128.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 S64x128.size (by sl_kernel_rfl) y

/-- Case A's stores into the 1 × 64 row tile it, so they cover it. -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (y : S1x64.Idx) :
    ∃ pc ∈ (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 S1x64.size (by sl_kernel_rfl) y

/-- Case B's store into the 64 × 128 table takes the whole of it, so it covers it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S64x128.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 S64x128.size (by sl_kernel_rfl) y

/-- Case B's store into the 1 × 64 row takes the whole of it, so it covers it. -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S1x64.Idx) :
    ∃ pc ∈ (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 S1x64.size (by sl_kernel_rfl) y

/-- Case C's store into the 64 × 128 table takes the whole of it, so it covers it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S64x128.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 S64x128.size (by sl_kernel_rfl) y

/-- Case C's store into the 1 × 64 row takes the whole of it, so it covers it. -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S1x64.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 S1x64.size (by sl_kernel_rfl) y

/-- Case C's one store into the 64 × 1 output block takes the whole of it, so it covers it. -/
theorem cover2_C_9 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) (y : S64x1.Idx) :
    ∃ pc ∈ (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).1 S64x1.size (by sl_kernel_rfl) y

/-- The zero offsets of every whole-buffer access, however spelt. -/
theorem hz2 : (![0, 0] : Fin 2 → Nat) = fun _ => 0 := funext fun a => by fin_cases a <;> rfl

/-- Case A (the first point) leaves in the table the update over the zero table: the reset store, read back by the
    update's load, then the update's store over it. -/
theorem sval2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) :
    View.canon (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 = (accStep x0 x1 x2 x3 x4 x5 x6 (accInit (F := F))).1 := by
  show _ = k2_pay1 (k2_pay7 x0 x5 x1 x2 x4 x3 x6) (k2_pay4 (F := F))
  unfold kernelRun2_A
  dsimp only
  sl_unfold_words
  rw [View.canon_cons_unit_zero (S := S64x128) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case A leaves in the row the update over the zero row. -/
theorem sval2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) :
    View.canon (kernelRun2_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 = (accStep x0 x1 x2 x3 x4 x5 x6 (accInit (F := F))).2 := by
  show _ = k2_pay2 (k2_pay6 x6) (k2_pay5 (F := F))
  unfold kernelRun2_A
  dsimp only
  sl_unfold_words
  rw [View.canon_cons_unit_zero (S := S1x64) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case B leaves in the table the update over what it held. -/
theorem sval2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 = (accStep x0 x1 x2 x3 x4 x5 x6 s).1 := by
  show _ = k2_pay1 (k2_pay7 x0 x5 x1 x2 x4 x3 x6) s.1
  unfold kernelRun2_B
  dsimp only
  sl_unfold_words
  rw [View.canon_cons_unit_zero (S := S64x128) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case B leaves in the row the update over what it held. -/
theorem sval2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : ¬cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 = (accStep x0 x1 x2 x3 x4 x5 x6 s).2 := by
  show _ = k2_pay2 (k2_pay6 x6) s.2
  unfold kernelRun2_B
  dsimp only
  sl_unfold_words
  rw [View.canon_cons_unit_zero (S := S1x64) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case C leaves in the table the update over what it held. -/
theorem sval2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.1 = (accStep x0 x1 x2 x3 x4 x5 x6 s).1 := by
  show _ = k2_pay1 (k2_pay7 x0 x5 x1 x2 x4 x3 x6) s.1
  unfold kernelRun2_C
  dsimp only
  sl_unfold_words
  rw [View.canon_cons_unit_zero (S := S64x128) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case C leaves in the row the update over what it held. -/
theorem sval2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).2.2.1 = (accStep x0 x1 x2 x3 x4 x5 x6 s).2 := by
  show _ = k2_pay2 (k2_pay6 x6) s.2
  unfold kernelRun2_C
  dsimp only
  sl_unfold_words
  rw [View.canon_cons_unit_zero (S := S1x64) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

/-- Case C (the last point) leaves in the output block the finished sums divided, projected and shifted: its loads of
    the two sums read back what the updates just stored. -/
theorem oval2_C_9 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x1 .f32) (harg6 : arg6.IsWhole) (arg7 : Memref sig .tc .vmem S5000x64 .bf16) (harg7 : arg7.IsWhole) (arg8 : Memref sig .tc .vmem S128x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S64x128 .f32) (harg11 : arg11.IsWhole) (arg12 : Memref sig .tc .vmem S1x64 .f32) (harg12 : arg12.IsWhole) (hc0 : ¬cond2_0 i) (hc1 : cond2_1 i)
    (x0 x1 : Vec F S5000x128 .f32) (x2 : Vec F S128x128 .f32) (x3 : Vec F S1x128 .f32) (x4 : Vec F S128x128 .f32) (x5 : Vec F S5000x1 .f32) (x6 : Vec F S5000x64 .bf16) (x7 : Vec F S128x1 .f32) (x8 : Vec F S1x1 .f32) (s : Vec F S64x128 .f32 × Vec F S1x64 .f32) :
    View.canon (kernelRun2_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 s.1 s.2).1 = accFinish (accStep x0 x1 x2 x3 x4 x5 x6 s) x7 x8 := by
  show _ = k2_pay3 (k2_pay2 (k2_pay6 x6) s.2) (k2_pay1 (k2_pay7 x0 x5 x1 x2 x4 x3 x6) s.1) x7 x8
  unfold kernelRun2_C
  dsimp only
  sl_unfold_words
  rw [View.canon_cons_unit_zero (S := S64x1) hz2]
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S5000x128) hz2, View.ld_unit_zero (S := S128x128) hz2, View.ld_unit_zero (S := S1x128) hz2, View.ld_unit_zero (S := S5000x1) hz2, View.ld_unit_zero (S := S5000x64) hz2, View.ld_unit_zero (S := S128x1) hz2, View.ld_unit_zero (S := S1x1) hz2, View.ld_unit_zero (S := S64x128) hz2, View.ld_unit_zero (S := S1x64) hz2, View.ld_unit_zero (S := S64x1) hz2, View.readCov_unit_zero (S := S64x128) _ hz2, View.readCov_unit_zero (S := S1x64) _ hz2]

-- the TensorCore's buffer contents when the region is entered: the parameter every region's half is stated at
variable (V : (c : Dev nD) → (b : Ref sig .tc) → Buf (Elt F) ((c : Thread nD τ).loc b))

/-! # Region 2 of @main: the last layer fused with the pooling (custom call 2, pipeline 2), at the entry contents `V` -/

/-- The two running sums after the body at position `n`: the update of the point's seven input blocks applied to what
    the point before left (to the zero pair at the first point, where the body resets them first). -/
def accAt2 (c : Dev nD) : (n : ℕ) → n < cfg2.N → Vec F S64x128 .f32 × Vec F S1x64 .f32
  | 0, hn => accStep (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) accInit
  | n + 1, hn => accStep (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (accAt2 c n (Nat.lt_of_succ_lt hn))

/-- At the first point the sums are the update of the zero pair. -/
theorem accAt2_first (c : Dev nD) (t : Fin cfg2.N) (hz : t.val = 0) :
    accAt2 V c t.val t.isLt = accStep (iblk2 V c 0 t) (iblk2 V c 1 t) (iblk2 V c 2 t) (iblk2 V c 3 t) (iblk2 V c 4 t) (iblk2 V c 5 t) (iblk2 V c 6 t) accInit := by
  obtain ⟨n, hn⟩ := t
  cases n with
  | zero => rfl
  | succ n => exact absurd hz (Nat.succ_ne_zero n)

/-- At any later point they are the update of what the point before left. -/
theorem accAt2_next (c : Dev nD) (t : Fin cfg2.N) (hz : t.val ≠ 0) :
    accAt2 V c t.val t.isLt = accStep (iblk2 V c 0 t) (iblk2 V c 1 t) (iblk2 V c 2 t) (iblk2 V c 3 t) (iblk2 V c 4 t) (iblk2 V c 5 t) (iblk2 V c 6 t) (accAt2 V c (t.val - 1) (Nat.lt_of_le_of_lt (Nat.sub_le _ _) t.isLt)) := by
  obtain ⟨n, hn⟩ := t
  cases n with
  | zero => exact absurd rfl hz
  | succ n => rfl

/-! ## The invariant: the two sums carried between points -/

/-- The region invariant before position `n`: before the first point what the launch hands over (both scratch buffers at
    anything); afterwards the two scratch buffers at the sums the point before left, every other scoped buffer of the
    core unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((accAt2 V c n hn).1) ∗ owns (c : Thread nD τ) scM2_1 fullShare ((accAt2 V c n hn).2))
          ∗ Pipeline.scopedRestBut (Ix := Unit) (Name := ℕ) (U := UR sig nD τ) (Lvl := ℕ) (Val := Elt F) spec2 c [cc2_scratch0, cc2_scratch1])
          ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the two sums at that point's values. -/
theorem PhiS2_succ (c : Dev nD) (n : ℕ) (hn : n < cfg2.N) :
    PhiS2 V c (n + 1) hn = iprop(iprop(iprop(owns (c : Thread nD τ) scM2_0 fullShare ((accAt2 V c n hn).1) ∗ owns (c : Thread nD τ) scM2_1 fullShare ((accAt2 V c n hn).2))
          ∗ Pipeline.scopedRestBut (Ix := Unit) (Name := ℕ) (U := UR sig nD τ) (Lvl := ℕ) (Val := Elt F) spec2 c [cc2_scratch0, cc2_scratch1])
          ∗ (∃ r, prngReg c r)) := rfl

/-- Before a point that is not the first: the two sums at what the point before left. -/
theorem PhiS2_pos (c : Dev nD) (n : ℕ) (h : n ≤ cfg2.N) (hz : n ≠ 0) :
    PhiS2 V c n h = iprop(iprop(iprop(owns (c : Thread nD τ) scM2_0 fullShare ((accAt2 V c (n - 1) (by omega)).1) ∗ owns (c : Thread nD τ) scM2_1 fullShare ((accAt2 V c (n - 1) (by omega)).2))
          ∗ Pipeline.scopedRestBut (Ix := Unit) (Name := ℕ) (U := UR sig nD τ) (Lvl := ℕ) (Val := Elt F) spec2 c [cc2_scratch0, cc2_scratch1])
          ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at the finished sums of that point (read at the last point only:
    elsewhere the window is idle); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => accFinish (accAt2 V c t.val t.isLt) (iblk2 V c 7 t) (iblk2 V c 8 t)
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window (the proof data's `match` reduced at each literal window). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = accFinish (accAt2 V c t.val t.isLt) (iblk2 V c 7 t) (iblk2 V c 8 t) := by dsimp only [dat2]

/-- At the last point the output block is the finished sums divided, projected and shifted. -/
theorem after2_9_last (c : Dev nD) (t : Fin cfg2.N) (ht : t.val = 19) :
    (dat2 V c).after 9 t = accFinish (accAt2 V c t.val t.isLt) (iblk2 V c 7 t) (iblk2 V c 8 t) := after2_9 V c t

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t`: the invariant, what the core owes, and each window's current staging
    buffer at what the pipeline left there, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4800000 in
/-- The body at any point: the inputs' memrefs hold their blocks; the closed forms of the two conditions say which case
    the point is in; the invariant hands the body the two scratch buffers at what the point before left (at anything at
    the first point) and takes them back at this point's sums, which is what the case's stores read back as; the output's
    buffer comes back untouched where the window is idle and at the finished sums at the last point; the core owes
    nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  rw [show (dat2 V c).leavesExact 8 t = owns (c : Thread nD τ) (ms2_8 t) fullShare ((dat2 V c).after 8 t) from by
    unfold Dat.leavesExact; rw [liveAt2_8 t], after2_8]
  by_cases h0 : t.val % 20 = 0
  · by_cases h1 : t.val % 20 = 19
    · exfalso; omega
    · have hz : t.val = 0 := by omega
      have hc0' : cond2_0 (grid2.coords t) := (hcond2_0 t).mpr h0
      have hc1' : ¬cond2_1 (grid2.coords t) := fun h => h1 ((hcond2_1 t).mp h)
      rw [Dat.leavesExact_idle (dat2 V c) 9 t (idleAt2_9_A t hc0' hc1') (noFlush2_9_A t hc0' hc1')]
      rw [accAt2_first V c t hz]
      rw [PhiS2_castSucc V c t, PhiS2_zero V c _ _ hz, PhiA2_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro
              exact (View.read_writes_eq_canon _ _ _ (scover2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))).trans (sval2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))
            · unfold owns; iexists _; isplitr
              swap; · iexact HS1
              ipureintro
              exact (View.read_writes_eq_canon _ _ _ (scover2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))).trans (sval2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    have hc0' : ¬cond2_0 (grid2.coords t) := fun h => h0 ((hcond2_0 t).mp h)
    by_cases h1 : t.val % 20 = 19
    · have hc1' : cond2_1 (grid2.coords t) := (hcond2_1 t).mpr h1
      rw [show (dat2 V c).leavesExact 9 t = owns (c : Thread nD τ) (ms2_9 t) fullShare ((dat2 V c).after 9 t) from by
        unfold Dat.leavesExact; rw [liveAt2_9_C t hc0' hc1'], after2_9]
      rw [accAt2_next V c t hz]
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)).1 (accAt2 V c (t.val - 1) (Nat.lt_of_le_of_lt (Nat.sub_le _ _) t.isLt)).2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, ⟨%e9, H9⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro
              exact (View.read_writes_eq_canon _ _ _ (scover2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
            · unfold owns; iexists _; isplitr
              swap; · iexact HS1
              ipureintro
              exact (View.read_writes_eq_canon _ _ _ (scover2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro
      exact (View.read_writes_eq_canon _ _ _ (cover2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (oval2_C_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
    · have hc1' : ¬cond2_1 (grid2.coords t) := fun h => h1 ((hcond2_1 t).mp h)
      rw [Dat.leavesExact_idle (dat2 V c) 9 t (idleAt2_9_B t hc0' hc1') (noFlush2_9_B t hc0' hc1')]
      rw [accAt2_next V c t hz]
      rw [PhiS2_castSucc V c t, PhiS2_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)).1 (accAt2 V c (t.val - 1) (Nat.lt_of_le_of_lt (Nat.sub_le _ _) t.isLt)).2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro
              exact (View.read_writes_eq_canon _ _ _ (scover2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
            · unfold owns; iexists _; isplitr
              swap; · iexact HS1
              ipureintro
              exact (View.read_writes_eq_canon _ _ _ (scover2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))).trans (sval2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) scM2_1 (Memref.isWhole_whole _) hc0' hc1' (iblk2 V c 0 t) (iblk2 V c 1 t) (iblk2 V c 2 t) (iblk2 V c 3 t) (iblk2 V c 4 t) (iblk2 V c 5 t) (iblk2 V c 6 t) (iblk2 V c 7 t) (iblk2 V c 8 t) (accAt2 V c (t.val - 1) (Nat.lt_of_le_of_lt (Nat.sub_le _ _) t.isLt)))
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: what the two sums hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Frm

end
-- ==== Proof.Run.lean ====
import proofs.«412677_j67808943669808_2_alg».proof.Proof.Gen.KernelIdeal.Launch
import proofs.«412677_j67808943669808_2_alg».proof.Proof.Gen.KernelIdeal.Skeleton
import proofs.«412677_j67808943669808_2_alg».proof.Proof.Gen.KernelIdeal.Points
import proofs.«412677_j67808943669808_2_alg».proof.Proof.Gen.KernelIdeal.Regions
import proofs.«412677_j67808943669808_2_alg».proof.Proof.Reg0
import proofs.«412677_j67808943669808_2_alg».proof.Proof.Reg1
import proofs.«412677_j67808943669808_2_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Frm
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)

/-! # The buffer contents the three regions leave, stage by stage -/

/-- At region 0's exit: its arrays at what the pipeline leaves, every other buffer as entered. -/
def X2 (c : Dev nD) : Valuation τ sig (Elt F) :=
  Pipeline.withArrays spec0 c (V1 m c) fun w => (dat0 (fun c b => V1 m c b) c).arrAt w cfg0.N
def outs2 : Outs (F := F) := fun _ r c => X2 m c r
/-- At region 1's exit. -/
def X4 (c : Dev nD) : Valuation τ sig (Elt F) :=
  Pipeline.withArrays spec1 c (V3 m (outs2 m) c) fun w => (dat1 (fun c b => V3 m (outs2 m) c b) c).arrAt w cfg1.N
def outs4 : Outs (F := F) := fun J r c => if J = 2 then X2 m c r else X4 m c r
/-- At region 2's exit. -/
def X6 (c : Dev nD) : Valuation τ sig (Elt F) :=
  Pipeline.withArrays spec2 c (V5 m (outs4 m) c) fun w => (dat2 (fun c b => V5 m (outs4 m) c b) c).arrAt w cfg2.N
/-- What the regions leave: after item 1 region 0's exit contents, after item 3 region 1's, after item 5 region 2's. -/
def outs : Outs (F := F) := fun J r c => if J = 2 then X2 m c r else if J = 4 then X4 m c r else X6 m c r

theorem V3_outs (c : Dev nD) : V3 m (outs m) c = V3 m (outs2 m) c := rfl
theorem V5_outs (c : Dev nD) : V5 m (outs m) c = V5 m (outs4 m) c := rfl

theorem outs_2 (c : Dev nD) : outs m 2 main_v37 c = (dat0 (fun c b => V1 m c b) c).arrAt 6 cfg0.N := by
  show X2 m c (Proc.devRef .tc (Pipeline.arrRef spec0 6)) = _
  unfold X2; exact Pipeline.withArrays_arr spec0 launch0.win.arr_inj c _ _ 6
theorem outs_4 (c : Dev nD) : outs m 4 main_v55 c = (dat1 (fun c b => V3 m (outs m) c b) c).arrAt 6 cfg1.N := by
  show X4 m c (Proc.devRef .tc (Pipeline.arrRef spec1 6)) = _
  unfold X4; exact Pipeline.withArrays_arr spec1 launch1.win.arr_inj c _ _ 6
theorem outs_6 (c : Dev nD) : outs m 6 main_v74 c = (dat2 (fun c b => V5 m (outs m) c b) c).arrAt 9 cfg2.N := by
  show X6 m c (Proc.devRef .tc (Pipeline.arrRef spec2 9)) = _
  unfold X6; exact Pipeline.withArrays_arr spec2 launch2.win.arr_inj c _ _ 9

/-! # The proof data family and the thread state -/

def pdats : (p : Fin 3) → (c : Dev nD) → Dat τ (Elt F) Unit ℕ (UR sig nD τ) ℕ (Pipeline.pin (pcfgs (F := F)) adm p) c
  | ⟨0, _⟩ => fun c => dat0 (fun c b => V1 m c b) c
  | ⟨1, _⟩ => fun c => dat1 (fun c b => V3 m (outs m) c b) c
  | ⟨2, _⟩ => fun c => dat2 (fun c b => V5 m (outs m) c b) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)

/-! ## Region 0 -/

/-- Every window of region 0 but the last is an input window, and its array is not the output's. -/
theorem win0_in : ∀ w : Fin cfg0.W, w ≠ 6 → (cfg0.win w).isOut = false := by decide
theorem win0_ne : ∀ w : Fin cfg0.W, w ≠ 6 → Pipeline.arrRef spec0 w ∉ ([main_v37] : List (Ref sig .tc)) := by decide

/-- An input window's array is at exit what it was at entry, and the contents after the region still read that there. -/
theorem hF0_in (c : Dev nD) (w : Fin cfg0.W) (hin : (cfg0.win w).isOut = false)
    (hne : Pipeline.arrRef spec0 w ∉ ([main_v37] : List (Ref sig .tc))) :
    (dat0 (fun c b => V1 m c b) c).arrAt w cfg0.N = V2 m (outs m) c (Pipeline.arrRef spec0 w) :=
  ((dat0 (fun c b => V1 m c b) c).arrAt_in w hin _).trans
    ((A_eq0 (fun c b => V1 m c b) c w).trans (V2_of m (outs m) c (Pipeline.arrRef spec0 w) hne).symm)

/-- The output window's array is at exit its write-backs folded: what the contents after the region hold there. -/
theorem hF0_out (c : Dev nD) :
    (dat0 (fun c b => V1 m c b) c).arrAt 6 cfg0.N = V2 m (outs m) c (Pipeline.arrRef spec0 6) := by
  have h : V2 m (outs m) c (Proc.devRef .tc main_v37) = outs m 2 main_v37 c := Function.update_self _ _ _
  exact (outs_2 m c).symm.trans h.symm

/-- At region 0's exit each of its arrays holds what the contents after the region read there. -/
theorem hF0 (c : Dev nD) (w : Fin cfg0.W) :
    (dat0 (fun c b => V1 m c b) c).arrAt w cfg0.N = V2 m (outs m) c (Pipeline.arrRef spec0 w) := by
  by_cases h : w = 6
  · subst h; exact hF0_out m c
  · exact hF0_in m c w (win0_in w h) (win0_ne w h)

/-- Off the region's arrays the contents after the region are those before it. -/
theorem hrest0 (c : Dev nD) (b : Ref sig .tc) (hb : b ∉ Finset.univ.image (Pipeline.arrRef spec0)) :
    V2 m (outs m) c b = V1 m c b :=
  V2_of m (outs m) c b fun h => hb (by
    rw [List.mem_singleton.mp h]; exact Finset.mem_image.mpr ⟨6, Finset.mem_univ _, rfl⟩)

set_option backward.isDefEq.respectTransparency.types false in
/-- Region 0 over the thread state: entered from every unscoped buffer at the contents before it, left at the contents
    after it; its arrays split out of the unscoped buffers and put back at the exit contents; the generator register
    into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V1 m c b) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- Every window of region 1 but the last is an input window, and its array is not the output's. -/
theorem win1_in : ∀ w : Fin cfg1.W, w ≠ 6 → (cfg1.win w).isOut = false := by decide
theorem win1_ne : ∀ w : Fin cfg1.W, w ≠ 6 → Pipeline.arrRef spec1 w ∉ ([main_v55] : List (Ref sig .tc)) := by decide

/-- An input window's array is at exit what it was at entry, and the contents after the region still read that there. -/
theorem hF1_in (c : Dev nD) (w : Fin cfg1.W) (hin : (cfg1.win w).isOut = false)
    (hne : Pipeline.arrRef spec1 w ∉ ([main_v55] : List (Ref sig .tc))) :
    (dat1 (fun c b => V3 m (outs m) c b) c).arrAt w cfg1.N = V4 m (outs m) c (Pipeline.arrRef spec1 w) :=
  ((dat1 (fun c b => V3 m (outs m) c b) c).arrAt_in w hin _).trans
    ((A_eq1 (fun c b => V3 m (outs m) c b) c w).trans (V4_of m (outs m) c (Pipeline.arrRef spec1 w) hne).symm)

/-- The output window's array is at exit its write-backs folded: what the contents after the region hold there. -/
theorem hF1_out (c : Dev nD) :
    (dat1 (fun c b => V3 m (outs m) c b) c).arrAt 6 cfg1.N = V4 m (outs m) c (Pipeline.arrRef spec1 6) := by
  have h : V4 m (outs m) c (Proc.devRef .tc main_v55) = outs m 4 main_v55 c := Function.update_self _ _ _
  exact (outs_4 m c).symm.trans h.symm

/-- At region 1's exit each of its arrays holds what the contents after the region read there. -/
theorem hF1 (c : Dev nD) (w : Fin cfg1.W) :
    (dat1 (fun c b => V3 m (outs m) c b) c).arrAt w cfg1.N = V4 m (outs m) c (Pipeline.arrRef spec1 w) := by
  by_cases h : w = 6
  · subst h; exact hF1_out m c
  · exact hF1_in m c w (win1_in w h) (win1_ne w h)

/-- Off the region's arrays the contents after the region are those before it. -/
theorem hrest1 (c : Dev nD) (b : Ref sig .tc) (hb : b ∉ Finset.univ.image (Pipeline.arrRef spec1)) :
    V4 m (outs m) c b = V3 m (outs m) c b :=
  V4_of m (outs m) c b fun h => hb (by
    rw [List.mem_singleton.mp h]; exact Finset.mem_image.mpr ⟨6, Finset.mem_univ _, rfl⟩)

set_option backward.isDefEq.respectTransparency.types false in
/-- Region 1 over the thread state: entered from every unscoped buffer at the contents before it, left at the contents
    after it; its arrays split out of the unscoped buffers and put back at the exit contents; the generator register
    into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V3 m (outs m) c b) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V3 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V3 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V3 m (outs m) c b) (fun b => V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- Every window of region 2 but the last is an input window, and its array is not the output's. -/
theorem win2_in : ∀ w : Fin cfg2.W, w ≠ 9 → (cfg2.win w).isOut = false := by decide
theorem win2_ne : ∀ w : Fin cfg2.W, w ≠ 9 → Pipeline.arrRef spec2 w ∉ ([main_v74] : List (Ref sig .tc)) := by decide

/-- An input window's array is at exit what it was at entry, and the contents after the region still read that there. -/
theorem hF2_in (c : Dev nD) (w : Fin cfg2.W) (hin : (cfg2.win w).isOut = false)
    (hne : Pipeline.arrRef spec2 w ∉ ([main_v74] : List (Ref sig .tc))) :
    (dat2 (fun c b => V5 m (outs m) c b) c).arrAt w cfg2.N = V6 m (outs m) c (Pipeline.arrRef spec2 w) :=
  ((dat2 (fun c b => V5 m (outs m) c b) c).arrAt_in w hin _).trans
    ((A_eq2 (fun c b => V5 m (outs m) c b) c w).trans (V6_of m (outs m) c (Pipeline.arrRef spec2 w) hne).symm)

/-- The output window's array is at exit its write-backs folded: what the contents after the region hold there. -/
theorem hF2_out (c : Dev nD) :
    (dat2 (fun c b => V5 m (outs m) c b) c).arrAt 9 cfg2.N = V6 m (outs m) c (Pipeline.arrRef spec2 9) := by
  have h : V6 m (outs m) c (Proc.devRef .tc main_v74) = outs m 6 main_v74 c := Function.update_self _ _ _
  exact (outs_6 m c).symm.trans h.symm

/-- At region 2's exit each of its arrays holds what the contents after the region read there. -/
theorem hF2 (c : Dev nD) (w : Fin cfg2.W) :
    (dat2 (fun c b => V5 m (outs m) c b) c).arrAt w cfg2.N = V6 m (outs m) c (Pipeline.arrRef spec2 w) := by
  by_cases h : w = 9
  · subst h; exact hF2_out m c
  · exact hF2_in m c w (win2_in w h) (win2_ne w h)

/-- Off the region's arrays the contents after the region are those before it. -/
theorem hrest2 (c : Dev nD) (b : Ref sig .tc) (hb : b ∉ Finset.univ.image (Pipeline.arrRef spec2)) :
    V6 m (outs m) c b = V5 m (outs m) c b :=
  V6_of m (outs m) c b fun h => hb (by
    rw [List.mem_singleton.mp h]; exact Finset.mem_image.mpr ⟨9, Finset.mem_univ _, rfl⟩)

set_option backward.isDefEq.respectTransparency.types false in
/-- Region 2 over the thread state: entered from every unscoped buffer at the contents before it, left at the contents
    after it; its arrays split out of the unscoped buffers and put back at the exit contents; the generator register
    into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V5 m (outs m) c b) c).loose
  hwaits := Pipeline.hwaits_of_owed_zero _ _ _ _ L lv 2 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => V5 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V5 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (fun c b => V5 m (outs m) c b) c)
    unfold Pipeline.ΦA
    iintro ⟨Hp, -, Hr⟩
    isplitl [Hr]; · iexact Hr
    iexact Hp
  hout c := by
    rw [Pipeline.ownSems0_none]
    refine (hout2 (fun c b => V5 m (outs m) c b) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V5 m (outs m) c b) (fun b => V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The run -/

/-- Beside the buffers the rest ends owing nothing. -/
theorem R_owes (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- @main from memory `m` with zero counters: every weakly fair execution terminates, and every final memory holds each
    unscoped buffer of every core at the last contents of the fold through the host stretches and the three regions. -/
theorem run_all : θ_run defs (onTc (τ := τ) (main (F := F))) ⟨m, fun _ => 0, ρ⟩
    (fun r => ∀ c : Dev nD, ∀ b ∈ Pipeline.ucRefs τ sig, r.2.mem ((c : Thread nD τ).1, b) = V7 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by
      rewrite [main_chain c, Pipeline.Seg.run_eq_chain,
        show (segs m (outs m) 𝒱₀ L lv (fun _ => R) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V7 m (outs m) c))
    (hch := fun c => ⟨.rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V7 m (outs m) c b)
    (hfin := fun c s' => by
      iintro ⟨Hh, HSI⟩
      unfold StableHlo.held
      imodintro
      iapply (pointsTo_read_all (Pipeline.ucRefs τ sig) (fun b => ((c : Thread nD τ).1, b)) (V7 m (outs m) c) s')
      isplitl [Hh] <;> iassumption)
    (hQ := fun _ h => h)

end Cert.KernelIdeal.Frm
end
-- ==== Proof.RunVals.lean ====
/-
  The run of @main restated at the result and the arguments: every weakly fair execution ends with the result buffer at
  what the last host stretch makes of the third pallas_call's output, and every argument array as launched.
-/
import proofs.«412677_j67808943669808_2_alg».proof.Proof.Run

set_option maxRecDepth 16384

noncomputable section

namespace Cert.KernelIdeal.Frm

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- An unscoped TensorCore reference is among those whose contents the run's end names. -/
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run, read at the result and at the eight arguments. -/
theorem run_vals : θ_run defs (onTc (τ := τ) (main (F := F))) ⟨m, fun _ => 0, ρ⟩ (fun r => ∀ c : Dev nD,
      r.2.mem ((c.tc : Thread nD τ).loc main_v75) = V7 m (outs m) c main_v75
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_ucRefs main_v75 (by decide)),
      (h c _ (mem_ucRefs main_arg0 (by decide))).trans (V7_main_arg0 m (outs m) c),
      (h c _ (mem_ucRefs main_arg1 (by decide))).trans (V7_main_arg1 m (outs m) c),
      (h c _ (mem_ucRefs main_arg2 (by decide))).trans (V7_main_arg2 m (outs m) c),
      (h c _ (mem_ucRefs main_arg3 (by decide))).trans (V7_main_arg3 m (outs m) c),
      (h c _ (mem_ucRefs main_arg4 (by decide))).trans (V7_main_arg4 m (outs m) c),
      (h c _ (mem_ucRefs main_arg5 (by decide))).trans (V7_main_arg5 m (outs m) c),
      (h c _ (mem_ucRefs main_arg6 (by decide))).trans (V7_main_arg6 m (outs m) c),
      (h c _ (mem_ucRefs main_arg7 (by decide))).trans (V7_main_arg7 m (outs m) c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_vals m ρ)

end Cert.KernelIdeal.Frm

end
-- ==== Proof.KPay.lean ====
/-
  The kernel bodies' arithmetic read at an index, at the extended reals: each payload term of the three kernel bodies is
  the corresponding expression of `Cert.Spec` — a layer's row, the one-hot-weighted row sums of a 5000-row tile, the
  running sums' updates, and the closing division, projection and shift.
-/
import proofs.«412677_j67808943669808_2_alg».proof.Proof.Gen.KernelIdeal.Skeleton
import proofs.«412677_j67808943669808_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.ValueIdx Cert.KernelIdeal Cert.KernelIdeal.Gen Cert.Spec

/-! ## A column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three products at an index

Each product contracts one axis; its operands' indices at an output index and a contraction position are read axis by
axis, and the sum over the contraction positions is re-indexed by the position's one coordinate. -/

/-! ### A tile of 5000 rows times a 128 × 128 matrix -/

theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile of 5000 rows times a 128 × 128 matrix, into the zero accumulator: the sum over the 128 features. -/
theorem matmulA_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul _ _ _ _ _ _ = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The transpose of a 5000 × 64 table times a tile of 5000 rows -/

theorem lhsB_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhsB_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhsB_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhsB_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The transpose of a 5000 × 64 table times a tile of 5000 rows, into the zero accumulator: the sum over the 5000 rows. -/
theorem matmulB_apply {φ₁ φ₂ : FTy} (l : FVec Ideal S5000x64 φ₁) (r : FVec Ideal S5000x128 φ₂) (g : Fin 64) (d : Fin 128) :
    matmul dot_S5000x64_S5000x128_S64x128_0_0_1_1_n_n none l r (constant S64x128 .f32 0x00000000#32) (ix2 g d)
      = ∑ k : Fin 5000, l (ix2 k g) * r (ix2 k d) := by
  show FloatOps.matmul _ _ _ _ _ _ = _
  rw [Ideal.matmul_constant_zero_apply, ← Equiv.sum_comp (ValueIdx.contrEquiv1 dot_S5000x64_S5000x128_S64x128_0_0_1_1_n_n 5000 rfl rfl).symm]
  refine Finset.sum_congr rfl fun k _ => ?_
  have hk := ValueIdx.contrEquiv1_symm_val dot_S5000x64_S5000x128_S64x128_0_0_1_1_n_n 5000 rfl rfl k
  have el : dot_S5000x64_S5000x128_S64x128_0_0_1_1_n_n.lhsIdx (ix2 g d) ((ValueIdx.contrEquiv1 dot_S5000x64_S5000x128_S64x128_0_0_1_1_n_n 5000 rfl rfl).symm k) = ix2 k g := funext fun a => Fin.ext (by
    match a with
    | ⟨0, _⟩ => exact (lhsB_0 _ _).trans hk
    | ⟨1, _⟩ => exact lhsB_1 _ _)
  have er : dot_S5000x64_S5000x128_S64x128_0_0_1_1_n_n.rhsIdx (ix2 g d) ((ValueIdx.contrEquiv1 dot_S5000x64_S5000x128_S64x128_0_0_1_1_n_n 5000 rfl rfl).symm k) = ix2 k d := funext fun a => Fin.ext (by
    match a with
    | ⟨0, _⟩ => exact (rhsB_0 _ _).trans hk
    | ⟨1, _⟩ => exact rhsB_1 _ _)
  rw [el, er]

/-! ### A 64 × 128 table times a column of 128 -/

theorem lhsC_0 (i : S64x1.Idx) (q : dot_S64x128_S128x1_S64x1_1_0_0_1_n_n.contr.Idx) :
    (dot_S64x128_S128x1_S64x1_1_0_0_1_n_n.lhsIdx i q 0).val = (i 0).val := by
  unfold DotDims.lhsIdx
  rw [dif_neg (show ¬(0 : Fin S64x128.rank) ∈ dot_S64x128_S128x1_S64x1_1_0_0_1_n_n.lhsBatch by decide), dif_pos (show (0 : Fin S64x128.rank) ∈ dot_S64x128_S128x1_S64x1_1_0_0_1_n_n.lhsNonContracting by decide)]
  rfl
theorem lhsC_1 (i : S64x1.Idx) (q : dot_S64x128_S128x1_S64x1_1_0_0_1_n_n.contr.Idx) :
    (dot_S64x128_S128x1_S64x1_1_0_0_1_n_n.lhsIdx i q 1).val = (q ⟨0, by decide⟩).val :=
  dot_S64x128_S128x1_S64x1_1_0_0_1_n_n.lhsIdx_val_of_single rfl i q
theorem rhsC_0 (i : S64x1.Idx) (q : dot_S64x128_S128x1_S64x1_1_0_0_1_n_n.contr.Idx) :
    (dot_S64x128_S128x1_S64x1_1_0_0_1_n_n.rhsIdx i q 0).val = (q ⟨0, by decide⟩).val :=
  dot_S64x128_S128x1_S64x1_1_0_0_1_n_n.rhsIdx_val_of_single rfl i q
theorem rhsC_1 (i : S64x1.Idx) (q : dot_S64x128_S128x1_S64x1_1_0_0_1_n_n.contr.Idx) :
    (dot_S64x128_S128x1_S64x1_1_0_0_1_n_n.rhsIdx i q 1).val = (i 1).val := by
  unfold DotDims.rhsIdx
  rw [dif_neg (show ¬(1 : Fin S128x1.rank) ∈ dot_S64x128_S128x1_S64x1_1_0_0_1_n_n.rhsBatch by decide), dif_pos (show (1 : Fin S128x1.rank) ∈ dot_S64x128_S128x1_S64x1_1_0_0_1_n_n.rhsNonContracting by decide)]
  rfl

/-- A 64 × 128 table times a column of 128, into the zero accumulator: the sum over the 128 features. -/
theorem matmulC_apply {φ₁ φ₂ : FTy} (l : FVec Ideal S64x128 φ₁) (r : FVec Ideal S128x1 φ₂) (g : Fin 64) (c : Fin 1) :
    matmul dot_S64x128_S128x1_S64x1_1_0_0_1_n_n none l r (constant S64x1 .f32 0x00000000#32) (ix2 g c)
      = ∑ k : Fin 128, l (ix2 g k) * r (ix2 k c) := by
  show FloatOps.matmul _ _ _ _ _ _ = _
  rw [Ideal.matmul_constant_zero_apply, ← Equiv.sum_comp (ValueIdx.contrEquiv1 dot_S64x128_S128x1_S64x1_1_0_0_1_n_n 128 rfl rfl).symm]
  refine Finset.sum_congr rfl fun k _ => ?_
  have hk := ValueIdx.contrEquiv1_symm_val dot_S64x128_S128x1_S64x1_1_0_0_1_n_n 128 rfl rfl k
  have el : dot_S64x128_S128x1_S64x1_1_0_0_1_n_n.lhsIdx (ix2 g c) ((ValueIdx.contrEquiv1 dot_S64x128_S128x1_S64x1_1_0_0_1_n_n 128 rfl rfl).symm k) = ix2 g k := funext fun a => Fin.ext (by
    match a with
    | ⟨0, _⟩ => exact lhsC_0 _ _
    | ⟨1, _⟩ => exact (lhsC_1 _ _).trans hk)
  have er : dot_S64x128_S128x1_S64x1_1_0_0_1_n_n.rhsIdx (ix2 g c) ((ValueIdx.contrEquiv1 dot_S64x128_S128x1_S64x1_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ## The payloads -/

/-- The first layer's payload at row `p`, feature `q` of a tile is the layer's row expression on the tile's rows. -/
theorem k0_pay1_apply (a : Vec Ideal S5000x128 .f32) (inv : Vec Ideal S5000x1 .f32) (x : Vec Ideal S5000x128 .f32)
    (wl wr : Vec Ideal S128x128 .f32) (b : Vec Ideal S1x128 .f32) (p : Fin 5000) (q : Fin 128) :
    k0_pay1 (F := Ideal) a inv x wl wr b (ix2 p q) = rowOut (R := 5000) a x inv wl wr b p q := by
  unfold k0_pay1
  simp only [shapeCast_self]
  show leaky _ = leaky _
  refine congrArg leaky ?_
  unfold preAct
  rw [addf_apply, addf_apply, matmulA_apply, matmulA_apply, broadcastTo_1b_ab_apply]
  simp only [truncf_apply, mulf_apply, broadcastTo_a1_ab_apply]

/-- The second layer's payload likewise. -/
theorem k1_pay1_apply (a : Vec Ideal S5000x128 .f32) (inv : Vec Ideal S5000x1 .f32) (x : Vec Ideal S5000x128 .f32)
    (wl wr : Vec Ideal S128x128 .f32) (b : Vec Ideal S1x128 .f32) (p : Fin 5000) (q : Fin 128) :
    k1_pay1 (F := Ideal) a inv x wl wr b (ix2 p q) = rowOut (R := 5000) a x inv wl wr b p q := by
  unfold k1_pay1
  simp only [shapeCast_self]
  show leaky _ = leaky _
  refine congrArg leaky ?_
  unfold preAct
  rw [addf_apply, addf_apply, matmulA_apply, matmulA_apply, broadcastTo_1b_ab_apply]
  simp only [truncf_apply, mulf_apply, broadcastTo_a1_ab_apply]

/-- The one-hot tile passes through its cast unchanged. -/
theorem k2_pay6_eq (oh : Vec Ideal S5000x64 .bf16) : k2_pay6 (F := Ideal) oh = oh := by
  unfold k2_pay6
  exact shapeCast_self _ _

/-- The last layer's tile contribution to the per-graph sums: the one-hot table's transpose times the activated rows. -/
theorem k2_pay7_apply (a : Vec Ideal S5000x128 .f32) (inv : Vec Ideal S5000x1 .f32) (x : Vec Ideal S5000x128 .f32)
    (wl wr : Vec Ideal S128x128 .f32) (b : Vec Ideal S1x128 .f32) (oh : Vec Ideal S5000x64 .bf16) (g : Fin 64) (d : Fin 128) :
    k2_pay7 (F := Ideal) a inv x wl wr b oh (ix2 g d) = poolSum (R := 5000) (layerArr a x inv wl wr b) oh g d := by
  unfold k2_pay7
  rw [matmulB_apply]
  unfold poolSum
  refine Finset.sum_congr rfl fun r _ => ?_
  rw [k2_pay6_eq, truncf_apply]
  refine congrArg (oh (ix2 r g) * ·) ?_
  exact k1_pay1_apply a inv x wl wr b r d

/-- The table of sums gains the tile's contribution. -/
theorem k2_pay1_apply (p : FVec Ideal S64x128 .f32) (s : Vec Ideal S64x128 .f32) (i : S64x128.Idx) :
    k2_pay1 (F := Ideal) p s i = s i + p i := by
  unfold k2_pay1
  rw [shapeCast_self]
  rfl

/-- The row of counts gains the tile's column sums of the one-hot table. -/
theorem k2_pay2_apply (oh : FVec Ideal S5000x64 .bf16) (s : Vec Ideal S1x64 .f32) (g : Fin 64) :
    k2_pay2 (F := Ideal) oh s (ix2 0 g) = s (ix2 0 g) + poolCnt (R := 5000) oh g := by
  unfold k2_pay2
  rw [shapeCast_self, addf_apply]
  refine congrArg (s (ix2 0 g) + ·) ?_
  rw [shapeCast_a_1a_apply]
  refine (Ideal.multiReduction_add_single _ _ _ _ _ (ix1 g)).trans ?_
  unfold poolCnt
  refine Finset.sum_congr rfl fun r _ => ?_
  rw [extf_apply]
  refine congrArg oh (funext fun a => Fin.ext ?_)
  match a with
  | ⟨0, _⟩ => rfl
  | ⟨1, _⟩ => rfl

/-- The closing step: the sums divided by the clamped counts, projected and shifted. -/
theorem k2_pay3_apply (cnt : Vec Ideal S1x64 .f32) (acc : Vec Ideal S64x128 .f32) (wo : Vec Ideal S128x1 .f32) (bo : Vec Ideal S1x1 .f32) (g : Fin 64) :
    k2_pay3 (F := Ideal) cnt acc wo bo (ix2 g 0)
      = (∑ k : Fin 128, Ideal.div (acc (ix2 g k)) (max (cnt (ix2 0 g)) (FloatOps.ofBits (F := Ideal) .f32 0x3F800000#32)) * wo (ix2 k 0)) + bo (ix2 0 0) := by
  unfold k2_pay3
  rw [shapeCast_self, addf_apply, matmulC_apply, broadcastTo_1b_ab_apply]
  refine congrArg (· + bo (ix2 0 0)) ?_
  refine Finset.sum_congr rfl fun k _ => ?_
  rw [truncf_apply, truncf_apply, divf_apply, broadcastTo_a1_ab_apply, transpose_ix2_apply, maximumf_apply, broadcast_apply]

/-- The reset values are zero. -/
theorem k2_pay4_apply (i : S64x128.Idx) : k2_pay4 (F := Ideal) i = 0 := by
  unfold k2_pay4
  rw [shapeCast_self]
  exact Ideal.ofBits_zero_f32
theorem k2_pay5_apply (i : S1x64.Idx) : k2_pay5 (F := Ideal) i = 0 := by
  unfold k2_pay5
  rw [shapeCast_self]
  exact Ideal.ofBits_zero_f32

end Cert.KernelIdeal.Val

end
-- ==== Proof.Blocks01.lean ====
/-
  From tiles to arrays, for the two row-tiled layers. Each of the first two kernels walks twenty grid points; at point t
  it reads rows 5000 t … 5000 t + 4999 of the neighbour sums, of the features and of the reciprocal degrees, the whole of
  both weight matrices and of the bias row, and writes back rows 5000 t … 5000 t + 4999 of its output. A layer's output
  at a row depends only on that row of the three row-indexed inputs, so what point t writes back is tile t of the
  layer's output array; the twenty tiles cover the 100000 rows, so after the last write-back the output array is the
  layer's output array.
-/
import proofs.«412677_j67808943669808_2_alg».proof.Proof.Reg0
import proofs.«412677_j67808943669808_2_alg».proof.Proof.Reg1
import proofs.«412677_j67808943669808_2_alg».proof.Proof.KPay
import proofs.«412677_j67808943669808_2_alg».proof.Proof.Spec
import Idealize.ShloMosaic.Lib.Pipeline.Value
import Idealize.ShloMosaic.Lib.ValueIdx

noncomputable section

namespace Cert.KernelIdeal.Val

open Idealize.ShloMosaic Idealize.ShloMosaic.ValueIdx Cert.KernelIdeal Cert.KernelIdeal.Gen Cert.KernelIdeal.Frm Cert.Spec
open Idealize.ShloMosaic.TcCoe
open Idealize.ShloMosaic.Pipeline (Dat)

variable (V : (c : Dev nD) → (b : Ref sig .tc) → Buf (Elt Ideal) ((c : Thread nD τ).loc b))

/-! ## Facts shared by both layers -/

/-- The zero offsets of a whole-buffer access, as a constant function. -/
private theorem zero_off : (![0, 0] : Fin 2 → Nat) = fun _ => 0 := funext fun a => by fin_cases a <;> rfl

/-- One layer's output at a row reads only that row of the neighbour sums, of the features and of the reciprocal
    degrees: two triples of arrays, of whatever heights, that agree on a row of each give the same output there. -/
theorem rowOut_congr {R R' : Nat} (agg x : Mat R 128) (inv : Mat R 1) (agg' x' : Mat R' 128) (inv' : Mat R' 1)
    (wl wr : Mat 128 128) (b : Mat 1 128) (r : Fin R) (r' : Fin R')
    (ha : ∀ k : Fin 128, agg (ix2 r k) = agg' (ix2 r' k)) (hx : ∀ k : Fin 128, x (ix2 r k) = x' (ix2 r' k))
    (hi : inv (ix2 r 0) = inv' (ix2 r' 0)) (d : Fin 128) :
    rowOut agg x inv wl wr b r d = rowOut agg' x' inv' wl wr b r' d := by
  unfold rowOut preAct
  simp only [ha, hx, hi]

/-! ## Layer one (pipeline 0): tile t is rows 5000 t … 5000 t + 4999 -/

/-- The printed index maps over the twenty grid points: the row-tiled windows (neighbour sums, features, reciprocal
    degrees, output) are at block (t, 0) at point t, the weights and the bias row at block (0, 0) throughout. -/
theorem blockIndex0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- There are twenty points. -/
theorem point_lt0 (t : Fin cfg0.N) : t.val < 20 := by
  have h : t.val < grid0.N := t.isLt
  rwa [N_0] at h

/-- Row p of the neighbour sums' tile at point t is row 5000 t + p of the array. -/
theorem aggTile0_apply (c : Dev nD) (t : Fin cfg0.N) (p : Fin 5000) (k : Fin 128) (i : S100000x128.Idx)
    (h0 : (i 0).val = 5000 * t.val + p.val) (h1 : (i 1).val = k.val) :
    (iblk0 V c 0 t : Vec Ideal S5000x128 .f32) (ix2 p k) = (V c main_v29 : S100000x128.Idx → EReal) i := by
  obtain ⟨e0, e1, -⟩ := blockIndex0 t
  unfold iblk0
  rw [View.read_apply]
  show V c main_v29 _ = V c main_v29 _
  congr 1
  funext a
  apply Fin.ext
  match a with
  | ⟨0, _⟩ => show win0_0.index t 0 * 5000 + 1 * p.val = (i 0).val; rw [e0, h0]; omega
  | ⟨1, _⟩ => show win0_0.index t 1 * 128 + 1 * k.val = (i 1).val; rw [e1, h1]; omega

/-- Row p of the features' tile at point t is row 5000 t + p of the array. -/
theorem featTile0_apply (c : Dev nD) (t : Fin cfg0.N) (p : Fin 5000) (k : Fin 128) (i : S100000x128.Idx)
    (h0 : (i 0).val = 5000 * t.val + p.val) (h1 : (i 1).val = k.val) :
    (iblk0 V c 1 t : Vec Ideal S5000x128 .f32) (ix2 p k) = (V c main_arg0 : S100000x128.Idx → EReal) i := by
  obtain ⟨-, -, e0, e1, -⟩ := blockIndex0 t
  unfold iblk0
  rw [View.read_apply]
  show V c main_arg0 _ = V c main_arg0 _
  congr 1
  funext a
  apply Fin.ext
  match a with
  | ⟨0, _⟩ => show win0_1.index t 0 * 5000 + 1 * p.val = (i 0).val; rw [e0, h0]; omega
  | ⟨1, _⟩ => show win0_1.index t 1 * 128 + 1 * k.val = (i 1).val; rw [e1, h1]; omega

/-- Entry p of the reciprocal degrees' tile at point t is entry 5000 t + p of the column. -/
theorem invTile0_apply (c : Dev nD) (t : Fin cfg0.N) (p : Fin 5000) (i : S100000x1.Idx)
    (h0 : (i 0).val = 5000 * t.val + p.val) :
    (iblk0 V c 5 t : Vec Ideal S5000x1 .f32) (ix2 p 0) = (V c main_v12 : S100000x1.Idx → EReal) i := by
  obtain ⟨-, -, -, -, -, -, -, -, -, -, e0, e1, -⟩ := blockIndex0 t
  have h1 : (i 1).val < 1 := (i 1).isLt
  unfold iblk0
  rw [View.read_apply]
  show V c main_v12 _ = V c main_v12 _
  congr 1
  funext a
  apply Fin.ext
  match a with
  | ⟨0, _⟩ => show win0_5.index t 0 * 5000 + 1 * p.val = (i 0).val; rw [e0, h0]; omega
  | ⟨1, _⟩ => show win0_5.index t 1 * 1 + 1 * 0 = (i 1).val; rw [e1]; omega

/-- The left weights' block is the whole matrix at every point. -/
theorem wlTile0_eq (c : Dev nD) (t : Fin cfg0.N) :
    (iblk0 V c 2 t : Vec Ideal S128x128 .f32) = (V c main_v34 : S128x128.Idx → EReal) := by
  obtain ⟨-, -, -, -, e0, e1, -⟩ := blockIndex0 t
  funext j
  have hj0 : (j 0).val < 128 := (j 0).isLt
  have hj1 : (j 1).val < 128 := (j 1).isLt
  unfold iblk0
  rw [View.read_apply]
  show V c main_v34 _ = V c main_v34 j
  congr 1
  funext a
  apply Fin.ext
  match a with
  | ⟨0, _⟩ => show win0_2.index t 0 * 128 + 1 * (j 0).val = (j 0).val; rw [e0]; omega
  | ⟨1, _⟩ => show win0_2.index t 1 * 128 + 1 * (j 1).val = (j 1).val; rw [e1]; omega

/-- The bias row's block is the whole row at every point. -/
theorem biasTile0_eq (c : Dev nD) (t : Fin cfg0.N) :
    (iblk0 V c 3 t : Vec Ideal S1x128 .f32) = (V c main_v32 : S1x128.Idx → EReal) := by
  obtain ⟨-, -, -, -, -, -, e0, e1, -⟩ := blockIndex0 t
  funext j
  unfold iblk0
  rw [View.read_apply]
  show V c main_v32 _ = V c main_v32 j
  congr 1
  funext a
  apply Fin.ext
  match a with
  | ⟨0, _⟩ => show win0_3.index t 0 * 1 + 1 * (j 0).val = (j 0).val; rw [e0]; omega
  | ⟨1, _⟩ => show win0_3.index t 1 * 128 + 1 * (j 1).val = (j 1).val; rw [e1]; omega

/-- The right weights' block is the whole matrix at every point. -/
theorem wrTile0_eq (c : Dev nD) (t : Fin cfg0.N) :
    (iblk0 V c 4 t : Vec Ideal S128x128 .f32) = (V c main_v36 : S128x128.Idx → EReal) := by
  obtain ⟨-, -, -, -, -, -, -, -, e0, e1, -⟩ := blockIndex0 t
  funext j
  unfold iblk0
  rw [View.read_apply]
  show V c main_v36 _ = V c main_v36 j
  congr 1
  funext a
  apply Fin.ext
  match a with
  | ⟨0, _⟩ => show win0_4.index t 0 * 128 + 1 * (j 0).val = (j 0).val; rw [e0]; omega
  | ⟨1, _⟩ => show win0_4.index t 1 * 128 + 1 * (j 1).val = (j 1).val; rw [e1]; omega

/-- The layer's output array: every row from that row of the neighbour sums, the features and the reciprocal degrees. -/
abbrev layer0 (c : Dev nD) : Mat 100000 128 :=
  layerArr (V c main_v29) (V c main_arg0) (V c main_v12) (V c main_v34) (V c main_v36) (V c main_v32)

/-- The body's payload on tiles that are rows r … of three arrays, at row p of the tile, is the layer's output at row r
    of the arrays, when row p of each tile is row r of its array. -/
theorem payload0_row (a x : Vec Ideal S5000x128 .f32) (inv : Vec Ideal S5000x1 .f32) (wl wr : Vec Ideal S128x128 .f32)
    (b : Vec Ideal S1x128 .f32) (A X : Mat 100000 128) (I : Mat 100000 1) (p : Fin 5000) (q : Fin 128) (r : Fin 100000)
    (ha : ∀ k : Fin 128, a (ix2 p k) = A (ix2 r k)) (hx : ∀ k : Fin 128, x (ix2 p k) = X (ix2 r k))
    (hi : inv (ix2 p 0) = I (ix2 r 0)) :
    k0_pay1 (F := Ideal) a inv x wl wr b (ix2 p q) = layerArr A X I wl wr b (ix2 r q) := by
  rw [k0_pay1_apply]
  exact rowOut_congr a x inv A X I wl wr b p r ha hx hi q

/-- What point t writes back is tile t of the layer's output array. -/
theorem layerTile0 (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero zero_off]
  simp only [View.ld_unit_zero (S := S5000x128) zero_off, View.ld_unit_zero (S := S5000x1) zero_off,
    View.ld_unit_zero (S := S128x128) zero_off, View.ld_unit_zero (S := S1x128) zero_off]
  rw [wlTile0_eq, biasTile0_eq, wrTile0_eq]
  obtain ⟨-, -, -, -, -, -, -, -, -, -, -, -, e0, e1⟩ := blockIndex0 t
  have ht := point_lt0 t
  funext y
  obtain ⟨p, q, rfl⟩ : ∃ (p : Fin 5000) (q : Fin 128), y = ix2 p q := ⟨y 0, y 1, eq_ix2 y⟩
  have hp : p.val < 5000 := p.isLt
  show k0_pay1 (F := Ideal) (iblk0 V c 0 t) (iblk0 V c 5 t) (iblk0 V c 1 t) (V c main_v34) (V c main_v36) (V c main_v32) (ix2 p q)
    = layer0 V c (((cfg0.win 6).blk t).view.emb (ix2 p q))
  have hemb : ((cfg0.win 6).blk t).view.emb (ix2 p q)
      = (ix2 (⟨5000 * t.val + p.val, by omega⟩ : Fin 100000) q : S100000x128.Idx) := by
    funext a
    apply Fin.ext
    match a with
    | ⟨0, _⟩ => show win0_6.index t 0 * 5000 + 1 * p.val = 5000 * t.val + p.val; rw [e0]; omega
    | ⟨1, _⟩ => show win0_6.index t 1 * 128 + 1 * q.val = q.val; rw [e1]; omega
  refine Eq.trans ?_ (congrArg (layer0 V c) hemb.symm)
  exact payload0_row (iblk0 V c 0 t) (iblk0 V c 1 t) (iblk0 V c 5 t) (V c main_v34) (V c main_v36) (V c main_v32)
    (V c main_v29) (V c main_arg0) (V c main_v12) p q ⟨5000 * t.val + p.val, by omega⟩
    (fun k => aggTile0_apply V c t p k _ rfl rfl) (fun k => featTile0_apply V c t p k _ rfl rfl)
    (invTile0_apply V c t p _ rfl)

/-- An index of the output array is in point t's tile iff each coordinate is in the tile's range on its axis. -/
theorem mem_outTile0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v37).slice (win0_6.rect t)).set ↔ _
  rw [View.set_slice_whole, Rect.mem_set_unit]
  exact Iff.rfl

/-- The twenty tiles cover the output array: row r is in tile r / 5000. -/
theorem outTiles0_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, -, -, -, -, -, -, -, -, e0, e1⟩ := blockIndex0 t
  refine ⟨t, flush0_6 t, ?_⟩
  rw [mem_outTile0]
  intro a
  match a with
  | ⟨0, _⟩ =>
    show win0_6.index t 0 * 5000 ≤ (i 0).val ∧ (i 0).val < win0_6.index t 0 * 5000 + 5000
    rw [e0, ht]; omega
  | ⟨1, _⟩ =>
    show win0_6.index t 1 * 128 ≤ (i 1).val ∧ (i 1).val < win0_6.index t 1 * 128 + 128
    rw [e1]; omega

/-- After the twenty write-backs the output array holds the layer's output, row by row. -/
theorem arrAt0_6 (c : Dev nD) : ((dat0 V c).arrAt 6 cfg0.N : Mat 100000 128)
    = layerArr (V c main_v29) (V c main_arg0) (V c main_v12) (V c main_v34) (V c main_v36) (V c main_v32) :=
  (dat0 V c).arrAt_eq_of_cover 6 (layer0 V c) (fun t _ => layerTile0 V c t) outTiles0_cover

/-! ## Layer two (pipeline 1): tile t is rows 5000 t … 5000 t + 4999 -/

/-- The printed index maps over the twenty grid points: the row-tiled windows (neighbour sums, features, reciprocal
    degrees, output) are at block (t, 0) at point t, the weights and the bias row at block (0, 0) throughout. -/
theorem blockIndex1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- There are twenty points. -/
theorem point_lt1 (t : Fin cfg1.N) : t.val < 20 := by
  have h : t.val < grid1.N := t.isLt
  rwa [N_1] at h

/-- Row p of the neighbour sums' tile at point t is row 5000 t + p of the array. -/
theorem aggTile1_apply (c : Dev nD) (t : Fin cfg1.N) (p : Fin 5000) (k : Fin 128) (i : S100000x128.Idx)
    (h0 : (i 0).val = 5000 * t.val + p.val) (h1 : (i 1).val = k.val) :
    (iblk1 V c 0 t : Vec Ideal S5000x128 .f32) (ix2 p k) = (V c main_v47 : S100000x128.Idx → EReal) i := by
  obtain ⟨e0, e1, -⟩ := blockIndex1 t
  unfold iblk1
  rw [View.read_apply]
  show V c main_v47 _ = V c main_v47 _
  congr 1
  funext a
  apply Fin.ext
  match a with
  | ⟨0, _⟩ => show win1_0.index t 0 * 5000 + 1 * p.val = (i 0).val; rw [e0, h0]; omega
  | ⟨1, _⟩ => show win1_0.index t 1 * 128 + 1 * k.val = (i 1).val; rw [e1, h1]; omega

/-- Row p of the features' tile at point t is row 5000 t + p of the array. -/
theorem featTile1_apply (c : Dev nD) (t : Fin cfg1.N) (p : Fin 5000) (k : Fin 128) (i : S100000x128.Idx)
    (h0 : (i 0).val = 5000 * t.val + p.val) (h1 : (i 1).val = k.val) :
    (iblk1 V c 1 t : Vec Ideal S5000x128 .f32) (ix2 p k) = (V c main_v37 : S100000x128.Idx → EReal) i := by
  obtain ⟨-, -, e0, e1, -⟩ := blockIndex1 t
  unfold iblk1
  rw [View.read_apply]
  show V c main_v37 _ = V c main_v37 _
  congr 1
  funext a
  apply Fin.ext
  match a with
  | ⟨0, _⟩ => show win1_1.index t 0 * 5000 + 1 * p.val = (i 0).val; rw [e0, h0]; omega
  | ⟨1, _⟩ => show win1_1.index t 1 * 128 + 1 * k.val = (i 1).val; rw [e1, h1]; omega

/-- Entry p of the reciprocal degrees' tile at point t is entry 5000 t + p of the column. -/
theorem invTile1_apply (c : Dev nD) (t : Fin cfg1.N) (p : Fin 5000) (i : S100000x1.Idx)
    (h0 : (i 0).val = 5000 * t.val + p.val) :
    (iblk1 V c 5 t : Vec Ideal S5000x1 .f32) (ix2 p 0) = (V c main_v12 : S100000x1.Idx → EReal) i := by
  obtain ⟨-, -, -, -, -, -, -, -, -, -, e0, e1, -⟩ := blockIndex1 t
  have h1 : (i 1).val < 1 := (i 1).isLt
  unfold iblk1
  rw [View.read_apply]
  show V c main_v12 _ = V c main_v12 _
  congr 1
  funext a
  apply Fin.ext
  match a with
  | ⟨0, _⟩ => show win1_5.index t 0 * 5000 + 1 * p.val = (i 0).val; rw [e0, h0]; omega
  | ⟨1, _⟩ => show win1_5.index t 1 * 1 + 1 * 0 = (i 1).val; rw [e1]; omega

/-- The left weights' block is the whole matrix at every point. -/
theorem wlTile1_eq (c : Dev nD) (t : Fin cfg1.N) :
    (iblk1 V c 2 t : Vec Ideal S128x128 .f32) = (V c main_v52 : S128x128.Idx → EReal) := by
  obtain ⟨-, -, -, -, e0, e1, -⟩ := blockIndex1 t
  funext j
  have hj0 : (j 0).val < 128 := (j 0).isLt
  have hj1 : (j 1).val < 128 := (j 1).isLt
  unfold iblk1
  rw [View.read_apply]
  show V c main_v52 _ = V c main_v52 j
  congr 1
  funext a
  apply Fin.ext
  match a with
  | ⟨0, _⟩ => show win1_2.index t 0 * 128 + 1 * (j 0).val = (j 0).val; rw [e0]; omega
  | ⟨1, _⟩ => show win1_2.index t 1 * 128 + 1 * (j 1).val = (j 1).val; rw [e1]; omega

/-- The bias row's block is the whole row at every point. -/
theorem biasTile1_eq (c : Dev nD) (t : Fin cfg1.N) :
    (iblk1 V c 3 t : Vec Ideal S1x128 .f32) = (V c main_v50 : S1x128.Idx → EReal) := by
  obtain ⟨-, -, -, -, -, -, e0, e1, -⟩ := blockIndex1 t
  funext j
  unfold iblk1
  rw [View.read_apply]
  show V c main_v50 _ = V c main_v50 j
  congr 1
  funext a
  apply Fin.ext
  match a with
  | ⟨0, _⟩ => show win1_3.index t 0 * 1 + 1 * (j 0).val = (j 0).val; rw [e0]; omega
  | ⟨1, _⟩ => show win1_3.index t 1 * 128 + 1 * (j 1).val = (j 1).val; rw [e1]; omega

/-- The right weights' block is the whole matrix at every point. -/
theorem wrTile1_eq (c : Dev nD) (t : Fin cfg1.N) :
    (iblk1 V c 4 t : Vec Ideal S128x128 .f32) = (V c main_v54 : S128x128.Idx → EReal) := by
  obtain ⟨-, -, -, -, -, -, -, -, e0, e1, -⟩ := blockIndex1 t
  funext j
  unfold iblk1
  rw [View.read_apply]
  show V c main_v54 _ = V c main_v54 j
  congr 1
  funext a
  apply Fin.ext
  match a with
  | ⟨0, _⟩ => show win1_4.index t 0 * 128 + 1 * (j 0).val = (j 0).val; rw [e0]; omega
  | ⟨1, _⟩ => show win1_4.index t 1 * 128 + 1 * (j 1).val = (j 1).val; rw [e1]; omega

/-- The layer's output array: every row from that row of the neighbour sums, the features and the reciprocal degrees. -/
abbrev layer1 (c : Dev nD) : Mat 100000 128 :=
  layerArr (V c main_v47) (V c main_v37) (V c main_v12) (V c main_v52) (V c main_v54) (V c main_v50)

/-- The body's payload on tiles that are rows r … of three arrays, at row p of the tile, is the layer's output at row r
    of the arrays, when row p of each tile is row r of its array. -/
theorem payload1_row (a x : Vec Ideal S5000x128 .f32) (inv : Vec Ideal S5000x1 .f32) (wl wr : Vec Ideal S128x128 .f32)
    (b : Vec Ideal S1x128 .f32) (A X : Mat 100000 128) (I : Mat 100000 1) (p : Fin 5000) (q : Fin 128) (r : Fin 100000)
    (ha : ∀ k : Fin 128, a (ix2 p k) = A (ix2 r k)) (hx : ∀ k : Fin 128, x (ix2 p k) = X (ix2 r k))
    (hi : inv (ix2 p 0) = I (ix2 r 0)) :
    k1_pay1 (F := Ideal) a inv x wl wr b (ix2 p q) = layerArr A X I wl wr b (ix2 r q) := by
  rw [k1_pay1_apply]
  exact rowOut_congr a x inv A X I wl wr b p r ha hx hi q

/-- What point t writes back is tile t of the layer's output array. -/
theorem layerTile1 (c : Dev nD) (t : Fin cfg1.N) :
    (dat1 V c).flushed 6 t = ((cfg1.win 6).blk t).view.read (Elt Ideal) (layer1 V c) := by
  show (cfg1.win 6).cut (grid1.coords t) ((dat1 V c).after 6 t) = _
  rw [after1_6]
  unfold out1_6
  rw [View.canon_unit_zero zero_off]
  simp only [View.ld_unit_zero (S := S5000x128) zero_off, View.ld_unit_zero (S := S5000x1) zero_off,
    View.ld_unit_zero (S := S128x128) zero_off, View.ld_unit_zero (S := S1x128) zero_off]
  rw [wlTile1_eq, biasTile1_eq, wrTile1_eq]
  obtain ⟨-, -, -, -, -, -, -, -, -, -, -, -, e0, e1⟩ := blockIndex1 t
  have ht := point_lt1 t
  funext y
  obtain ⟨p, q, rfl⟩ : ∃ (p : Fin 5000) (q : Fin 128), y = ix2 p q := ⟨y 0, y 1, eq_ix2 y⟩
  have hp : p.val < 5000 := p.isLt
  show k1_pay1 (F := Ideal) (iblk1 V c 0 t) (iblk1 V c 5 t) (iblk1 V c 1 t) (V c main_v52) (V c main_v54) (V c main_v50) (ix2 p q)
    = layer1 V c (((cfg1.win 6).blk t).view.emb (ix2 p q))
  have hemb : ((cfg1.win 6).blk t).view.emb (ix2 p q)
      = (ix2 (⟨5000 * t.val + p.val, by omega⟩ : Fin 100000) q : S100000x128.Idx) := by
    funext a
    apply Fin.ext
    match a with
    | ⟨0, _⟩ => show win1_6.index t 0 * 5000 + 1 * p.val = 5000 * t.val + p.val; rw [e0]; omega
    | ⟨1, _⟩ => show win1_6.index t 1 * 128 + 1 * q.val = q.val; rw [e1]; omega
  refine Eq.trans ?_ (congrArg (layer1 V c) hemb.symm)
  exact payload1_row (iblk1 V c 0 t) (iblk1 V c 1 t) (iblk1 V c 5 t) (V c main_v52) (V c main_v54) (V c main_v50)
    (V c main_v47) (V c main_v37) (V c main_v12) p q ⟨5000 * t.val + p.val, by omega⟩
    (fun k => aggTile1_apply V c t p k _ rfl rfl) (fun k => featTile1_apply V c t p k _ rfl rfl)
    (invTile1_apply V c t p _ rfl)

/-- An index of the output array is in point t's tile iff each coordinate is in the tile's range on its axis. -/
theorem mem_outTile1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v55).slice (win1_6.rect t)).set ↔ _
  rw [View.set_slice_whole, Rect.mem_set_unit]
  exact Iff.rfl

/-- The twenty tiles cover the output array: row r is in tile r / 5000. -/
theorem outTiles1_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, -, -, -, -, e0, e1⟩ := blockIndex1 t
  refine ⟨t, flush1_6 t, ?_⟩
  rw [mem_outTile1]
  intro a
  match a with
  | ⟨0, _⟩ =>
    show win1_6.index t 0 * 5000 ≤ (i 0).val ∧ (i 0).val < win1_6.index t 0 * 5000 + 5000
    rw [e0, ht]; omega
  | ⟨1, _⟩ =>
    show win1_6.index t 1 * 128 ≤ (i 1).val ∧ (i 1).val < win1_6.index t 1 * 128 + 128
    rw [e1]; omega

/-- After the twenty write-backs the output array holds the layer's output, row by row. -/
theorem arrAt1_6 (c : Dev nD) : ((dat1 V c).arrAt 6 cfg1.N : Mat 100000 128)
    = layerArr (V c main_v47) (V c main_v37) (V c main_v12) (V c main_v52) (V c main_v54) (V c main_v50) :=
  (dat1 V c).arrAt_eq_of_cover 6 (layer1 V c) (fun t _ => layerTile1 V c t) outTiles1_cover

end Cert.KernelIdeal.Val

end
-- ==== Proof.Pool2.lean ====
/-
  What the program's third kernel call leaves in its output array: for every graph, the sum of the activated rows of the graph's nodes
  divided by the number of its nodes clamped below by one, projected by the output weights and shifted by the output bias.

  The call walks the 100000 nodes in twenty tiles of 5000 rows. At each tile it adds to a 64 × 128 table the one-hot
  tile's transpose times the tile's activated rows, and to a 1 × 64 row the one-hot tile's column sums; both start from
  zero at the first tile. A layer's row depends on that row alone of the neighbour sums, of the features and of the
  reciprocal degrees, so a tile's activated row `p` is the whole array's activated row `5000 t + p`; the twenty partial
  sums over 5000 rows add up to the sums over all 100000 rows (addition of extended reals is commutative and associative,
  nothing more is used). At the last tile the table is divided row by row by the clamped counts, projected and shifted,
  and stored into the 64 × 1 block, which is the whole output array and is written back at that point only.
-/
import proofs.«412677_j67808943669808_2_alg».proof.Proof.Reg2
import proofs.«412677_j67808943669808_2_alg».proof.Proof.KPay
import proofs.«412677_j67808943669808_2_alg».proof.Proof.Spec
import Idealize.ShloMosaic.Lib.Pipeline.Value
import Idealize.ShloMosaic.Lib.ValueIdx
import Mathlib.Algebra.BigOperators.Fin
import Mathlib.Logic.Equiv.Fin.Basic

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Frm Cert.Spec

/-! ## Twenty tiles of 5000 rows -/

/-- Row `p` of tile `t` is row `5000 t + p` of the whole array. -/
abbrev tileRow (t : Fin 20) (p : Fin 5000) : Fin 100000 :=
  ⟨5000 * t.val + p.val, by have := t.isLt; have := p.isLt; omega⟩

/-- A sum over the tiles of the sums over a tile's rows is the sum over all rows. -/
theorem sum_tiles {M : Type*} [AddCommMonoid M] (f : Fin 100000 → M) :
    ∑ t : Fin 20, ∑ p : Fin 5000, f (tileRow t p) = ∑ r : Fin 100000, f r := by
  rw [← Fintype.sum_prod_type' (f := fun t p => f (tileRow t p))]
  refine Fintype.sum_equiv ((finProdFinEquiv (m := 20) (n := 5000)).trans (finCongr (by norm_num))) _ _ (fun x => ?_)
  congr 1
  apply Fin.ext
  simp [finProdFinEquiv, tileRow]
  omega

/-- A layer's row reads only that row of the neighbour sums, of the features and of the reciprocal degrees: two triples
    of arrays that agree on one row each give the same row. -/
theorem rowOut_congr_tile {R R' : Nat} (agg x : Mat R 128) (inv : Mat R 1) (agg' x' : Mat R' 128) (inv' : Mat R' 1)
    (wl wr : Mat 128 128) (b : Mat 1 128) (r : Fin R) (r' : Fin R')
    (ha : ∀ k : Fin 128, agg (ix2 r k) = agg' (ix2 r' k)) (hx : ∀ k : Fin 128, x (ix2 r k) = x' (ix2 r' k))
    (hi : inv (ix2 r 0) = inv' (ix2 r' 0)) (d : Fin 128) :
    rowOut agg x inv wl wr b r d = rowOut agg' x' inv' wl wr b r' d := by
  unfold rowOut preAct
  simp only [ha, hx, hi]

/-! ## The blocks of the twenty points, and the arrays they are blocks of -/

-- the TensorCore's buffer contents when the region is entered
variable (V : (c : Dev nD) → (b : Ref sig .tc) → Buf (Elt Ideal) ((c : Thread nD τ).loc b))

theorem N2 : cfg2.N = 20 := N_2

/-- The arrays the region is entered with, at their literal types: the neighbour sums, the features, the layer's two
    weight matrices and bias row, the reciprocal degrees, the one-hot table, the output weights and the output bias. -/
abbrev aggArr (c : Dev nD) : Vec Ideal S100000x128 .f32 := V c main_v65
abbrev xArr (c : Dev nD) : Vec Ideal S100000x128 .f32 := V c main_v55
abbrev wlArr (c : Dev nD) : Vec Ideal S128x128 .f32 := V c main_v71
abbrev bArr (c : Dev nD) : Vec Ideal S1x128 .f32 := V c main_v68
abbrev wrArr (c : Dev nD) : Vec Ideal S128x128 .f32 := V c main_v73
abbrev invArr (c : Dev nD) : Vec Ideal S100000x1 .f32 := V c main_v12
abbrev ohArr (c : Dev nD) : Vec Ideal S100000x64 .bf16 := V c main_v19
abbrev woArr (c : Dev nD) : Vec Ideal S128x1 .f32 := V c main_arg6
abbrev boArr (c : Dev nD) : Vec Ideal S1x1 .f32 := V c main_v69

/-- Their blocks at point `t`, at their literal types. -/
abbrev aggBlk (c : Dev nD) (t : Fin cfg2.N) : Vec Ideal S5000x128 .f32 := iblk2 V c 0 t
abbrev xBlk (c : Dev nD) (t : Fin cfg2.N) : Vec Ideal S5000x128 .f32 := iblk2 V c 1 t
abbrev wlBlk (c : Dev nD) (t : Fin cfg2.N) : Vec Ideal S128x128 .f32 := iblk2 V c 2 t
abbrev bBlk (c : Dev nD) (t : Fin cfg2.N) : Vec Ideal S1x128 .f32 := iblk2 V c 3 t
abbrev wrBlk (c : Dev nD) (t : Fin cfg2.N) : Vec Ideal S128x128 .f32 := iblk2 V c 4 t
abbrev invBlk (c : Dev nD) (t : Fin cfg2.N) : Vec Ideal S5000x1 .f32 := iblk2 V c 5 t
abbrev ohBlk (c : Dev nD) (t : Fin cfg2.N) : Vec Ideal S5000x64 .bf16 := iblk2 V c 6 t
abbrev woBlk (c : Dev nD) (t : Fin cfg2.N) : Vec Ideal S128x1 .f32 := iblk2 V c 7 t
abbrev boBlk (c : Dev nD) (t : Fin cfg2.N) : Vec Ideal S1x1 .f32 := iblk2 V c 8 t

/-- The block index of the four tiled windows at point `t` is (`t`, 0) — decided over the grid. -/
theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = t.val ∧ win2_1.index t 1 = 0 :=
  (by decide +kernel : ∀ t : Fin grid2.N, win2_1.index t 0 = t.val ∧ win2_1.index t 1 = 0)
theorem idx2_5 : ∀ t : Fin cfg2.N, win2_5.index t 0 = t.val ∧ win2_5.index t 1 = 0 :=
  (by decide +kernel : ∀ t : Fin grid2.N, win2_5.index t 0 = t.val ∧ win2_5.index t 1 = 0)
theorem idx2_6 : ∀ t : Fin cfg2.N, win2_6.index t 0 = t.val ∧ win2_6.index t 1 = 0 :=
  (by decide +kernel : ∀ t : Fin grid2.N, win2_6.index t 0 = t.val ∧ win2_6.index t 1 = 0)
/-- The block index of the six whole-array windows is (0, 0) at every point — decided over the grid. -/
theorem idx2_2 : ∀ t : Fin cfg2.N, win2_2.index t 0 = 0 ∧ win2_2.index t 1 = 0 :=
  (by decide +kernel : ∀ t : Fin grid2.N, win2_2.index t 0 = 0 ∧ win2_2.index t 1 = 0)
theorem idx2_3 : ∀ t : Fin cfg2.N, win2_3.index t 0 = 0 ∧ win2_3.index t 1 = 0 :=
  (by decide +kernel : ∀ t : Fin grid2.N, win2_3.index t 0 = 0 ∧ win2_3.index t 1 = 0)
theorem idx2_4 : ∀ t : Fin cfg2.N, win2_4.index t 0 = 0 ∧ win2_4.index t 1 = 0 :=
  (by decide +kernel : ∀ t : Fin grid2.N, win2_4.index t 0 = 0 ∧ win2_4.index t 1 = 0)
theorem idx2_7 : ∀ t : Fin cfg2.N, win2_7.index t 0 = 0 ∧ win2_7.index t 1 = 0 :=
  (by decide +kernel : ∀ t : Fin grid2.N, win2_7.index t 0 = 0 ∧ win2_7.index t 1 = 0)
theorem idx2_8 : ∀ t : Fin cfg2.N, win2_8.index t 0 = 0 ∧ win2_8.index t 1 = 0 :=
  (by decide +kernel : ∀ t : Fin grid2.N, win2_8.index t 0 = 0 ∧ win2_8.index t 1 = 0)
theorem idx2_9 : ∀ t : Fin cfg2.N, win2_9.index t 0 = 0 ∧ win2_9.index t 1 = 0 :=
  (by decide +kernel : ∀ t : Fin grid2.N, win2_9.index t 0 = 0 ∧ win2_9.index t 1 = 0)

/-- Entry (`p`, `k`) of the neighbour-sum block at point `t` is entry (`5000 t + p`, `k`) of the array. -/
theorem aggBlk_apply (c : Dev nD) (t : Fin cfg2.N) (p : Fin 5000) (k : Fin 128) :
    aggBlk V c t (ix2 p k) = aggArr V c (ix2 (tileRow (t.cast N2) p) k) := by
  unfold aggBlk aggArr iblk2
  rw [View.read_apply]
  show V c main_v65 (((cfg2.win 0).blk t).view.emb (ix2 p k)) = V c main_v65 _
  congr 1
  funext a
  apply Fin.ext
  match a with
  | ⟨0, _⟩ => show win2_0.index t 0 * 5000 + 1 * p.val = 5000 * t.val + p.val; rw [(idx2_0 t).1]; omega
  | ⟨1, _⟩ => show win2_0.index t 1 * 128 + 1 * k.val = k.val; rw [(idx2_0 t).2]; omega

/-- The feature block likewise. -/
theorem xBlk_apply (c : Dev nD) (t : Fin cfg2.N) (p : Fin 5000) (k : Fin 128) :
    xBlk V c t (ix2 p k) = xArr V c (ix2 (tileRow (t.cast N2) p) k) := by
  unfold xBlk xArr iblk2
  rw [View.read_apply]
  show V c main_v55 (((cfg2.win 1).blk t).view.emb (ix2 p k)) = V c main_v55 _
  congr 1
  funext a
  apply Fin.ext
  match a with
  | ⟨0, _⟩ => show win2_1.index t 0 * 5000 + 1 * p.val = 5000 * t.val + p.val; rw [(idx2_1 t).1]; omega
  | ⟨1, _⟩ => show win2_1.index t 1 * 128 + 1 * k.val = k.val; rw [(idx2_1 t).2]; omega

/-- The reciprocal-degree block: a column. -/
theorem invBlk_apply (c : Dev nD) (t : Fin cfg2.N) (p : Fin 5000) (z : Fin 1) :
    invBlk V c t (ix2 p z) = invArr V c (ix2 (tileRow (t.cast N2) p) z) := by
  unfold invBlk invArr iblk2
  rw [View.read_apply]
  show V c main_v12 (((cfg2.win 5).blk t).view.emb (ix2 p z)) = V c main_v12 _
  congr 1
  funext a
  apply Fin.ext
  match a with
  | ⟨0, _⟩ => show win2_5.index t 0 * 5000 + 1 * p.val = 5000 * t.val + p.val; rw [(idx2_5 t).1]; omega
  | ⟨1, _⟩ => show win2_5.index t 1 * 1 + 1 * z.val = z.val; rw [(idx2_5 t).2]; omega

/-- The one-hot block: 64 columns. -/
theorem ohBlk_apply (c : Dev nD) (t : Fin cfg2.N) (p : Fin 5000) (g : Fin 64) :
    ohBlk V c t (ix2 p g) = ohArr V c (ix2 (tileRow (t.cast N2) p) g) := by
  unfold ohBlk ohArr iblk2
  rw [View.read_apply]
  show V c main_v19 (((cfg2.win 6).blk t).view.emb (ix2 p g)) = V c main_v19 _
  congr 1
  funext a
  apply Fin.ext
  match a with
  | ⟨0, _⟩ => show win2_6.index t 0 * 5000 + 1 * p.val = 5000 * t.val + p.val; rw [(idx2_6 t).1]; omega
  | ⟨1, _⟩ => show win2_6.index t 1 * 64 + 1 * g.val = g.val; rw [(idx2_6 t).2]; omega

/-- The weights' and biases' blocks are their whole arrays at every point. -/
theorem wlBlk_eq (c : Dev nD) (t : Fin cfg2.N) : wlBlk V c t = wlArr V c := by
  funext j
  unfold wlBlk wlArr iblk2
  rw [View.read_apply]
  show V c main_v71 (((cfg2.win 2).blk t).view.emb j) = V c main_v71 j
  congr 1
  funext a
  apply Fin.ext
  match a with
  | ⟨0, _⟩ => show win2_2.index t 0 * 128 + 1 * (j 0).val = (j 0).val; rw [(idx2_2 t).1]; omega
  | ⟨1, _⟩ => show win2_2.index t 1 * 128 + 1 * (j 1).val = (j 1).val; rw [(idx2_2 t).2]; omega

theorem bBlk_eq (c : Dev nD) (t : Fin cfg2.N) : bBlk V c t = bArr V c := by
  funext j
  unfold bBlk bArr iblk2
  rw [View.read_apply]
  show V c main_v68 (((cfg2.win 3).blk t).view.emb j) = V c main_v68 j
  congr 1
  funext a
  apply Fin.ext
  match a with
  | ⟨0, _⟩ => show win2_3.index t 0 * 1 + 1 * (j 0).val = (j 0).val; rw [(idx2_3 t).1]; omega
  | ⟨1, _⟩ => show win2_3.index t 1 * 128 + 1 * (j 1).val = (j 1).val; rw [(idx2_3 t).2]; omega

theorem wrBlk_eq (c : Dev nD) (t : Fin cfg2.N) : wrBlk V c t = wrArr V c := by
  funext j
  unfold wrBlk wrArr iblk2
  rw [View.read_apply]
  show V c main_v73 (((cfg2.win 4).blk t).view.emb j) = V c main_v73 j
  congr 1
  funext a
  apply Fin.ext
  match a with
  | ⟨0, _⟩ => show win2_4.index t 0 * 128 + 1 * (j 0).val = (j 0).val; rw [(idx2_4 t).1]; omega
  | ⟨1, _⟩ => show win2_4.index t 1 * 128 + 1 * (j 1).val = (j 1).val; rw [(idx2_4 t).2]; omega

theorem woBlk_eq (c : Dev nD) (t : Fin cfg2.N) : woBlk V c t = woArr V c := by
  funext j
  unfold woBlk woArr iblk2
  rw [View.read_apply]
  show V c main_arg6 (((cfg2.win 7).blk t).view.emb j) = V c main_arg6 j
  congr 1
  funext a
  apply Fin.ext
  match a with
  | ⟨0, _⟩ => show win2_7.index t 0 * 128 + 1 * (j 0).val = (j 0).val; rw [(idx2_7 t).1]; omega
  | ⟨1, _⟩ => show win2_7.index t 1 * 1 + 1 * (j 1).val = (j 1).val; rw [(idx2_7 t).2]; omega

theorem boBlk_eq (c : Dev nD) (t : Fin cfg2.N) : boBlk V c t = boArr V c := by
  funext j
  unfold boBlk boArr iblk2
  rw [View.read_apply]
  show V c main_v69 (((cfg2.win 8).blk t).view.emb j) = V c main_v69 j
  congr 1
  funext a
  apply Fin.ext
  match a with
  | ⟨0, _⟩ => show win2_8.index t 0 * 1 + 1 * (j 0).val = (j 0).val; rw [(idx2_8 t).1]; omega
  | ⟨1, _⟩ => show win2_8.index t 1 * 1 + 1 * (j 1).val = (j 1).val; rw [(idx2_8 t).2]; omega

/-! ## One tile's contribution, in the whole arrays' rows -/

/-- The last layer's activated rows, all 100000 of them. -/
abbrev actArr (c : Dev nD) : Mat 100000 128 :=
  layerArr (aggArr V c) (xArr V c) (invArr V c) (wlArr V c) (wrArr V c) (bArr V c)

/-- What point `t` adds to the table of sums at graph `g`, feature `d`: the one-hot-weighted sum of its tile's activated rows. -/
def tileSum (c : Dev nD) (t : Fin cfg2.N) (g : Fin 64) (d : Fin 128) : EReal :=
  poolSum (R := 5000) (layerArr (aggBlk V c t) (xBlk V c t) (invBlk V c t) (wlBlk V c t) (wrBlk V c t) (bBlk V c t)) (ohBlk V c t) g d

/-- What point `t` adds to the count of graph `g`: its one-hot tile's column sum. -/
def tileCnt (c : Dev nD) (t : Fin cfg2.N) (g : Fin 64) : EReal := poolCnt (R := 5000) (ohBlk V c t) g

/-- The tile's contribution to the sums is the whole arrays' contribution of rows `5000 t … 5000 t + 4999`. -/
theorem tileSum_eq (c : Dev nD) (t : Fin cfg2.N) (g : Fin 64) (d : Fin 128) :
    tileSum V c t g d
      = ∑ p : Fin 5000, ohArr V c (ix2 (tileRow (t.cast N2) p) g) * actArr V c (ix2 (tileRow (t.cast N2) p) d) := by
  unfold tileSum poolSum
  refine Finset.sum_congr rfl (fun p _ => ?_)
  refine congrArg₂ (· * ·) (ohBlk_apply V c t p g) ?_
  show rowOut (aggBlk V c t) (xBlk V c t) (invBlk V c t) (wlBlk V c t) (wrBlk V c t) (bBlk V c t) p d
    = rowOut (aggArr V c) (xArr V c) (invArr V c) (wlArr V c) (wrArr V c) (bArr V c) (tileRow (t.cast N2) p) d
  rw [wlBlk_eq V c t, wrBlk_eq V c t, bBlk_eq V c t]
  exact rowOut_congr_tile (aggBlk V c t) (xBlk V c t) (invBlk V c t) (aggArr V c) (xArr V c) (invArr V c) (wlArr V c) (wrArr V c) (bArr V c)
    p (tileRow (t.cast N2) p) (fun k => aggBlk_apply V c t p k) (fun k => xBlk_apply V c t p k) (invBlk_apply V c t p 0) d

/-- The tile's contribution to the counts likewise. -/
theorem tileCnt_eq (c : Dev nD) (t : Fin cfg2.N) (g : Fin 64) :
    tileCnt V c t g = ∑ p : Fin 5000, ohArr V c (ix2 (tileRow (t.cast N2) p) g) := by
  unfold tileCnt poolCnt
  exact Finset.sum_congr rfl (fun p _ => ohBlk_apply V c t p g)

/-! ## The running sums after each point -/

/-- One point's update of the table of sums, at an entry. -/
theorem accStep_fst (x0 x1 : Vec Ideal S5000x128 .f32) (x2 : Vec Ideal S128x128 .f32) (x3 : Vec Ideal S1x128 .f32)
    (x4 : Vec Ideal S128x128 .f32) (x5 : Vec Ideal S5000x1 .f32) (x6 : Vec Ideal S5000x64 .bf16)
    (s : Vec Ideal S64x128 .f32 × Vec Ideal S1x64 .f32) (g : Fin 64) (d : Fin 128) :
    (accStep x0 x1 x2 x3 x4 x5 x6 s).1 (ix2 g d)
      = s.1 (ix2 g d) + poolSum (R := 5000) (layerArr x0 x1 x5 x2 x4 x3) x6 g d := by
  show k2_pay1 (F := Ideal) (k2_pay7 (F := Ideal) x0 x5 x1 x2 x4 x3 x6) s.1 (ix2 g d) = _
  rw [k2_pay1_apply, k2_pay7_apply]

/-- One point's update of the row of counts, at an entry. -/
theorem accStep_snd (x0 x1 : Vec Ideal S5000x128 .f32) (x2 : Vec Ideal S128x128 .f32) (x3 : Vec Ideal S1x128 .f32)
    (x4 : Vec Ideal S128x128 .f32) (x5 : Vec Ideal S5000x1 .f32) (x6 : Vec Ideal S5000x64 .bf16)
    (s : Vec Ideal S64x128 .f32 × Vec Ideal S1x64 .f32) (g : Fin 64) :
    (accStep x0 x1 x2 x3 x4 x5 x6 s).2 (ix2 0 g) = s.2 (ix2 0 g) + poolCnt (R := 5000) x6 g := by
  show k2_pay2 (F := Ideal) (k2_pay6 (F := Ideal) x6) s.2 (ix2 0 g) = _
  rw [k2_pay6_eq, k2_pay2_apply]

/-- After point `n` the table holds the contributions of the tiles `0 … n` (the first point adds to zero). -/
theorem accAt2_fst (c : Dev nD) : ∀ (n : ℕ) (hn : n < cfg2.N) (g : Fin 64) (d : Fin 128),
    (accAt2 V c n hn).1 (ix2 g d)
      = ∑ t : Fin (n + 1), tileSum V c ⟨t.val, Nat.lt_of_lt_of_le t.isLt hn⟩ g d
  | 0, hn, g, d => by
    refine (accStep_fst (aggBlk V c ⟨0, hn⟩) (xBlk V c ⟨0, hn⟩) (wlBlk V c ⟨0, hn⟩) (bBlk V c ⟨0, hn⟩) (wrBlk V c ⟨0, hn⟩)
      (invBlk V c ⟨0, hn⟩) (ohBlk V c ⟨0, hn⟩) (accInit (F := Ideal)) g d).trans ?_
    rw [show (accInit (F := Ideal)).1 (ix2 g d) = 0 from k2_pay4_apply (ix2 g d), zero_add, Fin.sum_univ_one]
    rfl
  | n + 1, hn, g, d => by
    refine (accStep_fst (aggBlk V c ⟨n + 1, hn⟩) (xBlk V c ⟨n + 1, hn⟩) (wlBlk V c ⟨n + 1, hn⟩) (bBlk V c ⟨n + 1, hn⟩)
      (wrBlk V c ⟨n + 1, hn⟩) (invBlk V c ⟨n + 1, hn⟩) (ohBlk V c ⟨n + 1, hn⟩) (accAt2 V c n (Nat.lt_of_succ_lt hn)) g d).trans ?_
    rw [accAt2_fst c n (Nat.lt_of_succ_lt hn) g d]
    exact (Fin.sum_univ_castSucc (fun t : Fin (n + 1 + 1) => tileSum V c ⟨t.val, Nat.lt_of_lt_of_le t.isLt hn⟩ g d)).symm

/-- After point `n` the row holds the column sums of the one-hot tiles `0 … n`. -/
theorem accAt2_snd (c : Dev nD) : ∀ (n : ℕ) (hn : n < cfg2.N) (g : Fin 64),
    (accAt2 V c n hn).2 (ix2 0 g)
      = ∑ t : Fin (n + 1), tileCnt V c ⟨t.val, Nat.lt_of_lt_of_le t.isLt hn⟩ g
  | 0, hn, g => by
    refine (accStep_snd (aggBlk V c ⟨0, hn⟩) (xBlk V c ⟨0, hn⟩) (wlBlk V c ⟨0, hn⟩) (bBlk V c ⟨0, hn⟩) (wrBlk V c ⟨0, hn⟩)
      (invBlk V c ⟨0, hn⟩) (ohBlk V c ⟨0, hn⟩) (accInit (F := Ideal)) g).trans ?_
    rw [show (accInit (F := Ideal)).2 (ix2 0 g) = 0 from k2_pay5_apply (ix2 0 g), zero_add, Fin.sum_univ_one]
    rfl
  | n + 1, hn, g => by
    refine (accStep_snd (aggBlk V c ⟨n + 1, hn⟩) (xBlk V c ⟨n + 1, hn⟩) (wlBlk V c ⟨n + 1, hn⟩) (bBlk V c ⟨n + 1, hn⟩)
      (wrBlk V c ⟨n + 1, hn⟩) (invBlk V c ⟨n + 1, hn⟩) (ohBlk V c ⟨n + 1, hn⟩) (accAt2 V c n (Nat.lt_of_succ_lt hn)) g).trans ?_
    rw [accAt2_snd c n (Nat.lt_of_succ_lt hn) g]
    exact (Fin.sum_univ_castSucc (fun t : Fin (n + 1 + 1) => tileCnt V c ⟨t.val, Nat.lt_of_lt_of_le t.isLt hn⟩ g)).symm

/-! ## The finished sums are the sums over all rows; the last point's store -/

/-- The array the call is claimed to leave: the pooled, projected and shifted activated rows. -/
abbrev outArr (c : Dev nD) : Mat 64 1 := poolOut (actArr V c) (ohArr V c) (woArr V c) (boArr V c)

theorem lt19 : 19 < cfg2.N := by rw [N2]; decide

/-- The twenty tiles' contributions to the table add up to the sums over all 100000 rows. -/
theorem sum_tileSum (c : Dev nD) (h : 20 ≤ cfg2.N) (g : Fin 64) (d : Fin 128) :
    ∑ t : Fin 20, tileSum V c ⟨t.val, Nat.lt_of_lt_of_le t.isLt h⟩ g d = poolSum (actArr V c) (ohArr V c) g d := by
  show _ = ∑ r : Fin 100000, ohArr V c (ix2 r g) * actArr V c (ix2 r d)
  rw [← sum_tiles (fun r => ohArr V c (ix2 r g) * actArr V c (ix2 r d))]
  exact Finset.sum_congr rfl (fun t _ => tileSum_eq V c ⟨t.val, Nat.lt_of_lt_of_le t.isLt h⟩ g d)

/-- The twenty tiles' contributions to the counts add up to the column sums over all 100000 rows. -/
theorem sum_tileCnt (c : Dev nD) (h : 20 ≤ cfg2.N) (g : Fin 64) :
    ∑ t : Fin 20, tileCnt V c ⟨t.val, Nat.lt_of_lt_of_le t.isLt h⟩ g = poolCnt (ohArr V c) g := by
  show _ = ∑ r : Fin 100000, ohArr V c (ix2 r g)
  rw [← sum_tiles (fun r => ohArr V c (ix2 r g))]
  exact Finset.sum_congr rfl (fun t _ => tileCnt_eq V c ⟨t.val, Nat.lt_of_lt_of_le t.isLt h⟩ g)

/-- What the last point stores: the finished table divided by the clamped finished counts, projected and shifted, is
    the claimed array. -/
theorem finish_eq (c : Dev nD) (t : Fin cfg2.N) (ht : t.val = 19) :
    accFinish (accAt2 V c t.val t.isLt) (woBlk V c t) (boBlk V c t) = outArr V c := by
  obtain rfl : t = ⟨19, lt19⟩ := Fin.ext ht
  funext i
  obtain ⟨g, z, rfl⟩ : ∃ (g : Fin 64) (z : Fin 1), i = ix2 g z := ⟨i 0, i 1, eq_ix2 i⟩
  obtain rfl : z = 0 := Subsingleton.elim _ _
  have hs : ∀ k : Fin 128, (accAt2 V c 19 lt19).1 (ix2 g k) = poolSum (actArr V c) (ohArr V c) g k := fun k =>
    (accAt2_fst V c 19 lt19 g k).trans (sum_tileSum V c lt19 g k)
  have hc : (accAt2 V c 19 lt19).2 (ix2 0 g) = poolCnt (ohArr V c) g :=
    (accAt2_snd V c 19 lt19 g).trans (sum_tileCnt V c lt19 g)
  refine (k2_pay3_apply (accAt2 V c 19 lt19).2 (accAt2 V c 19 lt19).1 (woBlk V c ⟨19, lt19⟩) (boBlk V c ⟨19, lt19⟩) g).trans ?_
  rw [woBlk_eq V c ⟨19, lt19⟩, boBlk_eq V c ⟨19, lt19⟩, hc]
  simp only [hs]
  rfl

/-! ## The output array after the call -/

/-- The one write-back, at the last point, writes the claimed array: the output's block is the whole 64 × 1 array. -/
theorem flushed2_9 (c : Dev nD) (t : Fin cfg2.N) (hf : (cfg2.win 9).flush t = true) :
    (dat2 V c).flushed 9 t = ((cfg2.win 9).blk t).view.read (Elt Ideal) (outArr V c) := by
  have ht : t.val = 19 := by
    have h := (flush2_9 t).mp hf
    have hlt : t.val < 20 := lt_of_lt_of_eq t.isLt N2
    omega
  show (cfg2.win 9).cut (grid2.coords t) ((dat2 V c).after 9 t) = _
  rw [after2_9_last V c t ht, finish_eq V c t ht]
  have hz' : (fun a => win2_9.index t a * main_v74.ty.shape.size a) = fun _ => 0 := funext fun a => by
    match a with
    | ⟨0, _⟩ => show win2_9.index t 0 * 64 = 0; rw [(idx2_9 t).1]
    | ⟨1, _⟩ => show win2_9.index t 1 * 1 = 0; rw [(idx2_9 t).2]
  exact (Memref.read_access_unit_zero (Elt Ideal) main_v74 hz' (fun a => by rw [congrFun hz' a]; simp) (outArr V c)).symm

/-- Every entry of the output array lies in the last point's block. -/
theorem cover2_9 (c : Dev nD) (i : ((cfg2.win 9).arr.view.loc (c.tc : Thread nD τ)).2.ty.Idx) :
    ∃ t : Fin cfg2.N, (cfg2.win 9).flush t = true ∧ i ∈ ((cfg2.win 9).blk t).view.set :=
  ⟨⟨19, lt19⟩, (flush2_9 _).mpr rfl, by
    show i ∈ ((View.whole main_v74).slice (win2_9.rect ⟨19, lt19⟩)).set
    rw [View.set_slice_whole, Rect.mem_set_unit]
    intro a
    have h0 : (i 0 : Nat) < 64 := (i 0).isLt
    have h1 : (i 1 : Nat) < 1 := (i 1).isLt
    match a with
    | ⟨0, _⟩ =>
      show win2_9.index ⟨19, lt19⟩ 0 * win2_9.size 0 ≤ (i 0 : Nat)
        ∧ (i 0 : Nat) < win2_9.index ⟨19, lt19⟩ 0 * win2_9.size 0 + win2_9.xsize (grid2.coords ⟨19, lt19⟩) 0
      rw [(idx2_9 ⟨19, lt19⟩).1, show win2_9.xsize (grid2.coords ⟨19, lt19⟩) 0 = 64 from by decide +kernel]
      omega
    | ⟨1, _⟩ =>
      show win2_9.index ⟨19, lt19⟩ 1 * win2_9.size 1 ≤ (i 1 : Nat)
        ∧ (i 1 : Nat) < win2_9.index ⟨19, lt19⟩ 1 * win2_9.size 1 + win2_9.xsize (grid2.coords ⟨19, lt19⟩) 1
      rw [(idx2_9 ⟨19, lt19⟩).2, show win2_9.xsize (grid2.coords ⟨19, lt19⟩) 1 = 1 from by decide +kernel]
      omega⟩

/-- After the call the output array holds, for every graph, the mean (over the count clamped below by one) of the
    activated rows of the graph's nodes, projected by the output weights, plus the output bias. -/
theorem arrAt2_9 (c : Dev nD) : ((dat2 V c).arrAt 9 cfg2.N : Mat 64 1)
      = poolOut (layerArr (V c main_v65) (V c main_v55) (V c main_v12) (V c main_v71) (V c main_v73) (V c main_v68)) (V c main_v19) (V c main_arg6) (V c main_v69) :=
  (dat2 V c).arrAt_eq_of_cover 9 (outArr V c) (flushed2_9 V c) (cover2_9 c)

end Cert.KernelIdeal.Val

end
-- ==== Proof.KRes.lean ====
/-
  The kernel program's result as one expression of its arguments: three layers, each the row transform of
  `Cert.Spec.layerArr` applied to the neighbour sums (a gather along the edges' sources scatter-added at their
  destinations) of the layer before, then the pooling of `Cert.Spec.poolOut` by the one-hot table of the batch vector.
-/
import proofs.«412677_j67808943669808_2_alg».proof.Proof.RunVals
import proofs.«412677_j67808943669808_2_alg».proof.Proof.HostK
import proofs.«412677_j67808943669808_2_alg».proof.Proof.Blocks01
import proofs.«412677_j67808943669808_2_alg».proof.Proof.Pool2

set_option maxRecDepth 16384

noncomputable section

namespace Cert.KernelIdeal.Val

open Idealize.ShloMosaic Idealize.ShloMosaic.TcCoe Idealize.SL.Sem
open Cert.KernelIdeal Cert.KernelIdeal.Gen Cert.KernelIdeal.Frm Cert.Spec

section Res

variable (x0 : FVec Ideal S100000x128 .f32) (e : IVec S2x1600000 32) (b : IVec S100000 32) (a3 : FVec Ideal S3x128x128 .f32)
  (a4 : FVec Ideal S3x128 .f32) (a5 : FVec Ideal S3x128x128 .f32) (a6 : FVec Ideal S128x1 .f32) (a7 : FVec Ideal S1 .f32)

/-- The node features after the first layer. -/
def kX1 : Mat 100000 128 := layerArr (hAgg x0 e) x0 (hInv e) (hWl0 a3) (hWr0 a5) (hBl0 a4)
/-- After the second layer. -/
def kX2 : Mat 100000 128 := layerArr (hAgg (kX1 x0 e a3 a4 a5) e) (kX1 x0 e a3 a4 a5) (hInv e) (hWl1 a3) (hWr1 a5) (hBl1 a4)
/-- After the third layer (never stored by the kernel: it is pooled tile by tile). -/
def kX3 : Mat 100000 128 := layerArr (hAgg (kX2 x0 e a3 a4 a5) e) (kX2 x0 e a3 a4 a5) (hInv e) (hWl2 a3) (hWr2 a5) (hBl2 a4)
/-- The result: one number per graph. -/
def kRes : FVec Ideal S64 .f32 :=
  shapeCast S64 (poolOut (kX3 x0 e a3 a4 a5) (hOh b) a6 (hBo a7) : FVec Ideal S64x1 .f32) shapeCasts_S64x1_S64

end Res

variable (m : (ℓ : Loc nD τ sig) → Buf (Elt Ideal) ℓ) (ρ : Dev nD → PrngReg)

/-- @main's argument `k` on core `c`, as launched. -/
abbrev mA0 (c : Dev nD) := m ((c.tc : Thread nD τ).loc main_arg0)
abbrev mA1 (c : Dev nD) := m ((c.tc : Thread nD τ).loc main_arg1)
abbrev mA2 (c : Dev nD) := m ((c.tc : Thread nD τ).loc main_arg2)
abbrev mA3 (c : Dev nD) := m ((c.tc : Thread nD τ).loc main_arg3)
abbrev mA4 (c : Dev nD) := m ((c.tc : Thread nD τ).loc main_arg4)
abbrev mA5 (c : Dev nD) := m ((c.tc : Thread nD τ).loc main_arg5)
abbrev mA6 (c : Dev nD) := m ((c.tc : Thread nD τ).loc main_arg6)
abbrev mA7 (c : Dev nD) := m ((c.tc : Thread nD τ).loc main_arg7)

/-- What the first pallas_call leaves in its output array. -/
theorem outs2_eq (c : Dev nD) : (outs m 2 main_v37 c : Mat 100000 128) = kX1 (mA0 m c) (mA1 m c) (mA3 m c) (mA4 m c) (mA5 m c) := by
  rw [outs_2]
  refine (arrAt0_6 (fun c b => V1 m c b) c).trans ?_
  show layerArr (V1 m c main_v29) (V1 m c main_arg0) (V1 m c main_v12) (V1 m c main_v34) (V1 m c main_v36) (V1 m c main_v32) = _
  rw [V1_v29, V1_arg0, V1_v12, V1_v34, V1_v36, V1_v32]
  rfl

/-- What the second leaves. -/
theorem outs4_eq (c : Dev nD) : (outs m 4 main_v55 c : Mat 100000 128) = kX2 (mA0 m c) (mA1 m c) (mA3 m c) (mA4 m c) (mA5 m c) := by
  rw [outs_4]
  refine (arrAt1_6 (fun c b => V3 m (outs m) c b) c).trans ?_
  show layerArr (V3 m (outs m) c main_v47) (V3 m (outs m) c main_v37) (V3 m (outs m) c main_v12) (V3 m (outs m) c main_v52)
    (V3 m (outs m) c main_v54) (V3 m (outs m) c main_v50) = _
  rw [V3_v47, V3_v37, V3_v12, V3_v52, V3_v54, V3_v50, outs2_eq]
  rfl

/-- What the third leaves. -/
theorem outs6_eq (c : Dev nD) : (outs m 6 main_v74 c : Mat 64 1)
    = poolOut (kX3 (mA0 m c) (mA1 m c) (mA3 m c) (mA4 m c) (mA5 m c)) (hOh (mA2 m c)) (mA6 m c) (hBo (mA7 m c)) := by
  rw [outs_6]
  refine (arrAt2_9 (fun c b => V5 m (outs m) c b) c).trans ?_
  show poolOut (layerArr (V5 m (outs m) c main_v65) (V5 m (outs m) c main_v55) (V5 m (outs m) c main_v12) (V5 m (outs m) c main_v71)
    (V5 m (outs m) c main_v73) (V5 m (outs m) c main_v68)) (V5 m (outs m) c main_v19) (V5 m (outs m) c main_arg6) (V5 m (outs m) c main_v69) = _
  rw [V5_v65, V5_v55, V5_v12, V5_v71, V5_v73, V5_v68, V5_v19, V5_arg6, V5_v69, outs4_eq]
  rfl

/-- The result buffer at the end of the run. -/
theorem result_eq (c : Dev nD) : V7 m (outs m) c main_v75 = kRes (mA0 m c) (mA1 m c) (mA2 m c) (mA3 m c) (mA4 m c) (mA5 m c) (mA6 m c) (mA7 m c) := by
  rw [V7_v75, outs6_eq]
  rfl

end Cert.KernelIdeal.Val

end
-- ==== Proof.RRes.lean ====
/-
  The reference program's result is the kernel program's expression of the same arguments: layer by layer the reference's
  stages are `Cert.Spec.layerArr` of the neighbour sums of the layer before, its closing stages `Cert.Spec.poolOut` by the
  one-hot table, and the host-side arrays on both sides are the same functions of the arguments.
-/
import proofs.«412677_j67808943669808_2_alg».proof.Proof.RefLayer
import proofs.«412677_j67808943669808_2_alg».proof.Proof.RefPool
import proofs.«412677_j67808943669808_2_alg».proof.Proof.Bridge
import proofs.«412677_j67808943669808_2_alg».proof.Proof.KRes

noncomputable section

namespace Cert.ReferenceIdeal.RefValue

open Idealize.ShloMosaic Cert.ReferenceIdeal Cert.ReferenceIdeal.Read Cert.KernelIdeal.Val Cert.Spec Cert.Bridge

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S3x128x128, .f32⟩ : BufTy).Contents (Elt Ideal))
  (x4 : (⟨S3x128, .f32⟩ : BufTy).Contents (Elt Ideal)) (x5 : (⟨S3x128x128, .f32⟩ : BufTy).Contents (Elt Ideal))
  (x6 : (⟨S128x1, .f32⟩ : BufTy).Contents (Elt Ideal)) (x7 : (⟨S1, .f32⟩ : BufTy).Contents (Elt Ideal))

/-- The reference's first layer is the kernel side's. -/
theorem x1_eq : (val_main_v41 x0 x1 x3 x4 x5 : Mat 100000 128) = kX1 x0 x1 x3 x4 x5 := by
  rw [layer1, agg1, inv_eq, wl0, wr0, bl0]; rfl

/-- The second. -/
theorem x2_eq : (val_main_v70 x0 x1 x3 x4 x5 : Mat 100000 128) = kX2 x0 x1 x3 x4 x5 := by
  rw [layer2, agg2, x1_eq, inv_eq, wl1, wr1, bl1]; rfl

/-- The third. -/
theorem x3_eq : (val_main_v99 x0 x1 x3 x4 x5 : Mat 100000 128) = kX3 x0 x1 x3 x4 x5 := by
  rw [layer3, agg3, x2_eq, inv_eq, wl2, wr2, bl2]; rfl

/-- The results agree. -/
theorem ref_eq : val_main_v116 (F := Ideal) x0 x1 x2 x3 x4 x5 x6 x7 = kRes x0 x1 x2 x3 x4 x5 x6 x7 := by
  rw [result, pool, x3_eq, bo_eq, ← oh_eq]; rfl

end Cert.ReferenceIdeal.RefValue

end
-- ==== Proof.lean ====
/-
  The certificate: both printed kernel programs (the word-level one and its idealization) run to the end and leave their
  arguments as launched — three pipelined regions threaded through the host stretches between them —; the reference
  program does too; the idealization's ledger is empty; and over the extended reals the idealized kernel program and the
  reference end with the same 64 numbers: three graph-convolution layers (neighbour sums scaled by reciprocal degrees,
  two 128 × 128 products, a bias row, the leaky activation) and the mean over each graph's nodes projected to one number,
  the kernel forming the per-graph sums as one-hot products accumulated over twenty row tiles where the reference
  scatter-adds by the batch vector.
-/
import proofs.«412677_j67808943669808_2_alg».proof.Defs
import proofs.«412677_j67808943669808_2_alg».proof.Proof.Gen.Kernel
import proofs.«412677_j67808943669808_2_alg».proof.Proof.Gen.KernelIdeal
import proofs.«412677_j67808943669808_2_alg».proof.Proof.Gen.ReferenceIdeal
import proofs.«412677_j67808943669808_2_alg».proof.Proof.Gen.Pre_finite_inputs
import proofs.«412677_j67808943669808_2_alg».proof.Proof.Bits.RunVals
import proofs.«412677_j67808943669808_2_alg».proof.Proof.RRes
import Idealize.ShloMosaic.Adequacy
import Idealize.ShloMosaic.Init

noncomputable section

namespace Cert.Proof

open Idealize.ShloMosaic Idealize.ShloMosaic.TcCoe Idealize.SL.Sem

/-- The word-level kernel program's frame. -/
theorem frame_k : Cert.frame_Kernel := fun m ρ _ => Cert.Kernel.Frm.frame (F := Bits) m ρ

/-- The idealized kernel program's frame. -/
theorem frame_ki : Cert.frame_KernelIdeal := fun m ρ _ => Cert.KernelIdeal.Frm.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the kernel side's expression of the (agreeing) arguments. -/
theorem algebraic : Cert.algebraic_KernelIdeal_ReferenceIdeal := by
  intro m ρ m' ρ' _ hagree
  refine ⟨fun c => Cert.KernelIdeal.Val.kRes (Cert.KernelIdeal.Val.mA0 m c) (Cert.KernelIdeal.Val.mA1 m c) (Cert.KernelIdeal.Val.mA2 m c) (Cert.KernelIdeal.Val.mA3 m c)
      (Cert.KernelIdeal.Val.mA4 m c) (Cert.KernelIdeal.Val.mA5 m c) (Cert.KernelIdeal.Val.mA6 m c) (Cert.KernelIdeal.Val.mA7 m c), ?_, ?_⟩
  · exact (θ_run Cert.KernelIdeal.defs _ _).mono (fun _ h c => ⟨(h c).1.trans (Cert.KernelIdeal.Val.result_eq m c), (h c).2⟩)
      (Cert.KernelIdeal.Frm.run_vals (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v116_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.RefValue.ref_eq _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
